-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v71)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v71) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v83) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x20000x128 : Shape := ⟨3, ![2, 20000, 128]⟩
abbrev S2x20000x32 : Shape := ⟨3, ![2, 20000, 32]⟩
abbrev S2x20000 : Shape := ⟨2, ![2, 20000]⟩
abbrev S128x128 : Shape := ⟨2, ![128, 128]⟩
abbrev S3x128x128 : Shape := ⟨3, ![3, 128, 128]⟩
abbrev S128 : Shape := ⟨1, ![128]⟩
abbrev S128x40 : Shape := ⟨2, ![128, 40]⟩
abbrev S40 : Shape := ⟨1, ![40]⟩
abbrev S_ : Shape := ⟨0, ![]⟩

class Facts : Prop where
  bcast_S_S2x20000x128 : S_.BroadcastsInDim S2x20000x128 (![] : Fin 0 → Fin S2x20000x128.rank)
  reducesTo_S2x20000x128_S_d0_1_2 : S2x20000x128.ReducesTo [0, 1, 2] S_
  h_S_ : 0 < S_.numel
  bcast_S_S128x128 : S_.BroadcastsInDim S128x128 (![] : Fin 0 → Fin S128x128.rank)
  reducesTo_S128x128_S_d0_1 : S128x128.ReducesTo [0, 1] S_
  bcast_S_S3x128x128 : S_.BroadcastsInDim S3x128x128 (![] : Fin 0 → Fin S3x128x128.rank)
  reducesTo_S3x128x128_S_d0_1_2 : S3x128x128.ReducesTo [0, 1, 2] S_
  bcast_S_S128 : S_.BroadcastsInDim S128 (![] : Fin 0 → Fin S128.rank)
  reducesTo_S128_S_d0 : S128.ReducesTo [0] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part2 {F : FTy → Type} [FloatOps F] (main_arg9 : FVec F S40 .f32) (main_v33 : IVec S_ 1) : IVec S_ 1 :=
  let main_v34 : FVec F S40 .f32 := Host.absf main_arg9
  let main_cst_12 : FVec F S_ .f32 := constant S_ .f32 0x7F800000#32
  let main_v35 : FVec F S40 .f32 := broadcastInDim S40 ![] bcast_S_S40 main_cst_12
  let main_v36 : IVec S40 1 := cmpf .olt main_v34 main_v35
  let main_c_13 : IVec S_ 1 := constantI S_ 1 1#1
  let main_v37 : IVec S_ 1 := (fun x v => Host.reduce IntOp.andi x v reducesTo_S40_S_d0 h_S_) main_v36 main_c_13
  let main_v38 : IVec S_ 1 := andi main_v33 main_v37
  main_v38

def fn_part1 {F : FTy → Type} [FloatOps F] (main_arg6 : FVec F S128x128 .f32) (main_arg7 : FVec F S128 .f32) (main_arg8 : FVec F S128x40 .f32) (main_arg9 : FVec F S40 .f32) (main_v13 : IVec S_ 1) (main_v16 : IVec S3x128x128 1) : IVec S_ 1 :=
  let main_c_5 : IVec S_ 1 := constantI S_ 1 1#1
  let main_v17 : IVec S_ 1 := (fun x v => Host.reduce IntOp.andi x v reducesTo_S3x128x128_S_d0_1_2 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x40 .f32 := Host.absf main_arg8
  let main_cst_10 : FVec F S_ .f32 := constant S_ .f32 0x7F800000#32
  let main_v30 : FVec F S128x40 .f32 := broadcastInDim S128x40 ![] bcast_S_S128x40 main_cst_10
  let main_v31 : IVec S128x40 1 := cmpf .olt main_v29 main_v30
  let main_c_11 : IVec S_ 1 := constantI S_ 1 1#1
  let main_v32 : IVec S_ 1 := (fun x v => Host.reduce IntOp.andi x v reducesTo_S128x40_S_d0_1 h_S_) main_v31 main_c_11
  let main_v33 : IVec S_ 1 := andi main_v28 main_v32
  fn_part2 (F := F) main_arg9 main_v33

def fn {F : FTy → Type} [FloatOps F] (main_arg0 : FVec F S2x20000x128 .f32) (main_arg1 : IVec S2x20000x32 32) (main_arg2 : IVec S2x20000 32) (main_arg3 : FVec F S128x128 .f32) (main_arg4 : FVec F S3x128x128 .f32) (main_arg5 : FVec F S3x128x128 .f32) (main_arg6 : FVec F S128x128 .f32) (main_arg7 : FVec F S128 .f32) (main_arg8 : FVec F S128x40 .f32) (main_arg9 : FVec F S40 .f32) : IVec S_ 1 :=
  let main_v0 : FVec F S2x20000x128 .f32 := Host.absf main_arg0
  let main_cst : FVec F S_ .f32 := constant S_ .f32 0x7F800000#32
  let main_v1 : FVec F S2x20000x128 .f32 := broadcastInDim S2x20000x128 ![] bcast_S_S2x20000x128 main_cst
  let main_v2 : IVec S2x20000x128 1 := cmpf .olt main_v0 main_v1
  let main_c : IVec S_ 1 := constantI S_ 1 1#1
  let main_v3 : IVec S_ 1 := (fun x v => Host.reduce IntOp.andi x v reducesTo_S2x20000x128_S_d0_1_2 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S3x128x128 .f32 := Host.absf main_arg4
  let main_cst_2 : FVec F S_ .f32 := constant S_ .f32 0x7F800000#32
  let main_v10 : FVec F S3x128x128 .f32 := broadcastInDim S3x128x128 ![] bcast_S_S3x128x128 main_cst_2
  let main_v11 : IVec S3x128x128 1 := cmpf .olt main_v9 main_v10
  let main_c_3 : IVec S_ 1 := constantI S_ 1 1#1
  let main_v12 : IVec S_ 1 := (fun x v => Host.reduce IntOp.andi x v reducesTo_S3x128x128_S_d0_1_2 h_S_) main_v11 main_c_3
  let main_v13 : IVec S_ 1 := andi main_v8 main_v12
  let main_v14 : FVec F S3x128x128 .f32 := Host.absf main_arg5
  let main_cst_4 : FVec F S_ .f32 := constant S_ .f32 0x7F800000#32
  let main_v15 : FVec F S3x128x128 .f32 := broadcastInDim S3x128x128 ![] bcast_S_S3x128x128 main_cst_4
  let main_v16 : IVec S3x128x128 1 := cmpf .olt main_v14 main_v15
  fn_part1 (F := F) main_arg6 main_arg7 main_arg8 main_arg9 main_v13 main_v16
-- ==== Kernel.lean ====
abbrev S2x20000x128 : Shape := ⟨3, ![2, 20000, 128]⟩
abbrev S2x20000x32 : Shape := ⟨3, ![2, 20000, 32]⟩
abbrev S2x20000 : Shape := ⟨2, ![2, 20000]⟩
abbrev S128x128 : Shape := ⟨2, ![128, 128]⟩
abbrev S3x128x128 : Shape := ⟨3, ![3, 128, 128]⟩
abbrev S128 : Shape := ⟨1, ![128]⟩
abbrev S128x40 : Shape := ⟨2, ![128, 40]⟩
abbrev S40 : Shape := ⟨1, ![40]⟩
abbrev S40000x128 : Shape := ⟨2, ![40000, 128]⟩
abbrev S4000x128 : Shape := ⟨2, ![4000, 128]⟩
abbrev S4000 : Shape := ⟨1, ![4000]⟩
abbrev S4000x1 : Shape := ⟨2, ![4000, 1]⟩
abbrev S_ : Shape := ⟨0, ![]⟩
abbrev S2x20000x1 : Shape := ⟨3, ![2, 20000, 1]⟩
abbrev S2x20000x32x1 : Shape := ⟨4, ![2, 20000, 32, 1]⟩
abbrev S2x20000x32x128 : Shape := ⟨4, ![2, 20000, 32, 128]⟩
abbrev S1x128x128 : Shape := ⟨3, ![1, 128, 128]⟩
abbrev S1x128 : Shape := ⟨2, ![1, 128]⟩
abbrev S1x40 : Shape := ⟨2, ![1, 40]⟩
abbrev S40000x40 : Shape := ⟨2, ![40000, 40]⟩
abbrev S4000x40 : Shape := ⟨2, ![4000, 40]⟩
abbrev S2x20000x40 : Shape := ⟨3, ![2, 20000, 40]⟩

abbrev nBuf : Space → Nat
  | .hbm => 96
  | .vmem => 33
  | .smem => 0
  | _ => 0

abbrev bufTy : (tb : Table) → Fin (tcTables nBuf tb) → BufTy
  | .hbm, ⟨0, _⟩ => ⟨S2x20000x128, .f32⟩
  | .hbm, ⟨1, _⟩ => ⟨S2x20000x32, .i32⟩
  | .hbm, ⟨2, _⟩ => ⟨S2x20000, .i32⟩
  | .hbm, ⟨3, _⟩ => ⟨S128x128, .f32⟩
  | .hbm, ⟨4, _⟩ => ⟨S3x128x128, .f32⟩
  | .hbm, ⟨5, _⟩ => ⟨S3x128x128, .f32⟩
  | .hbm, ⟨6, _⟩ => ⟨S128x128, .f32⟩
  | .hbm, ⟨7, _⟩ => ⟨S128, .f32⟩
  | .hbm, ⟨8, _⟩ => ⟨S128x40, .f32⟩
  | .hbm, ⟨9, _⟩ => ⟨S40, .f32⟩
  | .hbm, ⟨10, _⟩ => ⟨S40000x128, .f32⟩
  | .hbm, ⟨11, _⟩ => ⟨S40000x128, .bf16⟩
  | .hbm, ⟨12, _⟩ => ⟨S2x20000x128, .bf16⟩
  | .hbm, ⟨13, _⟩ => ⟨S_, .i32⟩
  | .hbm, ⟨14, _⟩ => ⟨S2x20000, .i32⟩
  | .hbm, ⟨15, _⟩ => ⟨S2x20000, .i1⟩
  | .hbm, ⟨16, _⟩ => ⟨S_, .i32⟩
  | .hbm, ⟨17, _⟩ => ⟨S_, .i32⟩
  | .hbm, ⟨18, _⟩ => ⟨S2x20000, .i32⟩
  | .hbm, ⟨19, _⟩ => ⟨S2x20000, .i32⟩
  | .hbm, ⟨20, _⟩ => ⟨S2x20000, .f32⟩
  | .hbm, ⟨21, _⟩ => ⟨S_, .f32⟩
  | .hbm, ⟨22, _⟩ => ⟨S2x20000, .f32⟩
  | .hbm, ⟨23, _⟩ => ⟨S2x20000, .f32⟩
  | .hbm, ⟨24, _⟩ => ⟨S2x20000x1, .f32⟩
  | .hbm, ⟨25, _⟩ => ⟨S_, .i32⟩
  | .hbm, ⟨26, _⟩ => ⟨S2x20000x32, .i32⟩
  | .hbm, ⟨27, _⟩ => ⟨S2x20000x32, .i1⟩
  | .hbm, ⟨28, _⟩ => ⟨S_, .i32⟩
  | .hbm, ⟨29, _⟩ => ⟨S2x20000x32, .i32⟩
  | .hbm, ⟨30, _⟩ => ⟨S2x20000x32, .i32⟩
  | .hbm, ⟨31, _⟩ => ⟨S2x20000x32, .i32⟩
  | .hbm, ⟨32, _⟩ => ⟨S2x20000x32x1, .i32⟩
  | .hbm, ⟨33, _⟩ => ⟨S2x20000x32x128, .bf16⟩
  | .hbm, ⟨34, _⟩ => ⟨S2x20000x32x128, .f32⟩
  | .hbm, ⟨35, _⟩ => ⟨S_, .f32⟩
  | .hbm, ⟨36, _⟩ => ⟨S2x20000x128, .f32⟩
  | .hbm, ⟨37, _⟩ => ⟨S2x20000x128, .f32⟩
  | .hbm, ⟨38, _⟩ => ⟨S2x20000x128, .f32⟩
  | .hbm, ⟨39, _⟩ => ⟨S2x20000x128, .bf16⟩
  | .hbm, ⟨40, _⟩ => ⟨S40000x128, .bf16⟩
  | .hbm, ⟨41, _⟩ => ⟨S40000x128, .bf16⟩
  | .hbm, ⟨42, _⟩ => ⟨S1x128x128, .f32⟩
  | .hbm, ⟨43, _⟩ => ⟨S128x128, .f32⟩
  | .hbm, ⟨44, _⟩ => ⟨S1x128x128, .f32⟩
  | .hbm, ⟨45, _⟩ => ⟨S128x128, .f32⟩
  | .hbm, ⟨46, _⟩ => ⟨S40000x128, .bf16⟩
  | .hbm, ⟨47, _⟩ => ⟨S2x20000x128, .bf16⟩
  | .hbm, ⟨48, _⟩ => ⟨S_, .i32⟩
  | .hbm, ⟨49, _⟩ => ⟨S2x20000x32, .i32⟩
  | .hbm, ⟨50, _⟩ => ⟨S2x20000x32, .i1⟩
  | .hbm, ⟨51, _⟩ => ⟨S_, .i32⟩
  | .hbm, ⟨52, _⟩ => ⟨S2x20000x32, .i32⟩
  | .hbm, ⟨53, _⟩ => ⟨S2x20000x32, .i32⟩
  | .hbm, ⟨54, _⟩ => ⟨S2x20000x32, .i32⟩
  | .hbm, ⟨55, _⟩ => ⟨S2x20000x32x1, .i32⟩
  | .hbm, ⟨56, _⟩ => ⟨S2x20000x32x128, .bf16⟩
  | .hbm, ⟨57, _⟩ => ⟨S2x20000x32x128, .f32⟩
  | .hbm, ⟨58, _⟩ => ⟨S_, .f32⟩
  | .hbm, ⟨59, _⟩ => ⟨S2x20000x128, .f32⟩
  | .hbm, ⟨60, _⟩ => ⟨S2x20000x128, .f32⟩
  | .hbm, ⟨61, _⟩ => ⟨S2x20000x128, .f32⟩
  | .hbm, ⟨62, _⟩ => ⟨S2x20000x128, .bf16⟩
  | .hbm, ⟨63, _⟩ => ⟨S40000x128, .bf16⟩
  | .hbm, ⟨64, _⟩ => ⟨S40000x128, .bf16⟩
  | .hbm, ⟨65, _⟩ => ⟨S1x128x128, .f32⟩
  | .hbm, ⟨66, _⟩ => ⟨S128x128, .f32⟩
  | .hbm, ⟨67, _⟩ => ⟨S1x128x128, .f32⟩
  | .hbm, ⟨68, _⟩ => ⟨S128x128, .f32⟩
  | .hbm, ⟨69, _⟩ => ⟨S40000x128, .bf16⟩
  | .hbm, ⟨70, _⟩ => ⟨S2x20000x128, .bf16⟩
  | .hbm, ⟨71, _⟩ => ⟨S_, .i32⟩
  | .hbm, ⟨72, _⟩ => ⟨S2x20000x32, .i32⟩
  | .hbm, ⟨73, _⟩ => ⟨S2x20000x32, .i1⟩
  | .hbm, ⟨74, _⟩ => ⟨S_, .i32⟩
  | .hbm, ⟨75, _⟩ => ⟨S2x20000x32, .i32⟩
  | .hbm, ⟨76, _⟩ => ⟨S2x20000x32, .i32⟩
  | .hbm, ⟨77, _⟩ => ⟨S2x20000x32, .i32⟩
  | .hbm, ⟨78, _⟩ => ⟨S2x20000x32x1, .i32⟩
  | .hbm, ⟨79, _⟩ => ⟨S2x20000x32x128, .bf16⟩
  | .hbm, ⟨80, _⟩ => ⟨S2x20000x32x128, .f32⟩
  | .hbm, ⟨81, _⟩ => ⟨S_, .f32⟩
  | .hbm, ⟨82, _⟩ => ⟨S2x20000x128, .f32⟩
  | .hbm, ⟨83, _⟩ => ⟨S2x20000x128, .f32⟩
  | .hbm, ⟨84, _⟩ => ⟨S2x20000x128, .f32⟩
  | .hbm, ⟨85, _⟩ => ⟨S2x20000x128, .bf16⟩
  | .hbm, ⟨86, _⟩ => ⟨S40000x128, .bf16⟩
  | .hbm, ⟨87, _⟩ => ⟨S40000x128, .bf16⟩
  | .hbm, ⟨88, _⟩ => ⟨S1x128, .f32⟩
  | .hbm, ⟨89, _⟩ => ⟨S1x40, .f32⟩
  | .hbm, ⟨90, _⟩ => ⟨S1x128x128, .f32⟩
  | .hbm, ⟨91, _⟩ => ⟨S128x128, .f32⟩
  | .hbm, ⟨92, _⟩ => ⟨S1x128x128, .f32⟩
  | .hbm, ⟨93, _⟩ => ⟨S128x128, .f32⟩
  | .hbm, ⟨94, _⟩ => ⟨S40000x40, .f32⟩
  | .hbm, ⟨95, _⟩ => ⟨S2x20000x40, .f32⟩
  | .local _ .vmem, ⟨0, _⟩ => ⟨S4000x128, .f32⟩
  | .local _ .vmem, ⟨1, _⟩ => ⟨S4000x128, .f32⟩
  | .local _ .vmem, ⟨2, _⟩ => ⟨S128x128, .f32⟩
  | .local _ .vmem, ⟨3, _⟩ => ⟨S4000x128, .bf16⟩
  | .local _ .vmem, ⟨4, _⟩ => ⟨S4000x128, .bf16⟩
  | .local _ .vmem, ⟨5, _⟩ => ⟨S4000x128, .bf16⟩
  | .local _ .vmem, ⟨6, _⟩ => ⟨S4000x128, .bf16⟩
  | .local _ .vmem, ⟨7, _⟩ => ⟨S4000x128, .bf16⟩
  | .local _ .vmem, ⟨8, _⟩ => ⟨S4000x128, .bf16⟩
  | .local _ .vmem, ⟨9, _⟩ => ⟨S128x128, .f32⟩
  | .local _ .vmem, ⟨10, _⟩ => ⟨S128x128, .f32⟩
  | .local _ .vmem, ⟨11, _⟩ => ⟨S4000x128, .bf16⟩
  | .local _ .vmem, ⟨12, _⟩ => ⟨S4000x128, .bf16⟩
  | .local _ .vmem, ⟨13, _⟩ => ⟨S4000x128, .bf16⟩
  | .local _ .vmem, ⟨14, _⟩ => ⟨S4000x128, .bf16⟩
  | .local _ .vmem, ⟨15, _⟩ => ⟨S4000x128, .bf16⟩
  | .local _ .vmem, ⟨16, _⟩ => ⟨S4000x128, .bf16⟩
  | .local _ .vmem, ⟨17, _⟩ => ⟨S128x128, .f32⟩
  | .local _ .vmem, ⟨18, _⟩ => ⟨S128x128, .f32⟩
  | .local _ .vmem, ⟨19, _⟩ => ⟨S4000x128, .bf16⟩
  | .local _ .vmem, ⟨20, _⟩ => ⟨S4000x128, .bf16⟩
  | .local _ .vmem, ⟨21, _⟩ => ⟨S4000x128, .bf16⟩
  | .local _ .vmem, ⟨22, _⟩ => ⟨S4000x128, .bf16⟩
  | .local _ .vmem, ⟨23, _⟩ => ⟨S4000x128, .bf16⟩
  | .local _ .vmem, ⟨24, _⟩ => ⟨S4000x128, .bf16⟩
  | .local _ .vmem, ⟨25, _⟩ => ⟨S128x128, .f32⟩
  | .local _ .vmem, ⟨26, _⟩ => ⟨S128x128, .f32⟩
  | .local _ .vmem, ⟨27, _⟩ => ⟨S128x128, .f32⟩
  | .local _ .vmem, ⟨28, _⟩ => ⟨S1x128, .f32⟩
  | .local _ .vmem, ⟨29, _⟩ => ⟨S128x40, .f32⟩
  | .local _ .vmem, ⟨30, _⟩ => ⟨S1x40, .f32⟩
  | .local _ .vmem, ⟨31, _⟩ => ⟨S4000x40, .f32⟩
  | .local _ .vmem, ⟨32, _⟩ => ⟨S4000x40, .f32⟩
  | _, _ => ⟨S2x20000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_c : Ref sig .tc := ⟨.hbm, 13, rfl⟩
abbrev main_v3 : Ref sig .tc := ⟨.hbm, 14, rfl⟩
abbrev main_v4 : Ref sig .tc := ⟨.hbm, 15, rfl⟩
abbrev main_c_0 : Ref sig .tc := ⟨.hbm, 16, rfl⟩
abbrev main_call0_v0 : Ref sig .tc := ⟨.hbm, 17, rfl⟩
abbrev main_call0_v1 : Ref sig .tc := ⟨.hbm, 18, rfl⟩
abbrev main_v5 : Ref sig .tc := ⟨.hbm, 19, rfl⟩
abbrev main_v6 : Ref sig .tc := ⟨.hbm, 20, rfl⟩
abbrev main_cst : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_c_1 : Ref sig .tc := ⟨.hbm, 25, rfl⟩
abbrev main_v10 : Ref sig .tc := ⟨.hbm, 26, rfl⟩
abbrev main_v11 : Ref sig .tc := ⟨.hbm, 27, rfl⟩
abbrev main_c_2 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_3 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_c_4 : Ref sig .tc := ⟨.hbm, 48, rfl⟩
abbrev main_v30 : Ref sig .tc := ⟨.hbm, 49, rfl⟩
abbrev main_v31 : Ref sig .tc := ⟨.hbm, 50, rfl⟩
abbrev main_c_5 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_6 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_c_7 : Ref sig .tc := ⟨.hbm, 71, rfl⟩
abbrev main_v50 : Ref sig .tc := ⟨.hbm, 72, rfl⟩
abbrev main_v51 : Ref sig .tc := ⟨.hbm, 73, rfl⟩
abbrev main_c_8 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_cst_9 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg4_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg1_1 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg4_0 : Ref sig .tc := ⟨.vmem, 19, rfl⟩
abbrev cc2_stg4_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg4_0 : Ref sig .tc := ⟨.vmem, 27, rfl⟩
abbrev cc3_stg5_0 : Ref sig .tc := ⟨.vmem, 28, rfl⟩
abbrev cc3_stg6_0 : Ref sig .tc := ⟨.vmem, 29, rfl⟩
abbrev cc3_stg7_0 : Ref sig .tc := ⟨.vmem, 30, rfl⟩
abbrev cc3_stg8_0 : Ref sig .tc := ⟨.vmem, 31, rfl⟩
abbrev cc3_stg8_1 : Ref sig .tc := ⟨.vmem, 32, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem4_0 : DmaSem sig := 11
abbrev cc1_sem4_1 : DmaSem sig := 12
abbrev cc2_sem0_0 : DmaSem sig := 13
abbrev cc2_sem0_1 : DmaSem sig := 14
abbrev cc2_sem1_0 : DmaSem sig := 15
abbrev cc2_sem1_1 : DmaSem sig := 16
abbrev cc2_sem2_0 : DmaSem sig := 17
abbrev cc2_sem3_0 : DmaSem sig := 18
abbrev cc2_sem4_0 : DmaSem sig := 19
abbrev cc2_sem4_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem3_0 : DmaSem sig := 26
abbrev cc3_sem4_0 : DmaSem sig := 27
abbrev cc3_sem5_0 : DmaSem sig := 28
abbrev cc3_sem6_0 : DmaSem sig := 29
abbrev cc3_sem7_0 : DmaSem sig := 30
abbrev cc3_sem8_0 : DmaSem sig := 31
abbrev cc3_sem8_1 : DmaSem sig := 32

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S4000x128 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x128 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x128 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S4000x128 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x128 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S4000x128 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S128x40 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1x40 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 2 → Memref sig .tc .vmem S4000x40 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true]

class Facts₀ : Prop where
  shapeCasts_S2x20000x128_S40000x128 : S2x20000x128.ShapeCasts S40000x128
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  reduces_S4000x128_S4000 : S4000x128.Reduces [1] S4000
  shapeCasts_S4000_S4000x1 : S4000.ShapeCasts S4000x1
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  broadcasts_S4000x1_S4000x128 : S4000x1.Broadcasts S4000x128
  packedbf16_S4000x128_S4000x128_0_0 : (Rect.unit (s := S4000x128) ![0, 0] S4000x128.size inb_S4000x128_S4000x128_0_0).PackedRows (EltTy.packing .bf16)
  shapeCasts_S40000x128_S2x20000x128 : S40000x128.ShapeCasts S2x20000x128
  bcast_S_S2x20000 : S_.BroadcastsInDim S2x20000 (![] : Fin 0 → Fin S2x20000.rank)
  bcast_S2x20000_S2x20000x1_0_1 : S2x20000.BroadcastsInDim S2x20000x1 (![0, 1] : Fin 2 → Fin S2x20000x1.rank)
  bcast_S_S2x20000x32 : S_.BroadcastsInDim S2x20000x32 (![] : Fin 0 → Fin S2x20000x32.rank)
  bcast_S2x20000x32_S2x20000x32x1_0_1_2 : S2x20000x32.BroadcastsInDim S2x20000x32x1 (![0, 1, 2] : Fin 3 → Fin S2x20000x32x1.rank)
  reducesTo_S2x20000x32x128_S2x20000x128_d2 : S2x20000x32x128.ReducesTo [2] S2x20000x128
  h_S_ : 0 < S_.numel
  bcast_S2x20000x1_S2x20000x128_0_1_2 : S2x20000x1.BroadcastsInDim S2x20000x128 (![0, 1, 2] : Fin 3 → Fin S2x20000x128.rank)
  slices_S3x128x128_S1x128x128_0_0_0 : S3x128x128.Slices ![0, 0, 0] S1x128x128
  shapeCasts_S1x128x128_S128x128 : S1x128x128.ShapeCasts S128x128
  shapeCasts_S128x128_S128x128 : S128x128.ShapeCasts S128x128
  slices_S3x128x128_S1x128x128_1_0_0 : S3x128x128.Slices ![1, 0, 0] S1x128x128
  shapeCasts_S128_S1x128 : S128.ShapeCasts S1x128
  shapeCasts_S40_S1x40 : S40.ShapeCasts S1x40
  slices_S3x128x128_S1x128x128_2_0_0 : S3x128x128.Slices ![2, 0, 0] S1x128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  inb_S128x40_S128x40_0_0 : ∀ a, (![0, 0] : Fin 2 → Nat) a + S128x40.size a ≤ S128x40.size a
  h_S128x40 : 0 < S128x40.numel
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S4000x40 : S1x40.Broadcasts S4000x40
  reduces_S4000x40_S4000 : S4000x40.Reduces [1] S4000
  broadcasts_S4000x1_S4000x40 : S4000x1.Broadcasts S4000x40
  inb_S4000x40_S4000x40_0_0 : ∀ a, (![0, 0] : Fin 2 → Nat) a + S4000x40.size a ≤ S4000x40.size a
  h_S4000x40 : 0 < S4000x40.numel
  shapeCasts_S40000x40_S2x20000x40 : S40000x40.ShapeCasts S2x20000x40
  dot_S4000x128_S128x128_S4000x128_1_0_0_1_n_n_wf : DotDims.WF S4000x128 S128x128 S4000x128 [1] [0] [0] [1] [] []
  gather_S2x20000x128_S2x20000x32x1_S2x20000x32x128_3_1_0_0_1_3_11128_wf : GatherDims.WF S2x20000x128 S2x20000x32x1 S2x20000x32x128 [3] [1] [0] [1] [0] 3 ![1, 1, 128]
  dot_S4000x128_S128x40_S4000x40_1_0_0_1_n_n_wf : DotDims.WF S4000x128 S128x40 S4000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S40000x128.size a
  hwx0_0 : ∀ i : grid0.Coords, EltTy.bits .f32 = 32 ∨ (Rect.block (s := S40000x128) S4000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x128.size a ≤ S40000x128.size a
  hwx0_2 : ∀ i : grid0.Coords, EltTy.bits .bf16 = 32 ∨ (Rect.block (s := S40000x128) S4000x128.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S40000x128.size a
  hwx1_0 : ∀ i : grid1.Coords, EltTy.bits .bf16 = 32 ∨ (Rect.block (s := S40000x128) S4000x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x128.size a ≤ S40000x128.size a
  hwx1_1 : ∀ i : grid1.Coords, EltTy.bits .bf16 = 32 ∨ (Rect.block (s := S40000x128) S4000x128.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S4000x128.size a ≤ S40000x128.size a
  hwx1_4 : ∀ i : grid1.Coords, EltTy.bits .bf16 = 32 ∨ (Rect.block (s := S40000x128) S4000x128.size (cc1_transform_4 i) (hinb1_4 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S40000x128.size a
  hwx2_0 : ∀ i : grid2.Coords, EltTy.bits .bf16 = 32 ∨ (Rect.block (s := S40000x128) S4000x128.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x128.size a ≤ S40000x128.size a
  hwx2_1 : ∀ i : grid2.Coords, EltTy.bits .bf16 = 32 ∨ (Rect.block (s := S40000x128) S4000x128.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S4000x128.size a ≤ S40000x128.size a
  hwx2_4 : ∀ i : grid2.Coords, EltTy.bits .bf16 = 32 ∨ (Rect.block (s := S40000x128) S4000x128.size (cc2_transform_4 i) (hinb2_4 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x128.size a ≤ S40000x128.size a
  hwx3_0 : ∀ i : grid3.Coords, EltTy.bits .bf16 = 32 ∨ (Rect.block (s := S40000x128) S4000x128.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S4000x128.size a ≤ S40000x128.size a
  hwx3_1 : ∀ i : grid3.Coords, EltTy.bits .bf16 = 32 ∨ (Rect.block (s := S40000x128) S4000x128.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .f32 = 32 ∨ (Rect.block (s := S128x128) S128x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128x128.size a ≤ S128x128.size a
  hwx3_4 : ∀ i : grid3.Coords, EltTy.bits .f32 = 32 ∨ (Rect.block (s := S128x128) S128x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S128x40.size a ≤ S128x40.size a
  hwx3_6 : ∀ i : grid3.Coords, EltTy.bits .f32 = 32 ∨ (Rect.block (s := S128x40) S128x40.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S1x40.size a ≤ S1x40.size a
  hwx3_7 : ∀ i : grid3.Coords, EltTy.bits .f32 = 32 ∨ (Rect.block (s := S1x40) S1x40.size (cc3_transform_7 i) (hinb3_7 i)).WholeWords (EltTy.packing .f32)
  hstage3_8 : ∀ j, (stage3_8 j).IsWhole
  nbuf3_8 : grid3.bufCount reads3_8 false = 2
  hreads3_8 : ∀ i i' : grid3.Coords, (∀ a, reads3_8 a = true → i a = i' a) → cc3_transform_8 i = cc3_transform_8 i'
  hinb3_8 : ∀ (i : grid3.Coords) a, (cc3_transform_8 i a + 1) * S4000x40.size a ≤ S40000x40.size a
  hwx3_8 : ∀ i : grid3.Coords, EltTy.bits .f32 = 32 ∨ (Rect.block (s := S40000x40) S4000x40.size (cc3_transform_8 i) (hinb3_8 i)).WholeWords (EltTy.packing .f32)

variable [Facts₀]

def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def gather_S2x20000x128_S2x20000x32x1_S2x20000x32x128_3_1_0_0_1_3_11128 : GatherDims S2x20000x128 S2x20000x32x1 S2x20000x32x128 where
  offsetDims := [3]
  collapsedSliceDims := [1]
  operandBatchingDims := [0]
  startIndicesBatchingDims := [0]
  startIndexMap := [1]
  indexVectorDim := 3
  sliceSizes := ![1, 1, 128]
  wf := gather_S2x20000x128_S2x20000x32x1_S2x20000x32x128_3_1_0_0_1_3_11128_wf
def dot_S4000x128_S128x40_S4000x40_1_0_0_1_n_n : DotDims S4000x128 S128x40 S4000x40 where
  lhsContracting := [1]
  rhsContracting := [0]
  lhsNonContracting := [0]
  rhsNonContracting := [1]
  lhsBatch := []
  rhsBatch := []
  wf := dot_S4000x128_S128x40_S4000x40_1_0_0_1_n_n_wf

abbrev win0_0 : Pipeline.Window sig grid0 :=
  Pipeline.Window.ofSpec (Memref.whole main_v0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S4000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v23) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v22) S4000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v25) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v27) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v28) S4000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v43) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v42) S4000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v45) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v47) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v48) S4000x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v63) S4000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v62) S4000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v67) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v69) S128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg6) S128x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v64) S1x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_arg8) S128x40.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v65) S1x40.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v70) S4000x40.size cc3_transform_8 reads3_8 true false 2 stage3_8 sem3_8
    hrank3 hreads3_8 hinb3_8 nbuf3_8 (Memref.isWhole_whole _) hwx3_8 hstage3_8

abbrev win3 : Fin 9 → Pipeline.Window sig grid3 := fun | 0 => win3_0 | 1 => win3_1 | 2 => win3_2 | 3 => win3_3 | 4 => win3_4 | 5 => win3_5 | 6 => win3_6 | 7 => win3_7 | 8 => win3_8 | ⟨_ + 9, h⟩ => absurd h (Nat.not_lt.2 (Nat.le_add_left _ _))
abbrev spec3 : Fin 9 → Pipeline.WinSpec sig grid3.rank := fun w => (win3 w).toWinSpec

class Facts : Prop extends Facts₀ where

variable [Facts]
-- ==== ReferenceIdeal.lean ====
abbrev S2x20000x128 : Shape := ⟨3, ![2, 20000, 128]⟩
abbrev S2x20000x32 : Shape := ⟨3, ![2, 20000, 32]⟩
abbrev S2x20000 : Shape := ⟨2, ![2, 20000]⟩
abbrev S128x128 : Shape := ⟨2, ![128, 128]⟩
abbrev S3x128x128 : Shape := ⟨3, ![3, 128, 128]⟩
abbrev S128 : Shape := ⟨1, ![128]⟩
abbrev S128x40 : Shape := ⟨2, ![128, 40]⟩
abbrev S40 : Shape := ⟨1, ![40]⟩
abbrev S_ : Shape := ⟨0, ![]⟩
abbrev S2x20000x1 : Shape := ⟨3, ![2, 20000, 1]⟩
abbrev S2x20000x32x1 : Shape := ⟨4, ![2, 20000, 32, 1]⟩
abbrev S2x20000x32x128 : Shape := ⟨4, ![2, 20000, 32, 128]⟩
abbrev S1x128x128 : Shape := ⟨3, ![1, 128, 128]⟩
abbrev S1x1x128 : Shape := ⟨3, ![1, 1, 128]⟩
abbrev S2x20000x40 : Shape := ⟨3, ![2, 20000, 40]⟩
abbrev S1x1x40 : Shape := ⟨3, ![1, 1, 40]⟩

abbrev nBuf : Space → Nat
  | .hbm => 119
  | .vmem => 0
  | .smem => 0
  | _ => 0

abbrev bufTy : (tb : Table) → Fin (tcTables nBuf tb) → BufTy
  | .hbm, ⟨0, _⟩ => ⟨S2x20000x128, .f32⟩
  | .hbm, ⟨1, _⟩ => ⟨S2x20000x32, .i32⟩
  | .hbm, ⟨2, _⟩ => ⟨S2x20000, .i32⟩
  | .hbm, ⟨3, _⟩ => ⟨S128x128, .f32⟩
  | .hbm, ⟨4, _⟩ => ⟨S3x128x128, .f32⟩
  | .hbm, ⟨5, _⟩ => ⟨S3x128x128, .f32⟩
  | .hbm, ⟨6, _⟩ => ⟨S128x128, .f32⟩
  | .hbm, ⟨7, _⟩ => ⟨S128, .f32⟩
  | .hbm, ⟨8, _⟩ => ⟨S128x40, .f32⟩
  | .hbm, ⟨9, _⟩ => ⟨S40, .f32⟩
  | .hbm, ⟨10, _⟩ => ⟨S_, .f32⟩
  | .hbm, ⟨11, _⟩ => ⟨S2x20000, .f32⟩
  | .hbm, ⟨12, _⟩ => ⟨S2x20000x1, .f32⟩
  | .hbm, ⟨13, _⟩ => ⟨S2x20000x128, .f32⟩
  | .hbm, ⟨14, _⟩ => ⟨S2x20000x128, .f32⟩
  | .hbm, ⟨15, _⟩ => ⟨S2x20000x128, .f32⟩
  | .hbm, ⟨16, _⟩ => ⟨S_, .i32⟩
  | .hbm, ⟨17, _⟩ => ⟨S2x20000, .i32⟩
  | .hbm, ⟨18, _⟩ => ⟨S2x20000, .i1⟩
  | .hbm, ⟨19, _⟩ => ⟨S_, .i32⟩
  | .hbm, ⟨20, _⟩ => ⟨S_, .i32⟩
  | .hbm, ⟨21, _⟩ => ⟨S2x20000, .i32⟩
  | .hbm, ⟨22, _⟩ => ⟨S2x20000, .i32⟩
  | .hbm, ⟨23, _⟩ => ⟨S2x20000, .f32⟩
  | .hbm, ⟨24, _⟩ => ⟨S2x20000x1, .f32⟩
  | .hbm, ⟨25, _⟩ => ⟨S_, .i32⟩
  | .hbm, ⟨26, _⟩ => ⟨S2x20000x32, .i32⟩
  | .hbm, ⟨27, _⟩ => ⟨S2x20000x32, .i1⟩
  | .hbm, ⟨28, _⟩ => ⟨S_, .i32⟩
  | .hbm, ⟨29, _⟩ => ⟨S2x20000x32, .i32⟩
  | .hbm, ⟨30, _⟩ => ⟨S2x20000x32, .i32⟩
  | .hbm, ⟨31, _⟩ => ⟨S2x20000x32, .i32⟩
  | .hbm, ⟨32, _⟩ => ⟨S2x20000x32x1, .i32⟩
  | .hbm, ⟨33, _⟩ => ⟨S2x20000x32x128, .f32⟩
  | .hbm, ⟨34, _⟩ => ⟨S_, .f32⟩
  | .hbm, ⟨35, _⟩ => ⟨S2x20000x128, .f32⟩
  | .hbm, ⟨36, _⟩ => ⟨S2x20000x128, .f32⟩
  | .hbm, ⟨37, _⟩ => ⟨S2x20000x128, .f32⟩
  | .hbm, ⟨38, _⟩ => ⟨S1x128x128, .f32⟩
  | .hbm, ⟨39, _⟩ => ⟨S128x128, .f32⟩
  | .hbm, ⟨40, _⟩ => ⟨S2x20000x128, .f32⟩
  | .hbm, ⟨41, _⟩ => ⟨S1x128x128, .f32⟩
  | .hbm, ⟨42, _⟩ => ⟨S128x128, .f32⟩
  | .hbm, ⟨43, _⟩ => ⟨S2x20000x128, .f32⟩
  | .hbm, ⟨44, _⟩ => ⟨S2x20000x128, .f32⟩
  | .hbm, ⟨45, _⟩ => ⟨S_, .f32⟩
  | .hbm, ⟨46, _⟩ => ⟨S2x20000x128, .f32⟩
  | .hbm, ⟨47, _⟩ => ⟨S2x20000x128, .f32⟩
  | .hbm, ⟨48, _⟩ => ⟨S_, .i32⟩
  | .hbm, ⟨49, _⟩ => ⟨S2x20000x32, .i32⟩
  | .hbm, ⟨50, _⟩ => ⟨S2x20000x32, .i1⟩
  | .hbm, ⟨51, _⟩ => ⟨S_, .i32⟩
  | .hbm, ⟨52, _⟩ => ⟨S2x20000x32, .i32⟩
  | .hbm, ⟨53, _⟩ => ⟨S2x20000x32, .i32⟩
  | .hbm, ⟨54, _⟩ => ⟨S2x20000x32, .i32⟩
  | .hbm, ⟨55, _⟩ => ⟨S2x20000x32x1, .i32⟩
  | .hbm, ⟨56, _⟩ => ⟨S2x20000x32x128, .f32⟩
  | .hbm, ⟨57, _⟩ => ⟨S_, .f32⟩
  | .hbm, ⟨58, _⟩ => ⟨S2x20000x128, .f32⟩
  | .hbm, ⟨59, _⟩ => ⟨S2x20000x128, .f32⟩
  | .hbm, ⟨60, _⟩ => ⟨S2x20000x128, .f32⟩
  | .hbm, ⟨61, _⟩ => ⟨S1x128x128, .f32⟩
  | .hbm, ⟨62, _⟩ => ⟨S128x128, .f32⟩
  | .hbm, ⟨63, _⟩ => ⟨S2x20000x128, .f32⟩
  | .hbm, ⟨64, _⟩ => ⟨S1x128x128, .f32⟩
  | .hbm, ⟨65, _⟩ => ⟨S128x128, .f32⟩
  | .hbm, ⟨66, _⟩ => ⟨S2x20000x128, .f32⟩
  | .hbm, ⟨67, _⟩ => ⟨S2x20000x128, .f32⟩
  | .hbm, ⟨68, _⟩ => ⟨S_, .f32⟩
  | .hbm, ⟨69, _⟩ => ⟨S2x20000x128, .f32⟩
  | .hbm, ⟨70, _⟩ => ⟨S2x20000x128, .f32⟩
  | .hbm, ⟨71, _⟩ => ⟨S_, .i32⟩
  | .hbm, ⟨72, _⟩ => ⟨S2x20000x32, .i32⟩
  | .hbm, ⟨73, _⟩ => ⟨S2x20000x32, .i1⟩
  | .hbm, ⟨74, _⟩ => ⟨S_, .i32⟩
  | .hbm, ⟨75, _⟩ => ⟨S2x20000x32, .i32⟩
  | .hbm, ⟨76, _⟩ => ⟨S2x20000x32, .i32⟩
  | .hbm, ⟨77, _⟩ => ⟨S2x20000x32, .i32⟩
  | .hbm, ⟨78, _⟩ => ⟨S2x20000x32x1, .i32⟩
  | .hbm, ⟨79, _⟩ => ⟨S2x20000x32x128, .f32⟩
  | .hbm, ⟨80, _⟩ => ⟨S_, .f32⟩
  | .hbm, ⟨81, _⟩ => ⟨S2x20000x128, .f32⟩
  | .hbm, ⟨82, _⟩ => ⟨S2x20000x128, .f32⟩
  | .hbm, ⟨83, _⟩ => ⟨S2x20000x128, .f32⟩
  | .hbm, ⟨84, _⟩ => ⟨S1x128x128, .f32⟩
  | .hbm, ⟨85, _⟩ => ⟨S128x128, .f32⟩
  | .hbm, ⟨86, _⟩ => ⟨S2x20000x128, .f32⟩
  | .hbm, ⟨87, _⟩ => ⟨S1x128x128, .f32⟩
  | .hbm, ⟨88, _⟩ => ⟨S128x128, .f32⟩
  | .hbm, ⟨89, _⟩ => ⟨S2x20000x128, .f32⟩
  | .hbm, ⟨90, _⟩ => ⟨S2x20000x128, .f32⟩
  | .hbm, ⟨91, _⟩ => ⟨S_, .f32⟩
  | .hbm, ⟨92, _⟩ => ⟨S2x20000x128, .f32⟩
  | .hbm, ⟨93, _⟩ => ⟨S2x20000x128, .f32⟩
  | .hbm, ⟨94, _⟩ => ⟨S2x20000x128, .f32⟩
  | .hbm, ⟨95, _⟩ => ⟨S1x1x128, .f32⟩
  | .hbm, ⟨96, _⟩ => ⟨S2x20000x128, .f32⟩
  | .hbm, ⟨97, _⟩ => ⟨S2x20000x128, .f32⟩
  | .hbm, ⟨98, _⟩ => ⟨S_, .f32⟩
  | .hbm, ⟨99, _⟩ => ⟨S2x20000x128, .f32⟩
  | .hbm, ⟨100, _⟩ => ⟨S2x20000x128, .f32⟩
  | .hbm, ⟨101, _⟩ => ⟨S2x20000x40, .f32⟩
  | .hbm, ⟨102, _⟩ => ⟨S1x1x40, .f32⟩
  | .hbm, ⟨103, _⟩ => ⟨S2x20000x40, .f32⟩
  | .hbm, ⟨104, _⟩ => ⟨S2x20000x40, .f32⟩
  | .hbm, ⟨105, _⟩ => ⟨S_, .f32⟩
  | .hbm, ⟨106, _⟩ => ⟨S2x20000, .f32⟩
  | .hbm, ⟨107, _⟩ => ⟨S_, .f32⟩
  | .hbm, ⟨108, _⟩ => ⟨S2x20000, .f32⟩
  | .hbm, ⟨109, _⟩ => ⟨S2x20000, .f32⟩
  | .hbm, ⟨110, _⟩ => ⟨S2x20000x1, .f32⟩
  | .hbm, ⟨111, _⟩ => ⟨S2x20000x40, .f32⟩
  | .hbm, ⟨112, _⟩ => ⟨S2x20000x40, .f32⟩
  | .hbm, ⟨113, _⟩ => ⟨S2x20000x40, .f32⟩
  | .hbm, ⟨114, _⟩ => ⟨S_, .f32⟩
  | .hbm, ⟨115, _⟩ => ⟨S2x20000, .f32⟩
  | .hbm, ⟨116, _⟩ => ⟨S2x20000x1, .f32⟩
  | .hbm, ⟨117, _⟩ => ⟨S2x20000x40, .f32⟩
  | .hbm, ⟨118, _⟩ => ⟨S2x20000x40, .f32⟩
  | _, _ => ⟨S2x20000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_c : Ref sig .tc := ⟨.hbm, 16, rfl⟩
abbrev main_v5 : Ref sig .tc := ⟨.hbm, 17, rfl⟩
abbrev main_v6 : Ref sig .tc := ⟨.hbm, 18, rfl⟩
abbrev main_c_0 : Ref sig .tc := ⟨.hbm, 19, rfl⟩
abbrev main_call0_v0 : Ref sig .tc := ⟨.hbm, 20, rfl⟩
abbrev main_call0_v1 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_c_1 : Ref sig .tc := ⟨.hbm, 25, rfl⟩
abbrev main_v10 : Ref sig .tc := ⟨.hbm, 26, rfl⟩
abbrev main_v11 : Ref sig .tc := ⟨.hbm, 27, rfl⟩
abbrev main_c_2 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_cst_3 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_call1_cst : Ref sig .tc := ⟨.hbm, 45, rfl⟩
abbrev main_call1_v0 : Ref sig .tc := ⟨.hbm, 46, rfl⟩
abbrev main_v27 : Ref sig .tc := ⟨.hbm, 47, rfl⟩
abbrev main_c_4 : Ref sig .tc := ⟨.hbm, 48, rfl⟩
abbrev main_v28 : Ref sig .tc := ⟨.hbm, 49, rfl⟩
abbrev main_v29 : Ref sig .tc := ⟨.hbm, 50, rfl⟩
abbrev main_c_5 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_cst_6 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_call2_cst : Ref sig .tc := ⟨.hbm, 68, rfl⟩
abbrev main_call2_v0 : Ref sig .tc := ⟨.hbm, 69, rfl⟩
abbrev main_v45 : Ref sig .tc := ⟨.hbm, 70, rfl⟩
abbrev main_c_7 : Ref sig .tc := ⟨.hbm, 71, rfl⟩
abbrev main_v46 : Ref sig .tc := ⟨.hbm, 72, rfl⟩
abbrev main_v47 : Ref sig .tc := ⟨.hbm, 73, rfl⟩
abbrev main_c_8 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_cst_9 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_call3_cst : Ref sig .tc := ⟨.hbm, 91, rfl⟩
abbrev main_call3_v0 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_call4_cst : Ref sig .tc := ⟨.hbm, 98, rfl⟩
abbrev main_call4_v0 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_cst_10 : Ref sig .tc := ⟨.hbm, 105, rfl⟩
abbrev main_v73 : Ref sig .tc := ⟨.hbm, 106, rfl⟩
abbrev main_cst_11 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_cst_12 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩

abbrev nD : Nat := 1
abbrev τ : Topo := Topo.v7x

variable {F : FTy → Type} [FloatOps F]

class Facts₀ : Prop where
  reducesTo_S2x20000x128_S2x20000_d2 : S2x20000x128.ReducesTo [2] S2x20000
  h_S_ : 0 < S_.numel
  bcast_S2x20000_S2x20000x1_0_1 : S2x20000.BroadcastsInDim S2x20000x1 (![0, 1] : Fin 2 → Fin S2x20000x1.rank)
  bcast_S2x20000x1_S2x20000x128_0_1_2 : S2x20000x1.BroadcastsInDim S2x20000x128 (![0, 1, 2] : Fin 3 → Fin S2x20000x128.rank)
  bcast_S_S2x20000 : S_.BroadcastsInDim S2x20000 (![] : Fin 0 → Fin S2x20000.rank)
  bcast_S_S2x20000x32 : S_.BroadcastsInDim S2x20000x32 (![] : Fin 0 → Fin S2x20000x32.rank)
  bcast_S2x20000x32_S2x20000x32x1_0_1_2 : S2x20000x32.BroadcastsInDim S2x20000x32x1 (![0, 1, 2] : Fin 3 → Fin S2x20000x32x1.rank)
  reducesTo_S2x20000x32x128_S2x20000x128_d2 : S2x20000x32x128.ReducesTo [2] S2x20000x128
  slices_S3x128x128_S1x128x128_0_0_0 : S3x128x128.Slices ![0, 0, 0] S1x128x128
  shapeCasts_S1x128x128_S128x128 : S1x128x128.ShapeCasts S128x128
  bcast_S_S2x20000x128 : S_.BroadcastsInDim S2x20000x128 (![] : Fin 0 → Fin S2x20000x128.rank)
  slices_S3x128x128_S1x128x128_1_0_0 : S3x128x128.Slices ![1, 0, 0] S1x128x128
  slices_S3x128x128_S1x128x128_2_0_0 : S3x128x128.Slices ![2, 0, 0] S1x128x128
  bcast_S128_S1x1x128_2 : S128.BroadcastsInDim S1x1x128 (![2] : Fin 1 → Fin S1x1x128.rank)
  bcast_S1x1x128_S2x20000x128_0_1_2 : S1x1x128.BroadcastsInDim S2x20000x128 (![0, 1, 2] : Fin 3 → Fin S2x20000x128.rank)
  bcast_S40_S1x1x40_2 : S40.BroadcastsInDim S1x1x40 (![2] : Fin 1 → Fin S1x1x40.rank)
  bcast_S1x1x40_S2x20000x40_0_1_2 : S1x1x40.BroadcastsInDim S2x20000x40 (![0, 1, 2] : Fin 3 → Fin S2x20000x40.rank)
  reducesTo_S2x20000x40_S2x20000_d2 : S2x20000x40.ReducesTo [2] S2x20000
  bcast_S2x20000x1_S2x20000x40_0_1_2 : S2x20000x1.BroadcastsInDim S2x20000x40 (![0, 1, 2] : Fin 3 → Fin S2x20000x40.rank)
  dot_S2x20000x128_S128x128_S2x20000x128_2_0_01_1_n_n_wf : DotDims.WF S2x20000x128 S128x128 S2x20000x128 [2] [0] [0, 1] [1] [] []
  gather_S2x20000x128_S2x20000x32x1_S2x20000x32x128_3_1_0_0_1_3_11128_wf : GatherDims.WF S2x20000x128 S2x20000x32x1 S2x20000x32x128 [3] [1] [0] [1] [0] 3 ![1, 1, 128]
  dot_S2x20000x128_S128x40_S2x20000x40_2_0_01_1_n_n_wf : DotDims.WF S2x20000x128 S128x40 S2x20000x40 [2] [0] [0, 1] [1] [] []

variable [Facts₀]

def dot_S2x20000x128_S128x128_S2x20000x128_2_0_01_1_n_n : DotDims S2x20000x128 S128x128 S2x20000x128 where
  lhsContracting := [2]
  rhsContracting := [0]
  lhsNonContracting := [0, 1]
  rhsNonContracting := [1]
  lhsBatch := []
  rhsBatch := []
  wf := dot_S2x20000x128_S128x128_S2x20000x128_2_0_01_1_n_n_wf
def gather_S2x20000x128_S2x20000x32x1_S2x20000x32x128_3_1_0_0_1_3_11128 : GatherDims S2x20000x128 S2x20000x32x1 S2x20000x32x128 where
  offsetDims := [3]
  collapsedSliceDims := [1]
  operandBatchingDims := [0]
  startIndicesBatchingDims := [0]
  startIndexMap := [1]
  indexVectorDim := 3
  sliceSizes := ![1, 1, 128]
  wf := gather_S2x20000x128_S2x20000x32x1_S2x20000x32x128_3_1_0_0_1_3_11128_wf
def dot_S2x20000x128_S128x40_S2x20000x40_2_0_01_1_n_n : DotDims S2x20000x128 S128x40 S2x20000x40 where
  lhsContracting := [2]
  rhsContracting := [0]
  lhsNonContracting := [0, 1]
  rhsNonContracting := [1]
  lhsBatch := []
  rhsBatch := []
  wf := dot_S2x20000x128_S128x40_S2x20000x40_2_0_01_1_n_n_wf

class Facts : Prop extends Facts₀ where

variable [Facts]
-- ==== Proof.LibKeepdims.lean ====
/-
  Two layout reads for reductions that keep their axis: a vector cast to a one-column matrix, and the index a
  reduction over the columns of a matrix inserts.
-/
import Idealize.ShloMosaic.Lib.ValueLayout
import Idealize.ShloMosaic.PureOps.Ideal.Laws

namespace Idealize.ShloMosaic.ValueIdx

open Idealize.ShloMosaic

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- Reducing an `[a, b]` matrix over its columns: the index inserted at row `i` and column `k` is `(i, k)`. -/
theorem lift_cols_eq {a b : ℕ} (h : (⟨2, ![a, b]⟩ : Shape).Reduces [1] ⟨1, ![a]⟩) (i : Fin a) (k : Fin b) :
    h.lift (ix1 i) k = ix2 i k := by
  funext ax
  match ax with
  | ⟨0, _⟩ => exact Fin.ext rfl
  | ⟨1, _⟩ => exact Fin.ext rfl

/-- The f32 pattern of minus infinity is the bottom of the extended reals. -/
theorem ofBits_neg_inf_f32 : Ideal.ofBits .f32 0xFF800000#32 = ⊥ := by simp [Ideal.ofBits, Ideal.ieee]

end Idealize.ShloMosaic.ValueIdx
-- ==== Proof.KMat.lean ====
/-
  The kernels' matrix products and row broadcasts read at an index, at the extended reals: a product of a
  4000-row block with a weight matrix, into a zero accumulator, is at (p, q) the sum over k of the block's
  (p, k) entry times the matrix's (k, q) entry; a one-column matrix broadcast along the columns reads its row's
  entry; a one-row matrix broadcast along the rows reads its column's entry.
-/
import proofs.«421253_j32993938767999_3_alg».proof.Proof.Gen.KernelIdeal.Skeleton
import proofs.«421253_j32993938767999_3_alg».proof.Proof.LibKeepdims
import Idealize.ShloMosaic.Lib.ValueIdx
import Mathlib.Tactic.FinCases
import Idealize.ShloMosaic.Lib.ValueLayout
import Idealize.ShloMosaic.Lib.Pipeline.Value
import Idealize.ShloMosaic.PureOps.Ideal.Laws

noncomputable section

namespace Cert.KernelIdeal.Hand

open Cert.KernelIdeal Cert.KernelIdeal.Gen Idealize.ShloMosaic Idealize.ShloMosaic.ValueIdx

/-- The zero offsets of a whole-block access. -/
theorem hz2 : (![0, 0] : Fin 2 → Nat) = fun _ => 0 := funext fun a => by fin_cases a <;> rfl

/-! ## The 128-column product -/

theorem lhsA_0 (i : S4000x128.Idx) (q : dot_S4000x128_S128x128_S4000x128_1_0_0_1_n_n.contr.Idx) :
    (dot_S4000x128_S128x128_S4000x128_1_0_0_1_n_n.lhsIdx i q 0).val = (i 0).val := by
  unfold DotDims.lhsIdx
  rw [dif_neg (show ¬(0 : Fin S4000x128.rank) ∈ dot_S4000x128_S128x128_S4000x128_1_0_0_1_n_n.lhsBatch by decide), dif_pos (show (0 : Fin S4000x128.rank) ∈ dot_S4000x128_S128x128_S4000x128_1_0_0_1_n_n.lhsNonContracting by decide)]
  rfl
theorem lhsA_1 (i : S4000x128.Idx) (q : dot_S4000x128_S128x128_S4000x128_1_0_0_1_n_n.contr.Idx) :
    (dot_S4000x128_S128x128_S4000x128_1_0_0_1_n_n.lhsIdx i q 1).val = (q ⟨0, by decide⟩).val :=
  dot_S4000x128_S128x128_S4000x128_1_0_0_1_n_n.lhsIdx_val_of_single rfl i q
theorem rhsA_0 (i : S4000x128.Idx) (q : dot_S4000x128_S128x128_S4000x128_1_0_0_1_n_n.contr.Idx) :
    (dot_S4000x128_S128x128_S4000x128_1_0_0_1_n_n.rhsIdx i q 0).val = (q ⟨0, by decide⟩).val :=
  dot_S4000x128_S128x128_S4000x128_1_0_0_1_n_n.rhsIdx_val_of_single rfl i q
theorem rhsA_1 (i : S4000x128.Idx) (q : dot_S4000x128_S128x128_S4000x128_1_0_0_1_n_n.contr.Idx) :
    (dot_S4000x128_S128x128_S4000x128_1_0_0_1_n_n.rhsIdx i q 1).val = (i 1).val := by
  unfold DotDims.rhsIdx
  rw [dif_neg (show ¬(1 : Fin S128x128.rank) ∈ dot_S4000x128_S128x128_S4000x128_1_0_0_1_n_n.rhsBatch by decide), dif_pos (show (1 : Fin S128x128.rank) ∈ dot_S4000x128_S128x128_S4000x128_1_0_0_1_n_n.rhsNonContracting by decide)]
  rfl

/-- A block times a 128 × 128 matrix, into zero, at (p, q). -/
theorem matmulA_apply {φ₁ φ₂ : FTy} (a : FVec Ideal S4000x128 φ₁) (b : FVec Ideal S128x128 φ₂) (p : Fin 4000) (q : Fin 128) :
    matmul dot_S4000x128_S128x128_S4000x128_1_0_0_1_n_n none a b (constant S4000x128 .f32 0x00000000#32) (ix2 p q)
      = ∑ k : Fin 128, a (ix2 p k) * b (ix2 k q) := by
  show FloatOps.matmul _ _ _ _ _ _ = _
  rw [Ideal.matmul_constant_zero_apply, ← Equiv.sum_comp (ValueIdx.contrEquiv1 dot_S4000x128_S128x128_S4000x128_1_0_0_1_n_n 128 rfl rfl).symm]
  refine Finset.sum_congr rfl fun k _ => ?_
  have hk := ValueIdx.contrEquiv1_symm_val dot_S4000x128_S128x128_S4000x128_1_0_0_1_n_n 128 rfl rfl k
  have el : dot_S4000x128_S128x128_S4000x128_1_0_0_1_n_n.lhsIdx (ix2 p q) ((ValueIdx.contrEquiv1 dot_S4000x128_S128x128_S4000x128_1_0_0_1_n_n 128 rfl rfl).symm k) = ix2 p k := funext fun a => Fin.ext (by
    match a with
    | ⟨0, _⟩ => exact lhsA_0 _ _
    | ⟨1, _⟩ => exact (lhsA_1 _ _).trans hk)
  have er : dot_S4000x128_S128x128_S4000x128_1_0_0_1_n_n.rhsIdx (ix2 p q) ((ValueIdx.contrEquiv1 dot_S4000x128_S128x128_S4000x128_1_0_0_1_n_n 128 rfl rfl).symm k) = ix2 k q := funext fun a => Fin.ext (by
    match a with
    | ⟨0, _⟩ => exact (rhsA_0 _ _).trans hk
    | ⟨1, _⟩ => exact rhsA_1 _ _)
  rw [el, er]

/-! ## The 40-column product -/

theorem lhsB_0 (i : S4000x40.Idx) (q : dot_S4000x128_S128x40_S4000x40_1_0_0_1_n_n.contr.Idx) :
    (dot_S4000x128_S128x40_S4000x40_1_0_0_1_n_n.lhsIdx i q 0).val = (i 0).val := by
  unfold DotDims.lhsIdx
  rw [dif_neg (show ¬(0 : Fin S4000x128.rank) ∈ dot_S4000x128_S128x40_S4000x40_1_0_0_1_n_n.lhsBatch by decide), dif_pos (show (0 : Fin S4000x128.rank) ∈ dot_S4000x128_S128x40_S4000x40_1_0_0_1_n_n.lhsNonContracting by decide)]
  rfl
theorem lhsB_1 (i : S4000x40.Idx) (q : dot_S4000x128_S128x40_S4000x40_1_0_0_1_n_n.contr.Idx) :
    (dot_S4000x128_S128x40_S4000x40_1_0_0_1_n_n.lhsIdx i q 1).val = (q ⟨0, by decide⟩).val :=
  dot_S4000x128_S128x40_S4000x40_1_0_0_1_n_n.lhsIdx_val_of_single rfl i q
theorem rhsB_0 (i : S4000x40.Idx) (q : dot_S4000x128_S128x40_S4000x40_1_0_0_1_n_n.contr.Idx) :
    (dot_S4000x128_S128x40_S4000x40_1_0_0_1_n_n.rhsIdx i q 0).val = (q ⟨0, by decide⟩).val :=
  dot_S4000x128_S128x40_S4000x40_1_0_0_1_n_n.rhsIdx_val_of_single rfl i q
theorem rhsB_1 (i : S4000x40.Idx) (q : dot_S4000x128_S128x40_S4000x40_1_0_0_1_n_n.contr.Idx) :
    (dot_S4000x128_S128x40_S4000x40_1_0_0_1_n_n.rhsIdx i q 1).val = (i 1).val := by
  unfold DotDims.rhsIdx
  rw [dif_neg (show ¬(1 : Fin S128x40.rank) ∈ dot_S4000x128_S128x40_S4000x40_1_0_0_1_n_n.rhsBatch by decide), dif_pos (show (1 : Fin S128x40.rank) ∈ dot_S4000x128_S128x40_S4000x40_1_0_0_1_n_n.rhsNonContracting by decide)]
  rfl

/-- A block times a 128 × 40 matrix, into zero, at (p, q). -/
theorem matmulB_apply {φ₁ φ₂ : FTy} (a : FVec Ideal S4000x128 φ₁) (b : FVec Ideal S128x40 φ₂) (p : Fin 4000) (q : Fin 40) :
    matmul dot_S4000x128_S128x40_S4000x40_1_0_0_1_n_n none a b (constant S4000x40 .f32 0x00000000#32) (ix2 p q)
      = ∑ k : Fin 128, a (ix2 p k) * b (ix2 k q) := by
  show FloatOps.matmul _ _ _ _ _ _ = _
  rw [Ideal.matmul_constant_zero_apply, ← Equiv.sum_comp (ValueIdx.contrEquiv1 dot_S4000x128_S128x40_S4000x40_1_0_0_1_n_n 128 rfl rfl).symm]
  refine Finset.sum_congr rfl fun k _ => ?_
  have hk := ValueIdx.contrEquiv1_symm_val dot_S4000x128_S128x40_S4000x40_1_0_0_1_n_n 128 rfl rfl k
  have el : dot_S4000x128_S128x40_S4000x40_1_0_0_1_n_n.lhsIdx (ix2 p q) ((ValueIdx.contrEquiv1 dot_S4000x128_S128x40_S4000x40_1_0_0_1_n_n 128 rfl rfl).symm k) = ix2 p k := funext fun a => Fin.ext (by
    match a with
    | ⟨0, _⟩ => exact lhsB_0 _ _
    | ⟨1, _⟩ => exact (lhsB_1 _ _).trans hk)
  have er : dot_S4000x128_S128x40_S4000x40_1_0_0_1_n_n.rhsIdx (ix2 p q) ((ValueIdx.contrEquiv1 dot_S4000x128_S128x40_S4000x40_1_0_0_1_n_n 128 rfl rfl).symm k) = ix2 k q := funext fun a => Fin.ext (by
    match a with
    | ⟨0, _⟩ => exact (rhsB_0 _ _).trans hk
    | ⟨1, _⟩ => exact rhsB_1 _ _)
  rw [el, er]

/-! ## Broadcasts -/

variable {α : Type}

/-- A one-column matrix broadcast to C columns reads, at (p, q), its entry in row p. -/
theorem bcastCol_apply {R C : ℕ} (x : (⟨2, ![R, 1]⟩ : Shape).Idx → α) (h : (⟨2, ![R, 1]⟩ : Shape).Broadcasts ⟨2, ![R, C]⟩)
    (p : Fin R) (q : Fin C) : broadcastTo ⟨2, ![R, C]⟩ x h (ix2 p q) = x (ix2 p 0) :=
  broadcastTo_apply x h _ _ (fun a => by
    match a with
    | ⟨0, _⟩ =>
      show p.val = if R = 1 then 0 else p.val
      split_ifs with hR
      · have := p.isLt; omega
      · rfl
    | ⟨1, _⟩ => show (0 : ℕ) = if (1 : ℕ) = 1 then 0 else q.val; rfl)

/-- A one-row matrix broadcast to R rows reads, at (p, q), its entry in column q. -/
theorem bcastRow_apply {R C : ℕ} (hC : C ≠ 1) (x : (⟨2, ![1, C]⟩ : Shape).Idx → α) (h : (⟨2, ![1, C]⟩ : Shape).Broadcasts ⟨2, ![R, C]⟩)
    (p : Fin R) (q : Fin C) : broadcastTo ⟨2, ![R, C]⟩ x h (ix2 p q) = x (ix2 0 q) :=
  broadcastTo_apply x h _ _ (fun a => by
    match a with
    | ⟨0, _⟩ => show (0 : ℕ) = if (1 : ℕ) = 1 then 0 else p.val; rfl
    | ⟨1, _⟩ =>
      show q.val = if C = 1 then 0 else q.val
      rw [if_neg hC])

end Cert.KernelIdeal.Hand

end
-- ==== Proof.Rows.lean ====
/-
  The four row functions of the network, over the extended reals. Every stage of the model acts on each
  vertex's feature row by itself: the embedding divides the row's image under the weight matrix by the row's
  sum; a graph-convolution layer adds the images of the aggregated-neighbour row and of the vertex's own row
  under two weight matrices and clips at zero; the classifier applies two affine maps with a clip between
  them and a softmax over the forty classes.
-/
import Idealize.ShloMosaic.PureOps.Ideal
import Mathlib.Algebra.BigOperators.Group.Finset.Basic
import Mathlib.Data.Finset.Fold

noncomputable section

namespace Cert.Rows

open Idealize.ShloMosaic

/-- One row of the input embedding: the row times the weight matrix, divided by the row's sum. -/
def embedRow (x : Fin 128 → EReal) (w : Fin 128 → Fin 128 → EReal) (j : Fin 128) : EReal :=
  Ideal.div (∑ k : Fin 128, x k * w k j) (∑ k : Fin 128, x k)

/-- One row of a graph-convolution layer: neighbour row times `w` plus own row times `b`, clipped at `z`
    (the value the zero pattern denotes). -/
def gcnRow (z : EReal) (n h : Fin 128 → EReal) (w b : Fin 128 → Fin 128 → EReal) (j : Fin 128) : EReal :=
  max ((∑ k : Fin 128, n k * w k j) + ∑ k : Fin 128, h k * b k j) z

/-- One row of the classifier's logits: a hidden affine layer clipped at `z`, then the output affine layer. -/
def logitRow (z : EReal) (h : Fin 128 → EReal) (w1 : Fin 128 → Fin 128 → EReal) (b1 : Fin 128 → EReal)
    (w2 : Fin 128 → Fin 40 → EReal) (b2 : Fin 40 → EReal) (c : Fin 40) : EReal :=
  (∑ d : Fin 128, max ((∑ k : Fin 128, h k * w1 k d) + b1 d) z * w2 d c) + b2 c

/-- The softmax of a row of forty logits, the row's maximum taken as a fold of `max` from `lo`. -/
def softmaxRow (lo : EReal) (l : Fin 40 → EReal) (c : Fin 40) : EReal :=
  Ideal.div (Ideal.exp (l c - (Finset.univ : Finset (Fin 40)).fold max lo l))
    (∑ c' : Fin 40, Ideal.exp (l c' - (Finset.univ : Finset (Fin 40)).fold max lo l))

end Cert.Rows

end
-- ==== Proof.Stages.lean ====
/-
  The network's stages as whole-array functions, each the row function applied vertex by vertex: on the
  flat layout, 40000 vertex rows, and on the batched layout, 2 graphs of 20000 vertices. A row-wise function on the
  flat layout, read back through the reshape to the batched layout, is the same row-wise function on the batched
  layout of the reshaped operands: vertex (b, n) is flat row 20000 b + n.
-/
import proofs.«421253_j32993938767999_3_alg».proof.Proof.Rows
import Idealize.ShloMosaic.Lib.ValueIdx
import Idealize.ShloMosaic.Lib.Pipeline.Value

noncomputable section

namespace Cert.Stages

open Idealize.ShloMosaic Idealize.ShloMosaic.ValueIdx Cert.Rows

/-- What the zero pattern denotes: the level every clip is taken at. -/
abbrev zF : EReal := Ideal.ofBits .f32 0x00000000#32
/-- What the minus-infinity pattern denotes: where every row maximum starts. -/
abbrev loF : EReal := Ideal.ofBits .f32 0xFF800000#32

/-- A matrix as a function of its two coordinates. -/
abbrev mat {K C : ℕ} (w : (⟨2, ![K, C]⟩ : Shape).Idx → EReal) : Fin K → Fin C → EReal := fun k j => w (ix2 k j)
/-- A vector as a function of its coordinate. -/
abbrev vec {C : ℕ} (v : (⟨1, ![C]⟩ : Shape).Idx → EReal) : Fin C → EReal := fun j => v (ix1 j)
/-- A one-row matrix as a function of its column. -/
abbrev row1 {C : ℕ} (v : (⟨2, ![1, C]⟩ : Shape).Idx → EReal) : Fin C → EReal := fun j => v (ix2 0 j)

/-- Row r of a flat array. -/
abbrev frow {R C : ℕ} (x : (⟨2, ![R, C]⟩ : Shape).Idx → EReal) (r : Fin R) : Fin C → EReal := fun k => x (ix2 r k)
/-- Vertex (b, n)'s row of a batched array. -/
abbrev brow {C : ℕ} (x : (⟨3, ![2, 20000, C]⟩ : Shape).Idx → EReal) (b : Fin 2) (n : Fin 20000) : Fin C → EReal :=
  fun k => x (ix3 b n k)

/-! ## On the flat layout (any number of rows) -/

def embedF {R : ℕ} (x : (⟨2, ![R, 128]⟩ : Shape).Idx → EReal) (w : (⟨2, ![128, 128]⟩ : Shape).Idx → EReal) :
    (⟨2, ![R, 128]⟩ : Shape).Idx → EReal :=
  fun i => embedRow (frow x (i 0)) (mat w) (i 1)

def gcnF {R : ℕ} (z : EReal) (n h : (⟨2, ![R, 128]⟩ : Shape).Idx → EReal) (w b : (⟨2, ![128, 128]⟩ : Shape).Idx → EReal) :
    (⟨2, ![R, 128]⟩ : Shape).Idx → EReal :=
  fun i => gcnRow z (frow n (i 0)) (frow h (i 0)) (mat w) (mat b) (i 1)

def clsF {R : ℕ} (z lo : EReal) (n h : (⟨2, ![R, 128]⟩ : Shape).Idx → EReal) (gw gb w1 : (⟨2, ![128, 128]⟩ : Shape).Idx → EReal)
    (b1 : (⟨2, ![1, 128]⟩ : Shape).Idx → EReal) (w2 : (⟨2, ![128, 40]⟩ : Shape).Idx → EReal) (b2 : (⟨2, ![1, 40]⟩ : Shape).Idx → EReal) :
    (⟨2, ![R, 40]⟩ : Shape).Idx → EReal :=
  fun i => softmaxRow lo (logitRow z (gcnRow z (frow n (i 0)) (frow h (i 0)) (mat gw) (mat gb)) (mat w1) (row1 b1) (mat w2) (row1 b2)) (i 1)

/-! ## On the batched layout -/

def embedA (x : (⟨3, ![2, 20000, 128]⟩ : Shape).Idx → EReal) (w : (⟨2, ![128, 128]⟩ : Shape).Idx → EReal) :
    (⟨3, ![2, 20000, 128]⟩ : Shape).Idx → EReal :=
  fun i => embedRow (brow x (i 0) (i 1)) (mat w) (i 2)

def gcnA (z : EReal) (n h : (⟨3, ![2, 20000, 128]⟩ : Shape).Idx → EReal) (w b : (⟨2, ![128, 128]⟩ : Shape).Idx → EReal) :
    (⟨3, ![2, 20000, 128]⟩ : Shape).Idx → EReal :=
  fun i => gcnRow z (brow n (i 0) (i 1)) (brow h (i 0) (i 1)) (mat w) (mat b) (i 2)

def clsA (z lo : EReal) (n h : (⟨3, ![2, 20000, 128]⟩ : Shape).Idx → EReal) (gw gb w1 : (⟨2, ![128, 128]⟩ : Shape).Idx → EReal)
    (b1 : (⟨1, ![128]⟩ : Shape).Idx → EReal) (w2 : (⟨2, ![128, 40]⟩ : Shape).Idx → EReal) (b2 : (⟨1, ![40]⟩ : Shape).Idx → EReal) :
    (⟨3, ![2, 20000, 40]⟩ : Shape).Idx → EReal :=
  fun i => softmaxRow lo (logitRow z (gcnRow z (brow n (i 0) (i 1)) (brow h (i 0) (i 1)) (mat gw) (mat gb)) (mat w1) (vec b1) (mat w2) (vec b2)) (i 2)

/-! ## The reshape between the two layouts, read at an index -/

/-- Vertex (b, n)'s flat row number. -/
abbrev flatRow (b : Fin 2) (n : Fin 20000) : Fin 40000 := ⟨b.val * 20000 + n.val, by have := b.isLt; have := n.isLt; omega⟩

variable {α : Type}

/-- Flattening a batched array: flat row `flatRow b n` is vertex (b, n)'s row. -/
theorem flatten_apply {C : ℕ} (x : (⟨3, ![2, 20000, C]⟩ : Shape).Idx → α) (h : (⟨3, ![2, 20000, C]⟩ : Shape).ShapeCasts ⟨2, ![40000, C]⟩)
    (b : Fin 2) (n : Fin 20000) (k : Fin C) : shapeCast ⟨2, ![40000, C]⟩ x h (ix2 (flatRow b n) k) = x (ix3 b n k) :=
  shapeCast_apply x h _ _ (by
    rw [Shape.rowMajor_val_three, Shape.rowMajor_val_two]
    rfl)

/-- Un-flattening: vertex (b, n)'s row is flat row `flatRow b n`. -/
theorem unflatten_apply {C : ℕ} (y : (⟨2, ![40000, C]⟩ : Shape).Idx → α) (h : (⟨2, ![40000, C]⟩ : Shape).ShapeCasts ⟨3, ![2, 20000, C]⟩)
    (b : Fin 2) (n : Fin 20000) (k : Fin C) : shapeCast ⟨3, ![2, 20000, C]⟩ y h (ix3 b n k) = y (ix2 (flatRow b n) k) :=
  shapeCast_apply y h _ _ (by
    rw [Shape.rowMajor_val_three, Shape.rowMajor_val_two]
    rfl)

/-- Row `flatRow b n` of the flattened array is vertex (b, n)'s row. -/
theorem frow_flatten {C : ℕ} (x : (⟨3, ![2, 20000, C]⟩ : Shape).Idx → EReal) (h : (⟨3, ![2, 20000, C]⟩ : Shape).ShapeCasts ⟨2, ![40000, C]⟩)
    (b : Fin 2) (n : Fin 20000) : frow (shapeCast ⟨2, ![40000, C]⟩ x h) (flatRow b n) = brow x b n :=
  funext fun k => flatten_apply x h b n k

/-- The embedding on the flat layout, un-flattened, is the embedding on the batched layout. -/
theorem embed_unflatten (x : (⟨3, ![2, 20000, 128]⟩ : Shape).Idx → EReal) (w : (⟨2, ![128, 128]⟩ : Shape).Idx → EReal)
    (h₁ : (⟨3, ![2, 20000, 128]⟩ : Shape).ShapeCasts ⟨2, ![40000, 128]⟩) (h₂ : (⟨2, ![40000, 128]⟩ : Shape).ShapeCasts ⟨3, ![2, 20000, 128]⟩) :
    shapeCast ⟨3, ![2, 20000, 128]⟩ (embedF (shapeCast ⟨2, ![40000, 128]⟩ x h₁) w) h₂ = embedA x w := by
  funext i
  obtain ⟨b, n, j, rfl⟩ : ∃ (b : Fin 2) (n : Fin 20000) (j : Fin 128), i = ix3 b n j := ⟨i 0, i 1, i 2, eq_ix3 i⟩
  rw [unflatten_apply]
  show embedRow (frow (shapeCast _ x h₁) (flatRow b n)) (mat w) j = embedRow (brow x b n) (mat w) j
  rw [frow_flatten]

/-- A graph-convolution layer on the flat layout, un-flattened, is the layer on the batched layout. -/
theorem gcn_unflatten (z : EReal) (n h : (⟨3, ![2, 20000, 128]⟩ : Shape).Idx → EReal) (w b : (⟨2, ![128, 128]⟩ : Shape).Idx → EReal)
    (h₁ h₁' : (⟨3, ![2, 20000, 128]⟩ : Shape).ShapeCasts ⟨2, ![40000, 128]⟩) (h₂ : (⟨2, ![40000, 128]⟩ : Shape).ShapeCasts ⟨3, ![2, 20000, 128]⟩) :
    shapeCast ⟨3, ![2, 20000, 128]⟩ (gcnF z (shapeCast ⟨2, ![40000, 128]⟩ n h₁) (shapeCast ⟨2, ![40000, 128]⟩ h h₁') w b) h₂ = gcnA z n h w b := by
  funext i
  obtain ⟨b', n', j, rfl⟩ : ∃ (b' : Fin 2) (n' : Fin 20000) (j : Fin 128), i = ix3 b' n' j := ⟨i 0, i 1, i 2, eq_ix3 i⟩
  rw [unflatten_apply]
  show gcnRow z (frow (shapeCast _ n h₁) (flatRow b' n')) (frow (shapeCast _ h h₁') (flatRow b' n')) (mat w) (mat b) j = gcnRow z (brow n b' n') (brow h b' n') (mat w) (mat b) j
  rw [frow_flatten, frow_flatten]

/-- The last layer with the classifier on the flat layout, un-flattened, is the same on the batched layout; the
    one-row biases are the bias vectors reshaped. -/
theorem cls_unflatten (z lo : EReal) (n h : (⟨3, ![2, 20000, 128]⟩ : Shape).Idx → EReal) (gw gb w1 : (⟨2, ![128, 128]⟩ : Shape).Idx → EReal)
    (b1 : (⟨1, ![128]⟩ : Shape).Idx → EReal) (w2 : (⟨2, ![128, 40]⟩ : Shape).Idx → EReal) (b2 : (⟨1, ![40]⟩ : Shape).Idx → EReal)
    (h₁ h₁' : (⟨3, ![2, 20000, 128]⟩ : Shape).ShapeCasts ⟨2, ![40000, 128]⟩) (h₂ : (⟨2, ![40000, 40]⟩ : Shape).ShapeCasts ⟨3, ![2, 20000, 40]⟩)
    (hb1 : (⟨1, ![128]⟩ : Shape).ShapeCasts ⟨2, ![1, 128]⟩) (hb2 : (⟨1, ![40]⟩ : Shape).ShapeCasts ⟨2, ![1, 40]⟩) :
    shapeCast ⟨3, ![2, 20000, 40]⟩ (clsF z lo (shapeCast ⟨2, ![40000, 128]⟩ n h₁) (shapeCast ⟨2, ![40000, 128]⟩ h h₁') gw gb w1
      (shapeCast ⟨2, ![1, 128]⟩ b1 hb1) w2 (shapeCast ⟨2, ![1, 40]⟩ b2 hb2)) h₂ = clsA z lo n h gw gb w1 b1 w2 b2 := by
  funext i
  obtain ⟨b', n', j, rfl⟩ : ∃ (b' : Fin 2) (n' : Fin 20000) (j : Fin 40), i = ix3 b' n' j := ⟨i 0, i 1, i 2, eq_ix3 i⟩
  rw [unflatten_apply]
  have e1 : row1 (shapeCast ⟨2, ![1, 128]⟩ b1 hb1) = vec b1 := funext fun d =>
    shapeCast_apply b1 hb1 _ _ (by rw [Shape.rowMajor_val_one, Shape.rowMajor_val_two]; show d.val = 0 * 128 + d.val; omega)
  have e2 : row1 (shapeCast ⟨2, ![1, 40]⟩ b2 hb2) = vec b2 := funext fun d =>
    shapeCast_apply b2 hb2 _ _ (by rw [Shape.rowMajor_val_one, Shape.rowMajor_val_two]; show d.val = 0 * 40 + d.val; omega)
  show softmaxRow lo (logitRow z (gcnRow z (frow (shapeCast _ n h₁) (flatRow b' n')) (frow (shapeCast _ h h₁') (flatRow b' n')) (mat gw) (mat gb)) (mat w1)
      (row1 (shapeCast ⟨2, ![1, 128]⟩ b1 hb1)) (mat w2) (row1 (shapeCast ⟨2, ![1, 40]⟩ b2 hb2))) j = _
  rw [frow_flatten, frow_flatten, e1, e2]
  rfl

end Cert.Stages

end
-- ==== Proof.Region0.lean ====
/-
  The embedding region. At every grid point the body writes, into its block of 4000 rows, the embedding of the
  block's rows: row p of the output block depends on row p of the input block and on the weight matrix only. Point t's
  block is rows 4000 t … 4000 t + 3999 of the flat array, the ten blocks cover it, so after the region the output
  array is the embedding of the input array, row by row.
-/
import proofs.«421253_j32993938767999_3_alg».proof.Proof.Gen.KernelIdeal.Frame
import proofs.«421253_j32993938767999_3_alg».proof.Proof.KMat
import proofs.«421253_j32993938767999_3_alg».proof.Proof.Stages
import Idealize.ShloMosaic.Lib.Pipeline.Value
import Idealize.ShloMosaic.Lib.Tactic

set_option maxRecDepth 16384

noncomputable section

namespace Cert.KernelIdeal.Hand

open Cert.KernelIdeal Cert.KernelIdeal.Gen Idealize.ShloMosaic Idealize.ShloMosaic.TcCoe Idealize.SL.Sem
open Idealize.ShloMosaic.ValueIdx Cert.Rows Cert.Stages
open Idealize.ShloMosaic.Pipeline (Dat)

/-- A row sum kept as a column and broadcast back along the row reads, at (p, q), the sum of row p. -/
theorem rowsum128_apply (v : FVec Ideal S4000x128 .f32) (hred : S4000x128.Reduces [1] S4000) (hφ : FKind.Formats FTy.f32)
    (hacc : (0x00000000#32 : BitVec 32) = FKind.add.neutral .f32 hφ) (h1 : S4000.ShapeCasts S4000x1) (h2 : S4000x1.Broadcasts S4000x128)
    (p : Fin 4000) (q : Fin 128) :
    broadcastTo S4000x128 (shapeCast S4000x1 (multiReduction .add [1] S4000 v 0x00000000#32 hred hφ hacc) h1) h2 (ix2 p q)
      = ∑ k : Fin 128, v (ix2 p k) := by
  refine (bcastCol_apply _ h2 p q).trans ?_
  refine (shapeCast_a_a1_apply _ h1 p 0).trans ?_
  refine (Ideal.multiReduction_add_single v 0x00000000#32 hred hφ hacc (ix1 p)).trans ?_
  refine Finset.sum_congr rfl fun k _ => ?_
  exact congrArg v (lift_cols_eq hred p k)

/-- The body's payload at (p, q): the embedding of row p. -/
theorem pay0_apply (x : FVec Ideal S4000x128 .f32) (w : FVec Ideal S128x128 .f32) (p : Fin 4000) (q : Fin 128) :
    (k0_pay1 (F := Ideal) x w) (ix2 p q) = embedRow (frow x p) (mat w) q := by
  unfold k0_pay1
  simp only [shapeCast_self]
  show Ideal.div (matmul (F := Ideal) dot_S4000x128_S128x128_S4000x128_1_0_0_1_n_n none _ _ _ (ix2 p q)) (broadcastTo S4000x128 _ _ (ix2 p q)) = _
  unfold embedRow
  refine congrArg₂ Ideal.div ?_ ?_
  · exact matmulA_apply _ _ p q
  · exact rowsum128_apply x _ _ _ _ _ p q

/-- The payload as a whole: the embedding of the block. -/
theorem pay0_eq (x : FVec Ideal S4000x128 .f32) (w : FVec Ideal S128x128 .f32) :
    k0_pay1 (F := Ideal) x w = embedF (R := 4000) x w := by
  funext j
  obtain ⟨p, q, rfl⟩ : ∃ (p : Fin 4000) (q : Fin 128), j = ix2 p q := ⟨j 0, j 1, eq_ix2 j⟩
  exact pay0_apply x w p q

section
variable (V : (c : Dev nD) → (b : Ref sig .tc) → Buf (Elt Ideal) ((c : Thread nD τ).loc b))

/-- The printed index maps over the grid: the row windows move with the point, the weight window stays. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The input block at point t is rows 4000 t … of the input array. -/
theorem iblk0_0_apply (c : Dev nD) (t : Fin cfg0.N) (p : Fin 4000) (k : Fin 128) (i : S40000x128.Idx)
    (h0 : (i 0).val = t.val * 4000 + p.val) (h1 : (i 1).val = k.val) :
    (iblk0 V c 0 t : Vec Ideal S4000x128 .f32) (ix2 p k) = (V c main_v0 : S40000x128.Idx → EReal) i := by
  obtain ⟨e0, e1, -⟩ := idx0 t
  unfold iblk0
  rw [View.read_apply]
  show (V c main_v0 : S40000x128.Idx → EReal) _ = (V c main_v0 : S40000x128.Idx → EReal) _
  congr 1
  funext a
  apply Fin.ext
  match a with
  | ⟨0, _⟩ => show win0_0.index t (0 : Fin 2) * 4000 + 1 * p.val = (i 0).val; rw [e0, h0]; omega
  | ⟨1, _⟩ => show win0_0.index t (1 : Fin 2) * 128 + 1 * k.val = (i 1).val; rw [e1, h1]; omega

/-- The weight block at every point is the weight array. -/
theorem iblk0_1_apply (c : Dev nD) (t : Fin cfg0.N) (k : Fin 128) (j : Fin 128) :
    (iblk0 V c 1 t : Vec Ideal S128x128 .f32) (ix2 k j) = (V c main_arg3 : S128x128.Idx → EReal) (ix2 k j) := by
  obtain ⟨-, -, e2, e3, -⟩ := idx0 t
  unfold iblk0
  rw [View.read_apply]
  show (V c main_arg3 : S128x128.Idx → EReal) _ = (V c main_arg3 : S128x128.Idx → EReal) _
  congr 1
  funext a
  apply Fin.ext
  match a with
  | ⟨0, _⟩ => show win0_1.index t (0 : Fin 2) * 128 + 1 * k.val = k.val; rw [e2]; omega
  | ⟨1, _⟩ => show win0_1.index t (1 : Fin 2) * 128 + 1 * j.val = j.val; rw [e3]; omega

/-- What point t writes back is block t of the embedding of the input array. -/
theorem flushed0 (c : Dev nD) (t : Fin cfg0.N) :
    (dat0 V c).flushed 2 t = ((cfg0.win 2).blk t).view.read (Elt Ideal) (embedF (R := 40000) (V c main_v0) (V c main_arg3)) := by
  show (cfg0.win 2).cut (grid0.coords t) ((dat0 V c).after 2 t) = _
  rw [after0_2]
  unfold out0_2
  rw [View.canon_unit_zero hz2]
  simp only [View.ld_unit_zero (S := S4000x128) hz2, View.ld_unit_zero (S := S128x128) hz2]
  rw [pay0_eq]
  obtain ⟨-, -, -, -, e4, e5⟩ := idx0 t
  funext j
  obtain ⟨p, q, rfl⟩ : ∃ (p : Fin 4000) (q : Fin 128), j = ix2 p q := ⟨j 0, j 1, eq_ix2 j⟩
  show embedRow (frow (iblk0 V c 0 t) p) (mat (iblk0 V c 1 t)) q = embedRow (frow (V c main_v0 : S40000x128.Idx → EReal) _) (mat (V c main_arg3 : S128x128.Idx → EReal)) _
  have hq : (((cfg0.win 2).blk t).view.emb (ix2 p q)) 1 = q :=
    Fin.ext (by show win0_2.index t (1 : Fin 2) * 128 + 1 * q.val = q.val; rw [e5]; omega)
  have hr : frow (iblk0 V c 0 t : Vec Ideal S4000x128 .f32) p
      = frow (V c main_v0 : S40000x128.Idx → EReal) ((((cfg0.win 2).blk t).view.emb (ix2 p q)) 0) :=
    funext fun k => iblk0_0_apply V c t p k _
      (by show win0_2.index t (0 : Fin 2) * 4000 + 1 * p.val = t.val * 4000 + p.val; rw [e4]; omega) rfl
  have hm : mat (iblk0 V c 1 t : Vec Ideal S128x128 .f32) = mat (V c main_arg3 : S128x128.Idx → EReal) :=
    funext fun k => funext fun j => iblk0_1_apply V c t k j
  rw [hr, hm, hq]

/-- Every row of the flat array lies in the block of the point that its row number divided by 4000 names. -/
theorem cover0 (c : Dev nD) (i : S40000x128.Idx) :
    ∃ t : Fin cfg0.N, (cfg0.win 2).flush t = true ∧ i ∈ ((cfg0.win 2).blk t).view.set := by
  have hN : cfg0.N = 10 := N_0
  have hi0 : (i 0).val < 40000 := (i 0).isLt
  have hi1 : (i 1).val < 128 := (i 1).isLt
  let t : Fin cfg0.N := ⟨(i 0).val / 4000, by rw [hN]; omega⟩
  obtain ⟨-, -, -, -, e4, e5⟩ := idx0 t
  refine ⟨t, flush0_2 t, ?_⟩
  show i ∈ ((View.whole main_v1).slice (win0_2.rect t)).set
  rw [View.set_slice_whole, Rect.mem_set_unit]
  intro a
  match a with
  | ⟨0, _⟩ =>
    show win0_2.index t (0 : Fin 2) * 4000 ≤ (i 0).val ∧ (i 0).val < win0_2.index t (0 : Fin 2) * 4000 + 4000
    rw [e4]; show (i 0).val / 4000 * 4000 ≤ (i 0).val ∧ (i 0).val < (i 0).val / 4000 * 4000 + 4000; omega
  | ⟨1, _⟩ =>
    show win0_2.index t (1 : Fin 2) * 128 ≤ (i 1).val ∧ (i 1).val < win0_2.index t (1 : Fin 2) * 128 + 128
    rw [e5]; omega

/-- After the region the output array is the embedding of the input array, row by row. -/
theorem arr0 (c : Dev nD) :
    (dat0 V c).arrAt 2 cfg0.N = embedF (R := 40000) (V c main_v0) (V c main_arg3) :=
  (dat0 V c).arrAt_eq_of_cover 2 _ (fun t _ => flushed0 V c t) (cover0 c)

end

end Cert.KernelIdeal.Hand

end
-- ==== Proof.KH0.lean ====
/-
  The buffers up to the first region's exit. The first stretch flattens the vertex features; the embedding region
  then leaves, in its output array, the embedding of the flattened features, row by row; every argument array is as
  launched.
-/
import proofs.«421253_j32993938767999_3_alg».proof.Proof.Gen.KernelIdeal.Frame
import proofs.«421253_j32993938767999_3_alg».proof.Proof.Region0
import proofs.«421253_j32993938767999_3_alg».proof.Proof.Stages
import Idealize.ShloMosaic.Lib.StableHlo.Run

set_option maxRecDepth 16384

noncomputable section

namespace Cert.KernelIdeal.Hand

open Cert.KernelIdeal Cert.KernelIdeal.Gen Idealize.ShloMosaic Idealize.ShloMosaic.TcCoe Idealize.SL.Sem
open Idealize.ShloMosaic.ValueIdx Cert.Rows Cert.Stages Idealize.ShloMosaic.StableHlo

variable (m : (ℓ : Loc nD τ sig) → Buf (Elt Ideal) ℓ) (ρ : Dev nD → PrngReg)

/-- A buffer no operation of a stretch writes holds after it what it held before. -/
local macro "not_written" : tactic => `(tactic| (
  refine StableHlo.after_of_forall_not_mem _ _ (List.forall_iff_forall_mem.mp ?_)
  simp only [hostOps0, hostOps1, hostOps1_1, hostOps1_2, hostOps2, hostOps3, hostOps4, List.flatten_cons, List.flatten_nil, List.append_nil, List.cons_append,
    List.nil_append, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)))

/-- The flattened vertex features. -/
theorem V1_v0 (c : Dev nD) : V1 m ρ c main_v0
    = shapeCast S40000x128 (m ((c.tc : Thread nD τ).loc main_arg0)) shapeCasts_S2x20000x128_S40000x128 := by
  show StableHlo.after hostOps0 (W0 m ρ c) (Proc.devRef .tc main_v0) = _
  after_results <;> try rfl

theorem W1_arg1 (c : Dev nD) : W1 m ρ c (Proc.devRef .tc main_arg1) = m ((c.tc : Thread nD τ).loc main_arg1) :=
  calc W1 m ρ c (Proc.devRef .tc main_arg1)
    _ = W0 m ρ c (Proc.devRef .tc main_arg1) := by not_written
    _ = m ((c.tc : Thread nD τ).loc main_arg1) := rfl

theorem W1_arg2 (c : Dev nD) : W1 m ρ c (Proc.devRef .tc main_arg2) = m ((c.tc : Thread nD τ).loc main_arg2) :=
  calc W1 m ρ c (Proc.devRef .tc main_arg2)
    _ = W0 m ρ c (Proc.devRef .tc main_arg2) := by not_written
    _ = m ((c.tc : Thread nD τ).loc main_arg2) := rfl

theorem W1_arg3 (c : Dev nD) : W1 m ρ c (Proc.devRef .tc main_arg3) = m ((c.tc : Thread nD τ).loc main_arg3) :=
  calc W1 m ρ c (Proc.devRef .tc main_arg3)
    _ = W0 m ρ c (Proc.devRef .tc main_arg3) := by not_written
    _ = m ((c.tc : Thread nD τ).loc main_arg3) := rfl

theorem W1_arg4 (c : Dev nD) : W1 m ρ c (Proc.devRef .tc main_arg4) = m ((c.tc : Thread nD τ).loc main_arg4) :=
  calc W1 m ρ c (Proc.devRef .tc main_arg4)
    _ = W0 m ρ c (Proc.devRef .tc main_arg4) := by not_written
    _ = m ((c.tc : Thread nD τ).loc main_arg4) := rfl

theorem W1_arg5 (c : Dev nD) : W1 m ρ c (Proc.devRef .tc main_arg5) = m ((c.tc : Thread nD τ).loc main_arg5) :=
  calc W1 m ρ c (Proc.devRef .tc main_arg5)
    _ = W0 m ρ c (Proc.devRef .tc main_arg5) := by not_written
    _ = m ((c.tc : Thread nD τ).loc main_arg5) := rfl

theorem W1_arg6 (c : Dev nD) : W1 m ρ c (Proc.devRef .tc main_arg6) = m ((c.tc : Thread nD τ).loc main_arg6) :=
  calc W1 m ρ c (Proc.devRef .tc main_arg6)
    _ = W0 m ρ c (Proc.devRef .tc main_arg6) := by not_written
    _ = m ((c.tc : Thread nD τ).loc main_arg6) := rfl

theorem W1_arg7 (c : Dev nD) : W1 m ρ c (Proc.devRef .tc main_arg7) = m ((c.tc : Thread nD τ).loc main_arg7) :=
  calc W1 m ρ c (Proc.devRef .tc main_arg7)
    _ = W0 m ρ c (Proc.devRef .tc main_arg7) := by not_written
    _ = m ((c.tc : Thread nD τ).loc main_arg7) := rfl

theorem W1_arg8 (c : Dev nD) : W1 m ρ c (Proc.devRef .tc main_arg8) = m ((c.tc : Thread nD τ).loc main_arg8) :=
  calc W1 m ρ c (Proc.devRef .tc main_arg8)
    _ = W0 m ρ c (Proc.devRef .tc main_arg8) := by not_written
    _ = m ((c.tc : Thread nD τ).loc main_arg8) := rfl

theorem W1_arg9 (c : Dev nD) : W1 m ρ c (Proc.devRef .tc main_arg9) = m ((c.tc : Thread nD τ).loc main_arg9) :=
  calc W1 m ρ c (Proc.devRef .tc main_arg9)
    _ = W0 m ρ c (Proc.devRef .tc main_arg9) := by not_written
    _ = m ((c.tc : Thread nD τ).loc main_arg9) := rfl

theorem V1_arg3 (c : Dev nD) : V1 m ρ c main_arg3 = m ((c.tc : Thread nD τ).loc main_arg3) := W1_arg3 m ρ c

set_option maxHeartbeats 1000000 in
/-- After the embedding region its output array holds the embedding of the flattened features. -/
theorem W2_v1 (c : Dev nD) : W2 m ρ c (Proc.devRef .tc main_v1)
    = embedF (R := 40000) (shapeCast S40000x128 (m ((c.tc : Thread nD τ).loc main_arg0)) shapeCasts_S2x20000x128_S40000x128)
        (m ((c.tc : Thread nD τ).loc main_arg3)) := by
  refine (W2_arr m ρ c 2).trans ((arr0 (V1 m ρ) c).trans ?_)
  exact congrArg₂ (embedF (R := 40000)) (V1_v0 m ρ c) (V1_arg3 m ρ c)

theorem W2_arg1 (c : Dev nD) : W2 m ρ c (Proc.devRef .tc main_arg1) = m ((c.tc : Thread nD τ).loc main_arg1) :=
  (W2_of_ne m ρ c main_arg1 (by decide)).trans (W1_arg1 m ρ c)

theorem W2_arg2 (c : Dev nD) : W2 m ρ c (Proc.devRef .tc main_arg2) = m ((c.tc : Thread nD τ).loc main_arg2) :=
  (W2_of_ne m ρ c main_arg2 (by decide)).trans (W1_arg2 m ρ c)

theorem W2_arg4 (c : Dev nD) : W2 m ρ c (Proc.devRef .tc main_arg4) = m ((c.tc : Thread nD τ).loc main_arg4) :=
  (W2_of_ne m ρ c main_arg4 (by decide)).trans (W1_arg4 m ρ c)

theorem W2_arg5 (c : Dev nD) : W2 m ρ c (Proc.devRef .tc main_arg5) = m ((c.tc : Thread nD τ).loc main_arg5) :=
  (W2_of_ne m ρ c main_arg5 (by decide)).trans (W1_arg5 m ρ c)

theorem W2_arg6 (c : Dev nD) : W2 m ρ c (Proc.devRef .tc main_arg6) = m ((c.tc : Thread nD τ).loc main_arg6) :=
  (W2_of_ne m ρ c main_arg6 (by decide)).trans (W1_arg6 m ρ c)

theorem W2_arg7 (c : Dev nD) : W2 m ρ c (Proc.devRef .tc main_arg7) = m ((c.tc : Thread nD τ).loc main_arg7) :=
  (W2_of_ne m ρ c main_arg7 (by decide)).trans (W1_arg7 m ρ c)

theorem W2_arg8 (c : Dev nD) : W2 m ρ c (Proc.devRef .tc main_arg8) = m ((c.tc : Thread nD τ).loc main_arg8) :=
  (W2_of_ne m ρ c main_arg8 (by decide)).trans (W1_arg8 m ρ c)

theorem W2_arg9 (c : Dev nD) : W2 m ρ c (Proc.devRef .tc main_arg9) = m ((c.tc : Thread nD τ).loc main_arg9) :=
  (W2_of_ne m ρ c main_arg9 (by decide)).trans (W1_arg9 m ρ c)

end Cert.KernelIdeal.Hand

end
-- ==== Proof.KChain.lean ====
/-
  The host operations the kernel program applies between its regions, as functions: the neighbour indices with negative
  ones wrapped; the sum of the gathered neighbour rows; one over each vertex's degree (zero degrees replaced by one); the
  neighbour sums scaled by it; and the three layers' weight matrices cut out of the stacked arrays.
-/
import proofs.«421253_j32993938767999_3_alg».proof.Proof.Gen.KernelIdeal
import Idealize.ShloMosaic.PureOps
import Idealize.ShloMosaic.PureOps.Ideal

noncomputable section

namespace Cert.KernelIdeal.Hand

open Cert.KernelIdeal Cert.KernelIdeal.Gen Idealize.ShloMosaic

/-- The neighbour indices as the gather takes them: a negative index counts from the end. -/
def nbrIdx (idx : IVec S2x20000x32 32) : IVec S2x20000x32x1 32 :=
  broadcastInDim S2x20000x32x1 ![0, 1, 2] bcast_S2x20000x32_S2x20000x32x1_0_1_2
    (select (cmpi .slt idx (broadcastInDim S2x20000x32 ![] bcast_S_S2x20000x32 (constantI S_ 32 0#32)))
      (addi idx (broadcastInDim S2x20000x32 ![] bcast_S_S2x20000x32 (constantI S_ 32 20000#32))) idx)

/-- The sum over a vertex's 32 neighbours of their feature rows. -/
def nbrSum (h : FVec Ideal S2x20000x128 .bf16) (idx : IVec S2x20000x32 32) : FVec Ideal S2x20000x128 .f32 :=
  Host.reduceAdd (extf .f32 (Host.gather gather_S2x20000x128_S2x20000x32x1_S2x20000x32x128_3_1_0_0_1_3_11128 h (nbrIdx idx)) bitsLt_bf16_f32)
    (constant (F := Ideal) S_ .f32 0x00000000#32) reducesTo_S2x20000x32x128_S2x20000x128_d2 h_S_

/-- A vertex's degree, zero replaced by one. -/
def degree (vl : IVec S2x20000 32) : IVec S2x20000 32 :=
  select (cmpi .eq vl (broadcastInDim S2x20000 ![] bcast_S_S2x20000 (constantI S_ 32 0#32)))
    (broadcastInDim S2x20000 ![] bcast_S_S2x20000 (id (constantI S_ 32 1#32))) vl

/-- One over each vertex's degree, as a column. -/
def degInv (vl : IVec S2x20000 32) : FVec Ideal S2x20000x1 .f32 :=
  broadcastInDim S2x20000x1 ![0, 1] bcast_S2x20000_S2x20000x1_0_1
    (Host.divf (broadcastInDim S2x20000 ![] bcast_S_S2x20000 (constant (F := Ideal) S_ .f32 0x3F800000#32))
      (sitofp .f32 (degree vl)))

/-- The neighbour sums scaled by a column. -/
def aggK (h : FVec Ideal S2x20000x128 .bf16) (idx : IVec S2x20000x32 32) (dinv : FVec Ideal S2x20000x1 .f32) :
    FVec Ideal S2x20000x128 .bf16 :=
  truncf .bf16 (mulf (nbrSum h idx) (broadcastInDim S2x20000x128 ![0, 1, 2] bcast_S2x20000x1_S2x20000x128_0_1_2 dinv)) bitsLt_bf16_f32

/-- The first layer's matrix of a stacked weight array. -/
def wSlice0 (a : FVec Ideal S3x128x128 .f32) : FVec Ideal S128x128 .f32 :=
  shapeCast S128x128 (extractStridedSlice S1x128x128 ![0, 0, 0] a slices_S3x128x128_S1x128x128_0_0_0) shapeCasts_S1x128x128_S128x128
/-- The second layer's. -/
def wSlice1 (a : FVec Ideal S3x128x128 .f32) : FVec Ideal S128x128 .f32 :=
  shapeCast S128x128 (extractStridedSlice S1x128x128 ![1, 0, 0] a slices_S3x128x128_S1x128x128_1_0_0) shapeCasts_S1x128x128_S128x128
/-- The third layer's. -/
def wSlice2 (a : FVec Ideal S3x128x128 .f32) : FVec Ideal S128x128 .f32 :=
  shapeCast S128x128 (extractStridedSlice S1x128x128 ![2, 0, 0] a slices_S3x128x128_S1x128x128_2_0_0) shapeCasts_S1x128x128_S128x128

end Cert.KernelIdeal.Hand

end
-- ==== Proof.KH1.lean ====
/-
  The buffers before the first middle layer, from those at the embedding region's exit: the embedding un-flattened to the
  batched layout feeds the gather; the neighbour sums scaled by one over the degrees, flattened again, are the layer's
  first operand, the embedding itself its second, the first matrices of the two stacked weight arrays its third and
  fourth. The degree column is kept for the later layers; the arguments pass through.
-/
import proofs.«421253_j32993938767999_3_alg».proof.Proof.Gen.KernelIdeal.Frame
import proofs.«421253_j32993938767999_3_alg».proof.Proof.KChain
import proofs.«421253_j32993938767999_3_alg».proof.Proof.Stages
import Idealize.ShloMosaic.Lib.StableHlo.Run

set_option maxRecDepth 16384

noncomputable section

namespace Cert.KernelIdeal.Hand

open Cert.KernelIdeal Cert.KernelIdeal.Gen Idealize.ShloMosaic Idealize.ShloMosaic.TcCoe Idealize.SL.Sem
open Idealize.ShloMosaic.ValueIdx Cert.Rows Cert.Stages Idealize.ShloMosaic.StableHlo

variable (m : (ℓ : Loc nD τ sig) → Buf (Elt Ideal) ℓ) (ρ : Dev nD → PrngReg)

/-- A buffer no operation of a stretch writes holds after it what it held before. -/
local macro "not_written" : tactic => `(tactic| (
  refine StableHlo.after_of_forall_not_mem _ _ (List.forall_iff_forall_mem.mp ?_)
  simp only [hostOps0, hostOps1, hostOps1_1, hostOps1_2, hostOps2, hostOps3, hostOps4, List.flatten_cons, List.flatten_nil, List.append_nil, List.cons_append,
    List.nil_append, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)))

set_option maxHeartbeats 1000000 in
theorem W5_v23_rel (c : Dev nD) : W5 m ρ c (Proc.devRef .tc main_v23)
    = shapeCast S40000x128 (aggK (shapeCast S2x20000x128 (W2 m ρ c (Proc.devRef .tc main_v1)) shapeCasts_S40000x128_S2x20000x128)
        (W2 m ρ c (Proc.devRef .tc main_arg1)) (degInv (W2 m ρ c (Proc.devRef .tc main_arg2)))) shapeCasts_S2x20000x128_S40000x128 := by
  dsimp only [W5, W4, W3]
  after_results
  rfl

set_option maxHeartbeats 1000000 in
theorem W5_v22_rel (c : Dev nD) : W5 m ρ c (Proc.devRef .tc main_v22)
    = shapeCast S40000x128 (shapeCast S2x20000x128 (W2 m ρ c (Proc.devRef .tc main_v1)) shapeCasts_S40000x128_S2x20000x128)
        shapeCasts_S2x20000x128_S40000x128 := by
  dsimp only [W5, W4, W3]
  after_results
  rfl

set_option maxHeartbeats 1000000 in
theorem W5_v25_rel (c : Dev nD) : W5 m ρ c (Proc.devRef .tc main_v25) = wSlice0 (W2 m ρ c (Proc.devRef .tc main_arg4)) := by
  dsimp only [W5, W4, W3]
  after_results
  rfl

set_option maxHeartbeats 1000000 in
theorem W5_v27_rel (c : Dev nD) : W5 m ρ c (Proc.devRef .tc main_v27) = wSlice0 (W2 m ρ c (Proc.devRef .tc main_arg5)) := by
  dsimp only [W5, W4, W3]
  after_results
  rfl

set_option maxHeartbeats 1000000 in
theorem W5_v9_rel (c : Dev nD) : W5 m ρ c (Proc.devRef .tc main_v9) = degInv (W2 m ρ c (Proc.devRef .tc main_arg2)) := by
  dsimp only [W5, W4, W3]
  after_results
  rfl

theorem W5_keep_arg1 (c : Dev nD) : W5 m ρ c (Proc.devRef .tc main_arg1) = W2 m ρ c (Proc.devRef .tc main_arg1) :=
  calc W5 m ρ c (Proc.devRef .tc main_arg1)
    _ = W4 m ρ c (Proc.devRef .tc main_arg1) := by not_written
    _ = W3 m ρ c (Proc.devRef .tc main_arg1) := by not_written
    _ = W2 m ρ c (Proc.devRef .tc main_arg1) := by not_written

theorem W5_keep_arg4 (c : Dev nD) : W5 m ρ c (Proc.devRef .tc main_arg4) = W2 m ρ c (Proc.devRef .tc main_arg4) :=
  calc W5 m ρ c (Proc.devRef .tc main_arg4)
    _ = W4 m ρ c (Proc.devRef .tc main_arg4) := by not_written
    _ = W3 m ρ c (Proc.devRef .tc main_arg4) := by not_written
    _ = W2 m ρ c (Proc.devRef .tc main_arg4) := by not_written

theorem W5_keep_arg5 (c : Dev nD) : W5 m ρ c (Proc.devRef .tc main_arg5) = W2 m ρ c (Proc.devRef .tc main_arg5) :=
  calc W5 m ρ c (Proc.devRef .tc main_arg5)
    _ = W4 m ρ c (Proc.devRef .tc main_arg5) := by not_written
    _ = W3 m ρ c (Proc.devRef .tc main_arg5) := by not_written
    _ = W2 m ρ c (Proc.devRef .tc main_arg5) := by not_written

theorem W5_keep_arg6 (c : Dev nD) : W5 m ρ c (Proc.devRef .tc main_arg6) = W2 m ρ c (Proc.devRef .tc main_arg6) :=
  calc W5 m ρ c (Proc.devRef .tc main_arg6)
    _ = W4 m ρ c (Proc.devRef .tc main_arg6) := by not_written
    _ = W3 m ρ c (Proc.devRef .tc main_arg6) := by not_written
    _ = W2 m ρ c (Proc.devRef .tc main_arg6) := by not_written

theorem W5_keep_arg7 (c : Dev nD) : W5 m ρ c (Proc.devRef .tc main_arg7) = W2 m ρ c (Proc.devRef .tc main_arg7) :=
  calc W5 m ρ c (Proc.devRef .tc main_arg7)
    _ = W4 m ρ c (Proc.devRef .tc main_arg7) := by not_written
    _ = W3 m ρ c (Proc.devRef .tc main_arg7) := by not_written
    _ = W2 m ρ c (Proc.devRef .tc main_arg7) := by not_written

theorem W5_keep_arg8 (c : Dev nD) : W5 m ρ c (Proc.devRef .tc main_arg8) = W2 m ρ c (Proc.devRef .tc main_arg8) :=
  calc W5 m ρ c (Proc.devRef .tc main_arg8)
    _ = W4 m ρ c (Proc.devRef .tc main_arg8) := by not_written
    _ = W3 m ρ c (Proc.devRef .tc main_arg8) := by not_written
    _ = W2 m ρ c (Proc.devRef .tc main_arg8) := by not_written

theorem W5_keep_arg9 (c : Dev nD) : W5 m ρ c (Proc.devRef .tc main_arg9) = W2 m ρ c (Proc.devRef .tc main_arg9) :=
  calc W5 m ρ c (Proc.devRef .tc main_arg9)
    _ = W4 m ρ c (Proc.devRef .tc main_arg9) := by not_written
    _ = W3 m ρ c (Proc.devRef .tc main_arg9) := by not_written
    _ = W2 m ρ c (Proc.devRef .tc main_arg9) := by not_written

end Cert.KernelIdeal.Hand

end
-- ==== Proof.KH2.lean ====
/-
  The buffers before the second middle layer, from those at the first's exit: the first layer's output un-flattened to
  the batched layout feeds the gather; the neighbour sums scaled by the kept degree column, flattened again, are the
  layer's first operand, the first layer's output its second, the second matrices of the two stacked weight arrays its
  third and fourth. The degree column and the arguments pass through.
-/
import proofs.«421253_j32993938767999_3_alg».proof.Proof.Gen.KernelIdeal.Frame
import proofs.«421253_j32993938767999_3_alg».proof.Proof.KChain
import proofs.«421253_j32993938767999_3_alg».proof.Proof.Stages
import Idealize.ShloMosaic.Lib.StableHlo.Run

set_option maxRecDepth 16384

noncomputable section

namespace Cert.KernelIdeal.Hand

open Cert.KernelIdeal Cert.KernelIdeal.Gen Idealize.ShloMosaic Idealize.ShloMosaic.TcCoe Idealize.SL.Sem
open Idealize.ShloMosaic.ValueIdx Cert.Rows Cert.Stages Idealize.ShloMosaic.StableHlo

variable (m : (ℓ : Loc nD τ sig) → Buf (Elt Ideal) ℓ) (ρ : Dev nD → PrngReg)

/-- A buffer no operation of a stretch writes holds after it what it held before. -/
local macro "not_written" : tactic => `(tactic| (
  refine StableHlo.after_of_forall_not_mem _ _ (List.forall_iff_forall_mem.mp ?_)
  simp only [hostOps0, hostOps1, hostOps1_1, hostOps1_2, hostOps2, hostOps3, hostOps4, List.flatten_cons, List.flatten_nil, List.append_nil, List.cons_append,
    List.nil_append, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)))

set_option maxHeartbeats 1000000 in
theorem W7_v43_rel (c : Dev nD) : W7 m ρ c (Proc.devRef .tc main_v43)
    = shapeCast S40000x128 (aggK (shapeCast S2x20000x128 (W6 m ρ c (Proc.devRef .tc main_v28)) shapeCasts_S40000x128_S2x20000x128)
        (W6 m ρ c (Proc.devRef .tc main_arg1)) (W6 m ρ c (Proc.devRef .tc main_v9))) shapeCasts_S2x20000x128_S40000x128 := by
  dsimp only [W7]
  after_results
  rfl

set_option maxHeartbeats 1000000 in
theorem W7_v42_rel (c : Dev nD) : W7 m ρ c (Proc.devRef .tc main_v42)
    = shapeCast S40000x128 (shapeCast S2x20000x128 (W6 m ρ c (Proc.devRef .tc main_v28)) shapeCasts_S40000x128_S2x20000x128)
        shapeCasts_S2x20000x128_S40000x128 := by
  dsimp only [W7]
  after_results
  rfl

set_option maxHeartbeats 1000000 in
theorem W7_v45_rel (c : Dev nD) : W7 m ρ c (Proc.devRef .tc main_v45) = wSlice1 (W6 m ρ c (Proc.devRef .tc main_arg4)) := by
  dsimp only [W7]
  after_results
  rfl

set_option maxHeartbeats 1000000 in
theorem W7_v47_rel (c : Dev nD) : W7 m ρ c (Proc.devRef .tc main_v47) = wSlice1 (W6 m ρ c (Proc.devRef .tc main_arg5)) := by
  dsimp only [W7]
  after_results
  rfl

theorem W7_keep_v9 (c : Dev nD) : W7 m ρ c (Proc.devRef .tc main_v9) = W6 m ρ c (Proc.devRef .tc main_v9) := by not_written

theorem W7_keep_arg1 (c : Dev nD) : W7 m ρ c (Proc.devRef .tc main_arg1) = W6 m ρ c (Proc.devRef .tc main_arg1) := by not_written

theorem W7_keep_arg4 (c : Dev nD) : W7 m ρ c (Proc.devRef .tc main_arg4) = W6 m ρ c (Proc.devRef .tc main_arg4) := by not_written

theorem W7_keep_arg5 (c : Dev nD) : W7 m ρ c (Proc.devRef .tc main_arg5) = W6 m ρ c (Proc.devRef .tc main_arg5) := by not_written

theorem W7_keep_arg6 (c : Dev nD) : W7 m ρ c (Proc.devRef .tc main_arg6) = W6 m ρ c (Proc.devRef .tc main_arg6) := by not_written

theorem W7_keep_arg7 (c : Dev nD) : W7 m ρ c (Proc.devRef .tc main_arg7) = W6 m ρ c (Proc.devRef .tc main_arg7) := by not_written

theorem W7_keep_arg8 (c : Dev nD) : W7 m ρ c (Proc.devRef .tc main_arg8) = W6 m ρ c (Proc.devRef .tc main_arg8) := by not_written

theorem W7_keep_arg9 (c : Dev nD) : W7 m ρ c (Proc.devRef .tc main_arg9) = W6 m ρ c (Proc.devRef .tc main_arg9) := by not_written

end Cert.KernelIdeal.Hand

end
-- ==== Proof.KH3.lean ====
/-
  The buffers before the last region, from those at the second middle layer's exit: the second layer's output
  un-flattened feeds the gather; the scaled neighbour sums, flattened again, are the region's first operand, the second
  layer's output its second, the third matrices of the two stacked weight arrays its third and fourth; the two bias
  vectors are reshaped to one-row matrices; the classifier's weight matrices pass through.
-/
import proofs.«421253_j32993938767999_3_alg».proof.Proof.Gen.KernelIdeal.Frame
import proofs.«421253_j32993938767999_3_alg».proof.Proof.KChain
import proofs.«421253_j32993938767999_3_alg».proof.Proof.Stages
import Idealize.ShloMosaic.Lib.StableHlo.Run

set_option maxRecDepth 16384

noncomputable section

namespace Cert.KernelIdeal.Hand

open Cert.KernelIdeal Cert.KernelIdeal.Gen Idealize.ShloMosaic Idealize.ShloMosaic.TcCoe Idealize.SL.Sem
open Idealize.ShloMosaic.ValueIdx Cert.Rows Cert.Stages Idealize.ShloMosaic.StableHlo

variable (m : (ℓ : Loc nD τ sig) → Buf (Elt Ideal) ℓ) (ρ : Dev nD → PrngReg)

/-- A buffer no operation of a stretch writes holds after it what it held before. -/
local macro "not_written" : tactic => `(tactic| (
  refine StableHlo.after_of_forall_not_mem _ _ (List.forall_iff_forall_mem.mp ?_)
  simp only [hostOps0, hostOps1, hostOps1_1, hostOps1_2, hostOps2, hostOps3, hostOps4, List.flatten_cons, List.flatten_nil, List.append_nil, List.cons_append,
    List.nil_append, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)))

set_option maxHeartbeats 1000000 in
theorem W9_v63_rel (c : Dev nD) : W9 m ρ c (Proc.devRef .tc main_v63)
    = shapeCast S40000x128 (aggK (shapeCast S2x20000x128 (W8 m ρ c (Proc.devRef .tc main_v48)) shapeCasts_S40000x128_S2x20000x128)
        (W8 m ρ c (Proc.devRef .tc main_arg1)) (W8 m ρ c (Proc.devRef .tc main_v9))) shapeCasts_S2x20000x128_S40000x128 := by
  dsimp only [W9]
  after_results
  rfl

set_option maxHeartbeats 1000000 in
theorem W9_v62_rel (c : Dev nD) : W9 m ρ c (Proc.devRef .tc main_v62)
    = shapeCast S40000x128 (shapeCast S2x20000x128 (W8 m ρ c (Proc.devRef .tc main_v48)) shapeCasts_S40000x128_S2x20000x128)
        shapeCasts_S2x20000x128_S40000x128 := by
  dsimp only [W9]
  after_results
  rfl

set_option maxHeartbeats 1000000 in
theorem W9_v67_rel (c : Dev nD) : W9 m ρ c (Proc.devRef .tc main_v67) = wSlice2 (W8 m ρ c (Proc.devRef .tc main_arg4)) := by
  dsimp only [W9]
  after_results
  rfl

set_option maxHeartbeats 1000000 in
theorem W9_v69_rel (c : Dev nD) : W9 m ρ c (Proc.devRef .tc main_v69) = wSlice2 (W8 m ρ c (Proc.devRef .tc main_arg5)) := by
  dsimp only [W9]
  after_results
  rfl

set_option maxHeartbeats 1000000 in
theorem W9_v64_rel (c : Dev nD) : W9 m ρ c (Proc.devRef .tc main_v64)
    = shapeCast S1x128 (W8 m ρ c (Proc.devRef .tc main_arg7)) shapeCasts_S128_S1x128 := by
  dsimp only [W9]
  after_results
  rfl

set_option maxHeartbeats 1000000 in
theorem W9_v65_rel (c : Dev nD) : W9 m ρ c (Proc.devRef .tc main_v65)
    = shapeCast S1x40 (W8 m ρ c (Proc.devRef .tc main_arg9)) shapeCasts_S40_S1x40 := by
  dsimp only [W9]
  after_results
  rfl

theorem W9_keep_arg6 (c : Dev nD) : W9 m ρ c (Proc.devRef .tc main_arg6) = W8 m ρ c (Proc.devRef .tc main_arg6) := by not_written

theorem W9_keep_arg8 (c : Dev nD) : W9 m ρ c (Proc.devRef .tc main_arg8) = W8 m ρ c (Proc.devRef .tc main_arg8) := by not_written

end Cert.KernelIdeal.Hand

end
-- ==== Proof.GcnPay.lean ====
/-
  The graph-convolution bodies' payload read at an index. Row p of the output block is the clipped sum of two
  products: row p of the neighbour block with the first weight matrix, and row p of the feature block with the
  second. The two middle layers have the same body.
-/
import proofs.«421253_j32993938767999_3_alg».proof.Proof.KMat
import proofs.«421253_j32993938767999_3_alg».proof.Proof.Stages

noncomputable section

namespace Cert.KernelIdeal.Hand

open Cert.KernelIdeal Cert.KernelIdeal.Gen Idealize.ShloMosaic Idealize.ShloMosaic.ValueIdx Cert.Rows Cert.Stages

/-- The first middle layer's payload at (p, q): the layer's row function of rows p. -/
theorem pay1_apply (n h : FVec Ideal S4000x128 .bf16) (w b : FVec Ideal S128x128 .f32) (p : Fin 4000) (q : Fin 128) :
    (k1_pay1 (F := Ideal) n h w b) (ix2 p q) = gcnRow zF (frow n p) (frow h p) (mat w) (mat b) q := by
  unfold k1_pay1
  simp only [shapeCast_self]
  show max (matmul (F := Ideal) dot_S4000x128_S128x128_S4000x128_1_0_0_1_n_n none _ _ _ (ix2 p q)
      + matmul (F := Ideal) dot_S4000x128_S128x128_S4000x128_1_0_0_1_n_n none _ _ _ (ix2 p q)) zF = _
  unfold gcnRow
  refine congrArg₂ max (congrArg₂ (· + ·) ?_ ?_) rfl
  · exact matmulA_apply _ _ p q
  · exact matmulA_apply _ _ p q

/-- The payload as a whole: the layer on the block. -/
theorem pay1_eq (n h : FVec Ideal S4000x128 .bf16) (w b : FVec Ideal S128x128 .f32) :
    k1_pay1 (F := Ideal) n h w b = gcnF (R := 4000) zF n h w b := by
  funext j
  obtain ⟨p, q, rfl⟩ : ∃ (p : Fin 4000) (q : Fin 128), j = ix2 p q := ⟨j 0, j 1, eq_ix2 j⟩
  exact pay1_apply n h w b p q

/-- The second middle layer's payload is the first's. -/
theorem pay2_eq (n h : FVec Ideal S4000x128 .bf16) (w b : FVec Ideal S128x128 .f32) :
    k2_pay1 (F := Ideal) n h w b = gcnF (R := 4000) zF n h w b :=
  (show k2_pay1 (F := Ideal) n h w b = k1_pay1 (F := Ideal) n h w b from rfl).trans (pay1_eq n h w b)

end Cert.KernelIdeal.Hand

end
-- ==== Proof.Region1.lean ====
/-
  The first middle layer's region. At every grid point the body writes, into its block of 4000 rows, the layer's
  row function of the block's rows: row p of the output block depends on rows p of the two input blocks and on the
  two weight matrices only. Point t's blocks are rows 4000 t … 4000 t + 3999 of the flat arrays and the ten blocks
  cover them, so after the region the output array is the layer of the input arrays, row by row.
-/
import proofs.«421253_j32993938767999_3_alg».proof.Proof.Gen.KernelIdeal.Frame
import proofs.«421253_j32993938767999_3_alg».proof.Proof.GcnPay
import Idealize.ShloMosaic.Lib.Pipeline.Value
import Idealize.ShloMosaic.Lib.Tactic

set_option maxRecDepth 16384

noncomputable section

namespace Cert.KernelIdeal.Hand

open Cert.KernelIdeal Cert.KernelIdeal.Gen Idealize.ShloMosaic Idealize.ShloMosaic.TcCoe Idealize.SL.Sem
open Idealize.ShloMosaic.ValueIdx Cert.Rows Cert.Stages
open Idealize.ShloMosaic.Pipeline (Dat)

section
variable (V : (c : Dev nD) → (b : Ref sig .tc) → Buf (Elt Ideal) ((c : Thread nD τ).loc b))

/-- The printed index maps over the grid: the three row windows move with the point, the weight windows stay. -/
theorem idx1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- The neighbour block at point t is rows 4000 t … of the neighbour array. -/
theorem iblk1_0_apply (c : Dev nD) (t : Fin cfg1.N) (p : Fin 4000) (k : Fin 128) (i : S40000x128.Idx)
    (h0 : (i 0).val = t.val * 4000 + p.val) (h1 : (i 1).val = k.val) :
    (iblk1 V c 0 t : Vec Ideal S4000x128 .bf16) (ix2 p k) = (V c main_v23 : S40000x128.Idx → EReal) i := by
  obtain ⟨e0, e1, -⟩ := idx1 t
  unfold iblk1
  rw [View.read_apply]
  show (V c main_v23 : S40000x128.Idx → EReal) _ = (V c main_v23 : S40000x128.Idx → EReal) _
  congr 1
  funext a
  apply Fin.ext
  match a with
  | ⟨0, _⟩ => show win1_0.index t (0 : Fin 2) * 4000 + 1 * p.val = (i 0).val; rw [e0, h0]; omega
  | ⟨1, _⟩ => show win1_0.index t (1 : Fin 2) * 128 + 1 * k.val = (i 1).val; rw [e1, h1]; omega

/-- The feature block at point t is rows 4000 t … of the feature array. -/
theorem iblk1_1_apply (c : Dev nD) (t : Fin cfg1.N) (p : Fin 4000) (k : Fin 128) (i : S40000x128.Idx)
    (h0 : (i 0).val = t.val * 4000 + p.val) (h1 : (i 1).val = k.val) :
    (iblk1 V c 1 t : Vec Ideal S4000x128 .bf16) (ix2 p k) = (V c main_v22 : S40000x128.Idx → EReal) i := by
  obtain ⟨-, -, e2, e3, -⟩ := idx1 t
  unfold iblk1
  rw [View.read_apply]
  show (V c main_v22 : S40000x128.Idx → EReal) _ = (V c main_v22 : S40000x128.Idx → EReal) _
  congr 1
  funext a
  apply Fin.ext
  match a with
  | ⟨0, _⟩ => show win1_1.index t (0 : Fin 2) * 4000 + 1 * p.val = (i 0).val; rw [e2, h0]; omega
  | ⟨1, _⟩ => show win1_1.index t (1 : Fin 2) * 128 + 1 * k.val = (i 1).val; rw [e3, h1]; omega

/-- The first weight block at every point is the first weight array. -/
theorem iblk1_2_apply (c : Dev nD) (t : Fin cfg1.N) (k : Fin 128) (j : Fin 128) :
    (iblk1 V c 2 t : Vec Ideal S128x128 .f32) (ix2 k j) = (V c main_v25 : S128x128.Idx → EReal) (ix2 k j) := by
  obtain ⟨-, -, -, -, e4, e5, -⟩ := idx1 t
  unfold iblk1
  rw [View.read_apply]
  show (V c main_v25 : S128x128.Idx → EReal) _ = (V c main_v25 : S128x128.Idx → EReal) _
  congr 1
  funext a
  apply Fin.ext
  match a with
  | ⟨0, _⟩ => show win1_2.index t (0 : Fin 2) * 128 + 1 * k.val = k.val; rw [e4]; omega
  | ⟨1, _⟩ => show win1_2.index t (1 : Fin 2) * 128 + 1 * j.val = j.val; rw [e5]; omega

/-- The second weight block at every point is the second weight array. -/
theorem iblk1_3_apply (c : Dev nD) (t : Fin cfg1.N) (k : Fin 128) (j : Fin 128) :
    (iblk1 V c 3 t : Vec Ideal S128x128 .f32) (ix2 k j) = (V c main_v27 : S128x128.Idx → EReal) (ix2 k j) := by
  obtain ⟨-, -, -, -, -, -, e6, e7, -⟩ := idx1 t
  unfold iblk1
  rw [View.read_apply]
  show (V c main_v27 : S128x128.Idx → EReal) _ = (V c main_v27 : S128x128.Idx → EReal) _
  congr 1
  funext a
  apply Fin.ext
  match a with
  | ⟨0, _⟩ => show win1_3.index t (0 : Fin 2) * 128 + 1 * k.val = k.val; rw [e6]; omega
  | ⟨1, _⟩ => show win1_3.index t (1 : Fin 2) * 128 + 1 * j.val = j.val; rw [e7]; omega

/-- What point t writes back is block t of the layer of the input arrays. -/
theorem flushed1 (c : Dev nD) (t : Fin cfg1.N) :
    (dat1 V c).flushed 4 t = ((cfg1.win 4).blk t).view.read (Elt Ideal)
      (gcnF (R := 40000) zF (V c main_v23) (V c main_v22) (V c main_v25) (V c main_v27)) := by
  show (cfg1.win 4).cut (grid1.coords t) ((dat1 V c).after 4 t) = _
  rw [after1_4]
  unfold out1_4
  rw [View.canon_unit_zero hz2]
  simp only [View.ld_unit_zero (S := S4000x128) hz2, View.ld_unit_zero (S := S128x128) hz2]
  rw [pay1_eq]
  obtain ⟨-, -, -, -, -, -, -, -, e8, e9⟩ := idx1 t
  funext j
  obtain ⟨p, q, rfl⟩ : ∃ (p : Fin 4000) (q : Fin 128), j = ix2 p q := ⟨j 0, j 1, eq_ix2 j⟩
  show gcnRow zF (frow (iblk1 V c 0 t) p) (frow (iblk1 V c 1 t) p) (mat (iblk1 V c 2 t)) (mat (iblk1 V c 3 t)) q
    = gcnRow zF (frow (V c main_v23 : S40000x128.Idx → EReal) _) (frow (V c main_v22 : S40000x128.Idx → EReal) _)
        (mat (V c main_v25 : S128x128.Idx → EReal)) (mat (V c main_v27 : S128x128.Idx → EReal)) _
  have hq : (((cfg1.win 4).blk t).view.emb (ix2 p q)) 1 = q :=
    Fin.ext (by show win1_4.index t (1 : Fin 2) * 128 + 1 * q.val = q.val; rw [e9]; omega)
  have hn : frow (iblk1 V c 0 t : Vec Ideal S4000x128 .bf16) p
      = frow (V c main_v23 : S40000x128.Idx → EReal) ((((cfg1.win 4).blk t).view.emb (ix2 p q)) 0) :=
    funext fun k => iblk1_0_apply V c t p k _
      (by show win1_4.index t (0 : Fin 2) * 4000 + 1 * p.val = t.val * 4000 + p.val; rw [e8]; omega) rfl
  have hh : frow (iblk1 V c 1 t : Vec Ideal S4000x128 .bf16) p
      = frow (V c main_v22 : S40000x128.Idx → EReal) ((((cfg1.win 4).blk t).view.emb (ix2 p q)) 0) :=
    funext fun k => iblk1_1_apply V c t p k _
      (by show win1_4.index t (0 : Fin 2) * 4000 + 1 * p.val = t.val * 4000 + p.val; rw [e8]; omega) rfl
  have hw : mat (iblk1 V c 2 t : Vec Ideal S128x128 .f32) = mat (V c main_v25 : S128x128.Idx → EReal) :=
    funext fun k => funext fun j => iblk1_2_apply V c t k j
  have hb : mat (iblk1 V c 3 t : Vec Ideal S128x128 .f32) = mat (V c main_v27 : S128x128.Idx → EReal) :=
    funext fun k => funext fun j => iblk1_3_apply V c t k j
  rw [hn, hh, hw, hb, hq]

/-- Every row of the flat array lies in the block of the point that its row number divided by 4000 names. -/
theorem cover1 (c : Dev nD) (i : S40000x128.Idx) :
    ∃ t : Fin cfg1.N, (cfg1.win 4).flush t = true ∧ i ∈ ((cfg1.win 4).blk t).view.set := by
  have hN : cfg1.N = 10 := N_1
  have hi0 : (i 0).val < 40000 := (i 0).isLt
  have hi1 : (i 1).val < 128 := (i 1).isLt
  let t : Fin cfg1.N := ⟨(i 0).val / 4000, by rw [hN]; omega⟩
  obtain ⟨-, -, -, -, -, -, -, -, e8, e9⟩ := idx1 t
  refine ⟨t, flush1_4 t, ?_⟩
  show i ∈ ((View.whole main_v28).slice (win1_4.rect t)).set
  rw [View.set_slice_whole, Rect.mem_set_unit]
  intro a
  match a with
  | ⟨0, _⟩ =>
    show win1_4.index t (0 : Fin 2) * 4000 ≤ (i 0).val ∧ (i 0).val < win1_4.index t (0 : Fin 2) * 4000 + 4000
    rw [e8]; show (i 0).val / 4000 * 4000 ≤ (i 0).val ∧ (i 0).val < (i 0).val / 4000 * 4000 + 4000; omega
  | ⟨1, _⟩ =>
    show win1_4.index t (1 : Fin 2) * 128 ≤ (i 1).val ∧ (i 1).val < win1_4.index t (1 : Fin 2) * 128 + 128
    rw [e9]; omega

/-- After the region the output array is the layer of the input arrays, row by row. -/
theorem arr1 (c : Dev nD) :
    (dat1 V c).arrAt 4 cfg1.N = gcnF (R := 40000) zF (V c main_v23) (V c main_v22) (V c main_v25) (V c main_v27) :=
  (dat1 V c).arrAt_eq_of_cover 4 _ (fun t _ => flushed1 V c t) (cover1 c)

end

end Cert.KernelIdeal.Hand

end
-- ==== Proof.Region2.lean ====
/-
  The second middle layer's region. As in the first: at every grid point the body writes, into its block of 4000
  rows, the layer's row function of the block's rows; the ten blocks cover the flat arrays, so after the region the
  output array is the layer of the input arrays, row by row.
-/
import proofs.«421253_j32993938767999_3_alg».proof.Proof.Gen.KernelIdeal.Frame
import proofs.«421253_j32993938767999_3_alg».proof.Proof.GcnPay
import Idealize.ShloMosaic.Lib.Pipeline.Value
import Idealize.ShloMosaic.Lib.Tactic

set_option maxRecDepth 16384

noncomputable section

namespace Cert.KernelIdeal.Hand

open Cert.KernelIdeal Cert.KernelIdeal.Gen Idealize.ShloMosaic Idealize.ShloMosaic.TcCoe Idealize.SL.Sem
open Idealize.ShloMosaic.ValueIdx Cert.Rows Cert.Stages
open Idealize.ShloMosaic.Pipeline (Dat)

section
variable (V : (c : Dev nD) → (b : Ref sig .tc) → Buf (Elt Ideal) ((c : Thread nD τ).loc b))

/-- The printed index maps over the grid: the three row windows move with the point, the weight windows stay. -/
theorem idx2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- The neighbour block at point t is rows 4000 t … of the neighbour array. -/
theorem iblk2_0_apply (c : Dev nD) (t : Fin cfg2.N) (p : Fin 4000) (k : Fin 128) (i : S40000x128.Idx)
    (h0 : (i 0).val = t.val * 4000 + p.val) (h1 : (i 1).val = k.val) :
    (iblk2 V c 0 t : Vec Ideal S4000x128 .bf16) (ix2 p k) = (V c main_v43 : S40000x128.Idx → EReal) i := by
  obtain ⟨e0, e1, -⟩ := idx2 t
  unfold iblk2
  rw [View.read_apply]
  show (V c main_v43 : S40000x128.Idx → EReal) _ = (V c main_v43 : S40000x128.Idx → EReal) _
  congr 1
  funext a
  apply Fin.ext
  match a with
  | ⟨0, _⟩ => show win2_0.index t (0 : Fin 2) * 4000 + 1 * p.val = (i 0).val; rw [e0, h0]; omega
  | ⟨1, _⟩ => show win2_0.index t (1 : Fin 2) * 128 + 1 * k.val = (i 1).val; rw [e1, h1]; omega

/-- The feature block at point t is rows 4000 t … of the feature array. -/
theorem iblk2_1_apply (c : Dev nD) (t : Fin cfg2.N) (p : Fin 4000) (k : Fin 128) (i : S40000x128.Idx)
    (h0 : (i 0).val = t.val * 4000 + p.val) (h1 : (i 1).val = k.val) :
    (iblk2 V c 1 t : Vec Ideal S4000x128 .bf16) (ix2 p k) = (V c main_v42 : S40000x128.Idx → EReal) i := by
  obtain ⟨-, -, e2, e3, -⟩ := idx2 t
  unfold iblk2
  rw [View.read_apply]
  show (V c main_v42 : S40000x128.Idx → EReal) _ = (V c main_v42 : S40000x128.Idx → EReal) _
  congr 1
  funext a
  apply Fin.ext
  match a with
  | ⟨0, _⟩ => show win2_1.index t (0 : Fin 2) * 4000 + 1 * p.val = (i 0).val; rw [e2, h0]; omega
  | ⟨1, _⟩ => show win2_1.index t (1 : Fin 2) * 128 + 1 * k.val = (i 1).val; rw [e3, h1]; omega

/-- The first weight block at every point is the first weight array. -/
theorem iblk2_2_apply (c : Dev nD) (t : Fin cfg2.N) (k : Fin 128) (j : Fin 128) :
    (iblk2 V c 2 t : Vec Ideal S128x128 .f32) (ix2 k j) = (V c main_v45 : S128x128.Idx → EReal) (ix2 k j) := by
  obtain ⟨-, -, -, -, e4, e5, -⟩ := idx2 t
  unfold iblk2
  rw [View.read_apply]
  show (V c main_v45 : S128x128.Idx → EReal) _ = (V c main_v45 : S128x128.Idx → EReal) _
  congr 1
  funext a
  apply Fin.ext
  match a with
  | ⟨0, _⟩ => show win2_2.index t (0 : Fin 2) * 128 + 1 * k.val = k.val; rw [e4]; omega
  | ⟨1, _⟩ => show win2_2.index t (1 : Fin 2) * 128 + 1 * j.val = j.val; rw [e5]; omega

/-- The second weight block at every point is the second weight array. -/
theorem iblk2_3_apply (c : Dev nD) (t : Fin cfg2.N) (k : Fin 128) (j : Fin 128) :
    (iblk2 V c 3 t : Vec Ideal S128x128 .f32) (ix2 k j) = (V c main_v47 : S128x128.Idx → EReal) (ix2 k j) := by
  obtain ⟨-, -, -, -, -, -, e6, e7, -⟩ := idx2 t
  unfold iblk2
  rw [View.read_apply]
  show (V c main_v47 : S128x128.Idx → EReal) _ = (V c main_v47 : S128x128.Idx → EReal) _
  congr 1
  funext a
  apply Fin.ext
  match a with
  | ⟨0, _⟩ => show win2_3.index t (0 : Fin 2) * 128 + 1 * k.val = k.val; rw [e6]; omega
  | ⟨1, _⟩ => show win2_3.index t (1 : Fin 2) * 128 + 1 * j.val = j.val; rw [e7]; omega

/-- What point t writes back is block t of the layer of the input arrays. -/
theorem flushed2 (c : Dev nD) (t : Fin cfg2.N) :
    (dat2 V c).flushed 4 t = ((cfg2.win 4).blk t).view.read (Elt Ideal)
      (gcnF (R := 40000) zF (V c main_v43) (V c main_v42) (V c main_v45) (V c main_v47)) := by
  show (cfg2.win 4).cut (grid2.coords t) ((dat2 V c).after 4 t) = _
  rw [after2_4]
  unfold out2_4
  rw [View.canon_unit_zero hz2]
  simp only [View.ld_unit_zero (S := S4000x128) hz2, View.ld_unit_zero (S := S128x128) hz2]
  rw [pay2_eq]
  obtain ⟨-, -, -, -, -, -, -, -, e8, e9⟩ := idx2 t
  funext j
  obtain ⟨p, q, rfl⟩ : ∃ (p : Fin 4000) (q : Fin 128), j = ix2 p q := ⟨j 0, j 1, eq_ix2 j⟩
  show gcnRow zF (frow (iblk2 V c 0 t) p) (frow (iblk2 V c 1 t) p) (mat (iblk2 V c 2 t)) (mat (iblk2 V c 3 t)) q
    = gcnRow zF (frow (V c main_v43 : S40000x128.Idx → EReal) _) (frow (V c main_v42 : S40000x128.Idx → EReal) _)
        (mat (V c main_v45 : S128x128.Idx → EReal)) (mat (V c main_v47 : S128x128.Idx → EReal)) _
  have hq : (((cfg2.win 4).blk t).view.emb (ix2 p q)) 1 = q :=
    Fin.ext (by show win2_4.index t (1 : Fin 2) * 128 + 1 * q.val = q.val; rw [e9]; omega)
  have hn : frow (iblk2 V c 0 t : Vec Ideal S4000x128 .bf16) p
      = frow (V c main_v43 : S40000x128.Idx → EReal) ((((cfg2.win 4).blk t).view.emb (ix2 p q)) 0) :=
    funext fun k => iblk2_0_apply V c t p k _
      (by show win2_4.index t (0 : Fin 2) * 4000 + 1 * p.val = t.val * 4000 + p.val; rw [e8]; omega) rfl
  have hh : frow (iblk2 V c 1 t : Vec Ideal S4000x128 .bf16) p
      = frow (V c main_v42 : S40000x128.Idx → EReal) ((((cfg2.win 4).blk t).view.emb (ix2 p q)) 0) :=
    funext fun k => iblk2_1_apply V c t p k _
      (by show win2_4.index t (0 : Fin 2) * 4000 + 1 * p.val = t.val * 4000 + p.val; rw [e8]; omega) rfl
  have hw : mat (iblk2 V c 2 t : Vec Ideal S128x128 .f32) = mat (V c main_v45 : S128x128.Idx → EReal) :=
    funext fun k => funext fun j => iblk2_2_apply V c t k j
  have hb : mat (iblk2 V c 3 t : Vec Ideal S128x128 .f32) = mat (V c main_v47 : S128x128.Idx → EReal) :=
    funext fun k => funext fun j => iblk2_3_apply V c t k j
  rw [hn, hh, hw, hb, hq]

/-- Every row of the flat array lies in the block of the point that its row number divided by 4000 names. -/
theorem cover2 (c : Dev nD) (i : S40000x128.Idx) :
    ∃ t : Fin cfg2.N, (cfg2.win 4).flush t = true ∧ i ∈ ((cfg2.win 4).blk t).view.set := by
  have hN : cfg2.N = 10 := N_2
  have hi0 : (i 0).val < 40000 := (i 0).isLt
  have hi1 : (i 1).val < 128 := (i 1).isLt
  let t : Fin cfg2.N := ⟨(i 0).val / 4000, by rw [hN]; omega⟩
  obtain ⟨-, -, -, -, -, -, -, -, e8, e9⟩ := idx2 t
  refine ⟨t, flush2_4 t, ?_⟩
  show i ∈ ((View.whole main_v48).slice (win2_4.rect t)).set
  rw [View.set_slice_whole, Rect.mem_set_unit]
  intro a
  match a with
  | ⟨0, _⟩ =>
    show win2_4.index t (0 : Fin 2) * 4000 ≤ (i 0).val ∧ (i 0).val < win2_4.index t (0 : Fin 2) * 4000 + 4000
    rw [e8]; show (i 0).val / 4000 * 4000 ≤ (i 0).val ∧ (i 0).val < (i 0).val / 4000 * 4000 + 4000; omega
  | ⟨1, _⟩ =>
    show win2_4.index t (1 : Fin 2) * 128 ≤ (i 1).val ∧ (i 1).val < win2_4.index t (1 : Fin 2) * 128 + 128
    rw [e9]; omega

/-- After the region the output array is the layer of the input arrays, row by row. -/
theorem arr2 (c : Dev nD) :
    (dat2 V c).arrAt 4 cfg2.N = gcnF (R := 40000) zF (V c main_v43) (V c main_v42) (V c main_v45) (V c main_v47) :=
  (dat2 V c).arrAt_eq_of_cover 4 _ (fun t _ => flushed2 V c t) (cover2 c)

end

end Cert.KernelIdeal.Hand

end
-- ==== Proof.Region3.lean ====
/-
  The last region: the final graph-convolution layer fused with the classifier and the softmax. At every grid point
  the body writes, into its block of 4000 rows, the class probabilities of the block's vertices: row p of the output
  block depends on row p of the two feature blocks and on the weights only. Point t's block is rows 4000 t … 4000 t + 3999
  of the flat array, the ten blocks cover it, so after the region the output array is the classifier stage of the
  input arrays, row by row.
-/
import proofs.«421253_j32993938767999_3_alg».proof.Proof.Gen.KernelIdeal.Frame
import proofs.«421253_j32993938767999_3_alg».proof.Proof.KMat
import proofs.«421253_j32993938767999_3_alg».proof.Proof.Stages
import Idealize.ShloMosaic.Lib.Pipeline.Value
import Idealize.ShloMosaic.Lib.Tactic

set_option maxRecDepth 16384

noncomputable section

namespace Cert.KernelIdeal.Hand

open Cert.KernelIdeal Cert.KernelIdeal.Gen Idealize.ShloMosaic Idealize.ShloMosaic.TcCoe Idealize.SL.Sem
open Idealize.ShloMosaic.ValueIdx Cert.Rows Cert.Stages
open Idealize.ShloMosaic.Pipeline (Dat)

/-- A row maximum over forty columns kept as a column and broadcast back along the row reads, at (p, q), the fold of
    max over row p from the value the accumulator pattern denotes. -/
theorem rowmax3_apply (v : FVec Ideal S4000x40 .f32) (hred : S4000x40.Reduces [1] S4000) (hφ : FKind.Formats FTy.f32)
    (hacc : (0xFF800000#32 : BitVec 32) = FKind.maximumf.neutral .f32 hφ) (h1 : S4000.ShapeCasts S4000x1) (h2 : S4000x1.Broadcasts S4000x40)
    (p : Fin 4000) (q : Fin 40) :
    broadcastTo S4000x40 (shapeCast S4000x1 (multiReduction .maximumf [1] S4000 v 0xFF800000#32 hred hφ hacc) h1) h2 (ix2 p q)
      = (Finset.univ : Finset (Fin 40)).fold max loF (fun c => v (ix2 p c)) := by
  refine (bcastCol_apply _ h2 p q).trans ?_
  refine (shapeCast_a_a1_apply _ h1 p 0).trans ?_
  refine (Ideal.multiReduction_maximumf_single v 0xFF800000#32 hred hφ hacc (ix1 p)).trans ?_
  show (Finset.univ : Finset (Fin 40)).fold max loF (v ∘ hred.lift (ix1 p)) = _
  exact congrArg (fun f => (Finset.univ : Finset (Fin 40)).fold max loF f) (funext fun c => congrArg v (lift_cols_eq hred p c))

/-- A row sum over forty columns kept as a column and broadcast back along the row reads, at (p, q), the sum of row p. -/
theorem rowsum3_apply (v : FVec Ideal S4000x40 .f32) (hred : S4000x40.Reduces [1] S4000) (hφ : FKind.Formats FTy.f32)
    (hacc : (0x00000000#32 : BitVec 32) = FKind.add.neutral .f32 hφ) (h1 : S4000.ShapeCasts S4000x1) (h2 : S4000x1.Broadcasts S4000x40)
    (p : Fin 4000) (q : Fin 40) :
    broadcastTo S4000x40 (shapeCast S4000x1 (multiReduction .add [1] S4000 v 0x00000000#32 hred hφ hacc) h1) h2 (ix2 p q)
      = ∑ c : Fin 40, v (ix2 p c) := by
  refine (bcastCol_apply _ h2 p q).trans ?_
  refine (shapeCast_a_a1_apply _ h1 p 0).trans ?_
  refine (Ideal.multiReduction_add_single v 0x00000000#32 hred hφ hacc (ix1 p)).trans ?_
  refine Finset.sum_congr rfl fun k _ => ?_
  exact congrArg v (lift_cols_eq hred p k)

/-- The graph-convolution part at (p, q): the two products added and clipped at zero are the layer's row function of
    row p. -/
theorem gcn3_apply {φ₁ φ₂ : FTy} (n h : FVec Ideal S4000x128 φ₁) (gw gb : FVec Ideal S128x128 φ₂) (p : Fin 4000) (q : Fin 128) :
    maximumf (addf (matmul dot_S4000x128_S128x128_S4000x128_1_0_0_1_n_n none n gw (constant S4000x128 .f32 0x00000000#32))
        (matmul dot_S4000x128_S128x128_S4000x128_1_0_0_1_n_n none h gb (constant S4000x128 .f32 0x00000000#32)))
      (broadcast S4000x128 (Scalar.ofBits (F := Ideal) .f32 0x00000000#32)) (ix2 p q)
      = gcnRow zF (frow n p) (frow h p) (mat gw) (mat gb) q := by
  show max (matmul dot_S4000x128_S128x128_S4000x128_1_0_0_1_n_n none n gw _ (ix2 p q) + matmul dot_S4000x128_S128x128_S4000x128_1_0_0_1_n_n none h gb _ (ix2 p q)) zF = _
  unfold gcnRow
  refine congrArg₂ max (congrArg₂ (· + ·) ?_ ?_) rfl
  · exact matmulA_apply n gw p q
  · exact matmulA_apply h gb p q

/-- The hidden layer at (p, d): the product with the first classifier matrix plus the bias row, clipped at zero. -/
theorem hid3_apply {φ₁ φ₂ : FTy} (g : FVec Ideal S4000x128 φ₁) (w1 : FVec Ideal S128x128 φ₂) (b1 : FVec Ideal S1x128 .f32)
    (hb : S1x128.Broadcasts S4000x128) (p : Fin 4000) (d : Fin 128) :
    maximumf (addf (matmul dot_S4000x128_S128x128_S4000x128_1_0_0_1_n_n none g w1 (constant S4000x128 .f32 0x00000000#32))
        (broadcastTo S4000x128 b1 hb))
      (broadcast S4000x128 (Scalar.ofBits (F := Ideal) .f32 0x00000000#32)) (ix2 p d)
      = max ((∑ k : Fin 128, g (ix2 p k) * w1 (ix2 k d)) + b1 (ix2 0 d)) zF := by
  show max (matmul dot_S4000x128_S128x128_S4000x128_1_0_0_1_n_n none g w1 _ (ix2 p d) + broadcastTo S4000x128 b1 hb (ix2 p d)) zF = _
  refine congrArg₂ max (congrArg₂ (· + ·) ?_ ?_) rfl
  · exact matmulA_apply g w1 p d
  · exact bcastRow_apply (by decide) b1 hb p d

/-- The output layer at (p, q): the product with the second classifier matrix plus the bias row. -/
theorem out3_apply {φ₁ φ₂ : FTy} (a : FVec Ideal S4000x128 φ₁) (w2 : FVec Ideal S128x40 φ₂) (b2 : FVec Ideal S1x40 .f32)
    (hb : S1x40.Broadcasts S4000x40) (p : Fin 4000) (q : Fin 40) :
    addf (matmul dot_S4000x128_S128x40_S4000x40_1_0_0_1_n_n none a w2 (constant S4000x40 .f32 0x00000000#32))
        (broadcastTo S4000x40 b2 hb) (ix2 p q)
      = (∑ d : Fin 128, a (ix2 p d) * w2 (ix2 d q)) + b2 (ix2 0 q) := by
  show matmul dot_S4000x128_S128x40_S4000x40_1_0_0_1_n_n none a w2 _ (ix2 p q) + broadcastTo S4000x40 b2 hb (ix2 p q) = _
  refine congrArg₂ (· + ·) ?_ ?_
  · exact matmulB_apply a w2 p q
  · exact bcastRow_apply (by decide) b2 hb p q

/-- The logits' payload at (p, q): the classifier's logits of the last layer's row p. -/
theorem logit3_apply (n h : FVec Ideal S4000x128 .bf16) (gw gb w1 : FVec Ideal S128x128 .f32) (b1 : FVec Ideal S1x128 .f32)
    (w2 : FVec Ideal S128x40 .f32) (b2 : FVec Ideal S1x40 .f32) (p : Fin 4000) (q : Fin 40) :
    (k3_pay2 (F := Ideal) n h gw gb w1 b1 w2 b2) (ix2 p q)
      = logitRow zF (gcnRow zF (frow n p) (frow h p) (mat gw) (mat gb)) (mat w1) (row1 b1) (mat w2) (row1 b2) q := by
  unfold k3_pay2
  simp only [shapeCast_self]
  refine (out3_apply _ _ _ _ p q).trans ?_
  unfold logitRow
  refine congrArg₂ (· + ·) (Finset.sum_congr rfl fun d _ => congrArg₂ (· * ·) ?_ rfl) rfl
  refine (hid3_apply _ _ _ _ p d).trans ?_
  refine congrArg₂ max (congrArg₂ (· + ·) (Finset.sum_congr rfl fun k _ => congrArg₂ (· * ·) ?_ rfl) rfl) rfl
  exact gcn3_apply _ _ _ _ p k

/-- The body's payload at (p, q): the softmax of the logits of row p. -/
theorem pay3_apply (n h : FVec Ideal S4000x128 .bf16) (gw gb w1 : FVec Ideal S128x128 .f32) (b1 : FVec Ideal S1x128 .f32)
    (w2 : FVec Ideal S128x40 .f32) (b2 : FVec Ideal S1x40 .f32) (p : Fin 4000) (q : Fin 40) :
    (k3_pay1 (F := Ideal) (k3_pay2 n h gw gb w1 b1 w2 b2) (k3_pay3 n h gw gb w1 b1 w2 b2)) (ix2 p q)
      = softmaxRow loF (logitRow zF (gcnRow zF (frow n p) (frow h p) (mat gw) (mat gb)) (mat w1) (row1 b1) (mat w2) (row1 b2)) q := by
  have hL : ∀ c : Fin 40, (k3_pay2 (F := Ideal) n h gw gb w1 b1 w2 b2) (ix2 p c)
      = logitRow zF (gcnRow zF (frow n p) (frow h p) (mat gw) (mat gb)) (mat w1) (row1 b1) (mat w2) (row1 b2) c :=
    fun c => logit3_apply n h gw gb w1 b1 w2 b2 p c
  have hM : ∀ c : Fin 40, (k3_pay3 (F := Ideal) n h gw gb w1 b1 w2 b2) (ix2 p c)
      = (Finset.univ : Finset (Fin 40)).fold max loF
          (logitRow zF (gcnRow zF (frow n p) (frow h p) (mat gw) (mat gb)) (mat w1) (row1 b1) (mat w2) (row1 b2)) := by
    intro c
    unfold k3_pay3
    refine (rowmax3_apply _ _ _ _ _ _ p c).trans ?_
    exact congrArg (fun f => (Finset.univ : Finset (Fin 40)).fold max loF f) (funext hL)
  have hE : ∀ c : Fin 40, Ideal.exp ((k3_pay2 (F := Ideal) n h gw gb w1 b1 w2 b2) (ix2 p c) - (k3_pay3 (F := Ideal) n h gw gb w1 b1 w2 b2) (ix2 p c))
      = Ideal.exp (logitRow zF (gcnRow zF (frow n p) (frow h p) (mat gw) (mat gb)) (mat w1) (row1 b1) (mat w2) (row1 b2) c
          - (Finset.univ : Finset (Fin 40)).fold max loF
              (logitRow zF (gcnRow zF (frow n p) (frow h p) (mat gw) (mat gb)) (mat w1) (row1 b1) (mat w2) (row1 b2))) :=
    fun c => by rw [hL c, hM c]
  unfold k3_pay1
  show Ideal.div (Ideal.exp ((k3_pay2 (F := Ideal) n h gw gb w1 b1 w2 b2) (ix2 p q) - (k3_pay3 (F := Ideal) n h gw gb w1 b1 w2 b2) (ix2 p q)))
      (broadcastTo S4000x40 _ _ (ix2 p q)) = _
  unfold softmaxRow
  refine congrArg₂ Ideal.div (hE q) ?_
  refine (rowsum3_apply _ _ _ _ _ _ p q).trans ?_
  exact Finset.sum_congr rfl fun c _ => hE c

/-- The payload as a whole: the classifier stage of the block. -/
theorem pay3_eq (n h : FVec Ideal S4000x128 .bf16) (gw gb w1 : FVec Ideal S128x128 .f32) (b1 : FVec Ideal S1x128 .f32)
    (w2 : FVec Ideal S128x40 .f32) (b2 : FVec Ideal S1x40 .f32) :
    k3_pay1 (F := Ideal) (k3_pay2 n h gw gb w1 b1 w2 b2) (k3_pay3 n h gw gb w1 b1 w2 b2)
      = clsF (R := 4000) zF loF n h gw gb w1 b1 w2 b2 := by
  funext j
  obtain ⟨p, q, rfl⟩ : ∃ (p : Fin 4000) (q : Fin 40), j = ix2 p q := ⟨j 0, j 1, eq_ix2 j⟩
  exact pay3_apply n h gw gb w1 b1 w2 b2 p q

section
variable (V : (c : Dev nD) → (b : Ref sig .tc) → Buf (Elt Ideal) ((c : Thread nD τ).loc b))

/-- The printed index maps of the row windows over the grid: they move with the point. -/
theorem idx3_rows : ∀ t : Fin cfg3.N, win3_0.index t (0 : Fin 2) = t.val ∧ win3_0.index t (1 : Fin 2) = 0
    ∧ win3_1.index t (0 : Fin 2) = t.val ∧ win3_1.index t (1 : Fin 2) = 0
    ∧ win3_8.index t (0 : Fin 2) = t.val ∧ win3_8.index t (1 : Fin 2) = 0 :=
  (by decide +kernel : ∀ t : Fin grid3.N, _)

/-- The printed index maps of the weight and bias windows over the grid: they stay at the origin. -/
theorem idx3_fixed : ∀ t : Fin cfg3.N, win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0
    ∧ win3_7.index t (0 : Fin 2) = 0 ∧ win3_7.index t (1 : Fin 2) = 0 :=
  (by decide +kernel : ∀ t : Fin grid3.N, _)

/-- The neighbour-sum block at point t is rows 4000 t … of its array. -/
theorem iblk3_0_apply (c : Dev nD) (t : Fin cfg3.N) (p : Fin 4000) (k : Fin 128) (i : S40000x128.Idx)
    (h0 : (i 0).val = t.val * 4000 + p.val) (h1 : (i 1).val = k.val) :
    (iblk3 V c 0 t : Vec Ideal S4000x128 .bf16) (ix2 p k) = (V c main_v63 : S40000x128.Idx → EReal) i := by
  obtain ⟨e0, e1, -⟩ := idx3_rows t
  unfold iblk3
  rw [View.read_apply]
  show (V c main_v63 : S40000x128.Idx → EReal) _ = (V c main_v63 : S40000x128.Idx → EReal) _
  congr 1
  funext a
  apply Fin.ext
  match a with
  | ⟨0, _⟩ => show win3_0.index t (0 : Fin 2) * 4000 + 1 * p.val = (i 0).val; rw [e0, h0]; omega
  | ⟨1, _⟩ => show win3_0.index t (1 : Fin 2) * 128 + 1 * k.val = (i 1).val; rw [e1, h1]; omega

/-- The previous-feature block at point t is rows 4000 t … of its array. -/
theorem iblk3_1_apply (c : Dev nD) (t : Fin cfg3.N) (p : Fin 4000) (k : Fin 128) (i : S40000x128.Idx)
    (h0 : (i 0).val = t.val * 4000 + p.val) (h1 : (i 1).val = k.val) :
    (iblk3 V c 1 t : Vec Ideal S4000x128 .bf16) (ix2 p k) = (V c main_v62 : S40000x128.Idx → EReal) i := by
  obtain ⟨-, -, e0, e1, -⟩ := idx3_rows t
  unfold iblk3
  rw [View.read_apply]
  show (V c main_v62 : S40000x128.Idx → EReal) _ = (V c main_v62 : S40000x128.Idx → EReal) _
  congr 1
  funext a
  apply Fin.ext
  match a with
  | ⟨0, _⟩ => show win3_1.index t (0 : Fin 2) * 4000 + 1 * p.val = (i 0).val; rw [e0, h0]; omega
  | ⟨1, _⟩ => show win3_1.index t (1 : Fin 2) * 128 + 1 * k.val = (i 1).val; rw [e1, h1]; omega

/-- The layer's first weight block at every point is its array. -/
theorem iblk3_2_eq (c : Dev nD) (t : Fin cfg3.N) :
    (iblk3 V c 2 t : Vec Ideal S128x128 .f32) = (V c main_v67 : S128x128.Idx → EReal) := by
  obtain ⟨e0, e1, -⟩ := idx3_fixed t
  funext j
  unfold iblk3
  rw [View.read_apply]
  show (V c main_v67 : S128x128.Idx → EReal) _ = (V c main_v67 : S128x128.Idx → EReal) j
  congr 1
  funext a
  apply Fin.ext
  match a with
  | ⟨0, _⟩ => show win3_2.index t (0 : Fin 2) * 128 + 1 * (j 0).val = (j 0).val; rw [e0]; omega
  | ⟨1, _⟩ => show win3_2.index t (1 : Fin 2) * 128 + 1 * (j 1).val = (j 1).val; rw [e1]; omega

/-- The layer's second weight block at every point is its array. -/
theorem iblk3_3_eq (c : Dev nD) (t : Fin cfg3.N) :
    (iblk3 V c 3 t : Vec Ideal S128x128 .f32) = (V c main_v69 : S128x128.Idx → EReal) := by
  obtain ⟨-, -, e0, e1, -⟩ := idx3_fixed t
  funext j
  unfold iblk3
  rw [View.read_apply]
  show (V c main_v69 : S128x128.Idx → EReal) _ = (V c main_v69 : S128x128.Idx → EReal) j
  congr 1
  funext a
  apply Fin.ext
  match a with
  | ⟨0, _⟩ => show win3_3.index t (0 : Fin 2) * 128 + 1 * (j 0).val = (j 0).val; rw [e0]; omega
  | ⟨1, _⟩ => show win3_3.index t (1 : Fin 2) * 128 + 1 * (j 1).val = (j 1).val; rw [e1]; omega

/-- The classifier's first matrix block at every point is its array. -/
theorem iblk3_4_eq (c : Dev nD) (t : Fin cfg3.N) :
    (iblk3 V c 4 t : Vec Ideal S128x128 .f32) = (V c main_arg6 : S128x128.Idx → EReal) := by
  obtain ⟨-, -, -, -, e0, e1, -⟩ := idx3_fixed t
  funext j
  unfold iblk3
  rw [View.read_apply]
  show (V c main_arg6 : S128x128.Idx → EReal) _ = (V c main_arg6 : S128x128.Idx → EReal) j
  congr 1
  funext a
  apply Fin.ext
  match a with
  | ⟨0, _⟩ => show win3_4.index t (0 : Fin 2) * 128 + 1 * (j 0).val = (j 0).val; rw [e0]; omega
  | ⟨1, _⟩ => show win3_4.index t (1 : Fin 2) * 128 + 1 * (j 1).val = (j 1).val; rw [e1]; omega

/-- The classifier's first bias block at every point is its array. -/
theorem iblk3_5_eq (c : Dev nD) (t : Fin cfg3.N) :
    (iblk3 V c 5 t : Vec Ideal S1x128 .f32) = (V c main_v64 : S1x128.Idx → EReal) := by
  obtain ⟨-, -, -, -, -, -, e0, e1, -⟩ := idx3_fixed t
  funext j
  unfold iblk3
  rw [View.read_apply]
  show (V c main_v64 : S1x128.Idx → EReal) _ = (V c main_v64 : S1x128.Idx → EReal) j
  congr 1
  funext a
  apply Fin.ext
  match a with
  | ⟨0, _⟩ => show win3_5.index t (0 : Fin 2) * 1 + 1 * (j 0).val = (j 0).val; rw [e0]; omega
  | ⟨1, _⟩ => show win3_5.index t (1 : Fin 2) * 128 + 1 * (j 1).val = (j 1).val; rw [e1]; omega

/-- The classifier's second matrix block at every point is its array. -/
theorem iblk3_6_eq (c : Dev nD) (t : Fin cfg3.N) :
    (iblk3 V c 6 t : Vec Ideal S128x40 .f32) = (V c main_arg8 : S128x40.Idx → EReal) := by
  obtain ⟨-, -, -, -, -, -, -, -, e0, e1, -⟩ := idx3_fixed t
  funext j
  unfold iblk3
  rw [View.read_apply]
  show (V c main_arg8 : S128x40.Idx → EReal) _ = (V c main_arg8 : S128x40.Idx → EReal) j
  congr 1
  funext a
  apply Fin.ext
  match a with
  | ⟨0, _⟩ => show win3_6.index t (0 : Fin 2) * 128 + 1 * (j 0).val = (j 0).val; rw [e0]; omega
  | ⟨1, _⟩ => show win3_6.index t (1 : Fin 2) * 40 + 1 * (j 1).val = (j 1).val; rw [e1]; omega

/-- The classifier's second bias block at every point is its array. -/
theorem iblk3_7_eq (c : Dev nD) (t : Fin cfg3.N) :
    (iblk3 V c 7 t : Vec Ideal S1x40 .f32) = (V c main_v65 : S1x40.Idx → EReal) := by
  obtain ⟨-, -, -, -, -, -, -, -, -, -, e0, e1⟩ := idx3_fixed t
  funext j
  unfold iblk3
  rw [View.read_apply]
  show (V c main_v65 : S1x40.Idx → EReal) _ = (V c main_v65 : S1x40.Idx → EReal) j
  congr 1
  funext a
  apply Fin.ext
  match a with
  | ⟨0, _⟩ => show win3_7.index t (0 : Fin 2) * 1 + 1 * (j 0).val = (j 0).val; rw [e0]; omega
  | ⟨1, _⟩ => show win3_7.index t (1 : Fin 2) * 40 + 1 * (j 1).val = (j 1).val; rw [e1]; omega

/-- What the body leaves in the output's buffer at point t is the classifier stage of the point's input blocks. -/
theorem after3_8_cls (c : Dev nD) (t : Fin cfg3.N) :
    (dat3 V c).after 8 t = clsF (R := 4000) zF loF (iblk3 V c 0 t) (iblk3 V c 1 t) (iblk3 V c 2 t) (iblk3 V c 3 t)
      (iblk3 V c 4 t) (iblk3 V c 5 t) (iblk3 V c 6 t) (iblk3 V c 7 t) := by
  rw [after3_8]
  unfold out3_8
  rw [View.canon_unit_zero hz2]
  simp only [View.ld_unit_zero (S := S4000x128) hz2, View.ld_unit_zero (S := S128x128) hz2, View.ld_unit_zero (S := S1x128) hz2,
    View.ld_unit_zero (S := S128x40) hz2, View.ld_unit_zero (S := S1x40) hz2]
  exact pay3_eq _ _ _ _ _ _ _ _

/-- The classifier's row function respects equality of each of its arguments. -/
theorem cls3_congr {n n' h h' : Fin 128 → EReal} {gw gw' gb gb' w1 w1' : Fin 128 → Fin 128 → EReal} {b1 b1' : Fin 128 → EReal}
    {w2 w2' : Fin 128 → Fin 40 → EReal} {b2 b2' : Fin 40 → EReal} {q q' : Fin 40}
    (hn : n = n') (hh : h = h') (hgw : gw = gw') (hgb : gb = gb') (hw1 : w1 = w1') (hb1 : b1 = b1') (hw2 : w2 = w2') (hb2 : b2 = b2')
    (hq : q = q') :
    softmaxRow loF (logitRow zF (gcnRow zF n h gw gb) w1 b1 w2 b2) q
      = softmaxRow loF (logitRow zF (gcnRow zF n' h' gw' gb') w1' b1' w2' b2') q' := by
  subst hn hh hgw hgb hw1 hb1 hw2 hb2 hq
  rfl

/-- What point t writes back is block t of the classifier stage of the input arrays. -/
theorem flushed3 (c : Dev nD) (t : Fin cfg3.N) :
    (dat3 V c).flushed 8 t = ((cfg3.win 8).blk t).view.read (Elt Ideal)
      (clsF (R := 40000) zF loF (V c main_v63) (V c main_v62) (V c main_v67) (V c main_v69) (V c main_arg6) (V c main_v64) (V c main_arg8) (V c main_v65)) := by
  show (cfg3.win 8).cut (grid3.coords t) ((dat3 V c).after 8 t) = _
  rw [after3_8_cls]
  obtain ⟨-, -, -, -, e4, e5⟩ := idx3_rows t
  funext j
  obtain ⟨p, q, rfl⟩ : ∃ (p : Fin 4000) (q : Fin 40), j = ix2 p q := ⟨j 0, j 1, eq_ix2 j⟩
  show softmaxRow loF (logitRow zF (gcnRow zF (frow (iblk3 V c 0 t) p) (frow (iblk3 V c 1 t) p)
        (mat (iblk3 V c 2 t)) (mat (iblk3 V c 3 t)))
        (mat (iblk3 V c 4 t)) (row1 (iblk3 V c 5 t))
        (mat (iblk3 V c 6 t)) (row1 (iblk3 V c 7 t))) q
      = softmaxRow loF (logitRow zF (gcnRow zF (frow (V c main_v63 : S40000x128.Idx → EReal) _) (frow (V c main_v62 : S40000x128.Idx → EReal) _)
        (mat (V c main_v67 : S128x128.Idx → EReal)) (mat (V c main_v69 : S128x128.Idx → EReal)))
        (mat (V c main_arg6 : S128x128.Idx → EReal)) (row1 (V c main_v64 : S1x128.Idx → EReal))
        (mat (V c main_arg8 : S128x40.Idx → EReal)) (row1 (V c main_v65 : S1x40.Idx → EReal))) _
  have hq : q = (((cfg3.win 8).blk t).view.emb (ix2 p q)) 1 :=
    Fin.ext (by show q.val = win3_8.index t (1 : Fin 2) * 40 + 1 * q.val; rw [e5]; omega)
  have hr0 : frow (iblk3 V c 0 t : Vec Ideal S4000x128 .bf16) p
      = frow (V c main_v63 : S40000x128.Idx → EReal) ((((cfg3.win 8).blk t).view.emb (ix2 p q)) 0) :=
    funext fun k => iblk3_0_apply V c t p k _
      (by show win3_8.index t (0 : Fin 2) * 4000 + 1 * p.val = t.val * 4000 + p.val; rw [e4]; omega) rfl
  have hr1 : frow (iblk3 V c 1 t : Vec Ideal S4000x128 .bf16) p
      = frow (V c main_v62 : S40000x128.Idx → EReal) ((((cfg3.win 8).blk t).view.emb (ix2 p q)) 0) :=
    funext fun k => iblk3_1_apply V c t p k _
      (by show win3_8.index t (0 : Fin 2) * 4000 + 1 * p.val = t.val * 4000 + p.val; rw [e4]; omega) rfl
  exact cls3_congr hr0 hr1 (congrArg mat (iblk3_2_eq V c t)) (congrArg mat (iblk3_3_eq V c t)) (congrArg mat (iblk3_4_eq V c t))
    (congrArg row1 (iblk3_5_eq V c t)) (congrArg mat (iblk3_6_eq V c t)) (congrArg row1 (iblk3_7_eq V c t)) hq

/-- Every row of the flat output array lies in the block of the point that its row number divided by 4000 names. -/
theorem cover3 (c : Dev nD) (i : S40000x40.Idx) :
    ∃ t : Fin cfg3.N, (cfg3.win 8).flush t = true ∧ i ∈ ((cfg3.win 8).blk t).view.set := by
  have hN : cfg3.N = 10 := N_3
  have hi0 : (i 0).val < 40000 := (i 0).isLt
  have hi1 : (i 1).val < 40 := (i 1).isLt
  let t : Fin cfg3.N := ⟨(i 0).val / 4000, by rw [hN]; omega⟩
  obtain ⟨-, -, -, -, e4, e5⟩ := idx3_rows t
  refine ⟨t, flush3_8 t, ?_⟩
  show i ∈ ((View.whole main_v70).slice (win3_8.rect t)).set
  rw [View.set_slice_whole, Rect.mem_set_unit]
  intro a
  match a with
  | ⟨0, _⟩ =>
    show win3_8.index t (0 : Fin 2) * 4000 ≤ (i 0).val ∧ (i 0).val < win3_8.index t (0 : Fin 2) * 4000 + 4000
    rw [e4]; show (i 0).val / 4000 * 4000 ≤ (i 0).val ∧ (i 0).val < (i 0).val / 4000 * 4000 + 4000; omega
  | ⟨1, _⟩ =>
    show win3_8.index t (1 : Fin 2) * 40 ≤ (i 1).val ∧ (i 1).val < win3_8.index t (1 : Fin 2) * 40 + 40
    rw [e5]; omega

/-- After the region the output array is the classifier stage of the input arrays, row by row. -/
theorem arr3 (c : Dev nD) :
    (dat3 V c).arrAt 8 cfg3.N = clsF (R := 40000) zF loF (V c main_v63) (V c main_v62) (V c main_v67) (V c main_v69)
      (V c main_arg6) (V c main_v64) (V c main_arg8) (V c main_v65) :=
  (dat3 V c).arrAt_eq_of_cover 8 _ (fun t _ => flushed3 V c t) (cover3 c)

end

end Cert.KernelIdeal.Hand

end
-- ==== Proof.KHost.lean ====
/-
  The kernel program's result as a function of its arguments. Boundary by boundary: each region's output array is its
  stage on the flat layout of the arrays the stretch before it prepared; un-flattened, it is the stage on the batched
  layout; the stretches between the regions gather, sum and scale on the batched layout. So the result is: the
  embedding; three times the scaled neighbour sums of the current features followed by a layer, the third layer inside
  the classifier stage; and the softmax of the classifier's logits.
-/
import proofs.«421253_j32993938767999_3_alg».proof.Proof.KH0
import proofs.«421253_j32993938767999_3_alg».proof.Proof.KH1
import proofs.«421253_j32993938767999_3_alg».proof.Proof.KH2
import proofs.«421253_j32993938767999_3_alg».proof.Proof.KH3
import proofs.«421253_j32993938767999_3_alg».proof.Proof.Region1
import proofs.«421253_j32993938767999_3_alg».proof.Proof.Region2
import proofs.«421253_j32993938767999_3_alg».proof.Proof.Region3

set_option maxRecDepth 16384

noncomputable section

namespace Cert.KernelIdeal.Hand

open Cert.KernelIdeal Cert.KernelIdeal.Gen Idealize.ShloMosaic Idealize.ShloMosaic.TcCoe Idealize.SL.Sem
open Idealize.ShloMosaic.ValueIdx Cert.Rows Cert.Stages Idealize.ShloMosaic.StableHlo

/-! ## The chain of stages -/

/-- The embedded features. -/
def kH0 (a0 : FVec Ideal S2x20000x128 .f32) (a3 : FVec Ideal S128x128 .f32) : FVec Ideal S2x20000x128 .bf16 := embedA a0 a3

/-- The neighbour sums of features `h`, scaled by one over the degrees. -/
def kN (h : FVec Ideal S2x20000x128 .bf16) (a1 : IVec S2x20000x32 32) (a2 : IVec S2x20000 32) : FVec Ideal S2x20000x128 .bf16 :=
  aggK h a1 (degInv a2)

/-- The features after the first layer. -/
def kH1 (a0 : FVec Ideal S2x20000x128 .f32) (a1 : IVec S2x20000x32 32) (a2 : IVec S2x20000 32) (a3 : FVec Ideal S128x128 .f32)
    (a4 a5 : FVec Ideal S3x128x128 .f32) : FVec Ideal S2x20000x128 .bf16 :=
  gcnA zF (kN (kH0 a0 a3) a1 a2) (kH0 a0 a3) (wSlice0 a4) (wSlice0 a5)

/-- The features after the second layer. -/
def kH2 (a0 : FVec Ideal S2x20000x128 .f32) (a1 : IVec S2x20000x32 32) (a2 : IVec S2x20000 32) (a3 : FVec Ideal S128x128 .f32)
    (a4 a5 : FVec Ideal S3x128x128 .f32) : FVec Ideal S2x20000x128 .bf16 :=
  gcnA zF (kN (kH1 a0 a1 a2 a3 a4 a5) a1 a2) (kH1 a0 a1 a2 a3 a4 a5) (wSlice1 a4) (wSlice1 a5)

/-- The class probabilities. -/
def kOut (a0 : FVec Ideal S2x20000x128 .f32) (a1 : IVec S2x20000x32 32) (a2 : IVec S2x20000 32) (a3 : FVec Ideal S128x128 .f32)
    (a4 a5 : FVec Ideal S3x128x128 .f32) (a6 : FVec Ideal S128x128 .f32) (a7 : FVec Ideal S128 .f32) (a8 : FVec Ideal S128x40 .f32)
    (a9 : FVec Ideal S40 .f32) : FVec Ideal S2x20000x40 .f32 :=
  clsA zF loF (kN (kH2 a0 a1 a2 a3 a4 a5) a1 a2) (kH2 a0 a1 a2 a3 a4 a5) (wSlice2 a4) (wSlice2 a5) a6 a7 a8 a9

theorem gcnF_congr {R : ℕ} (z : EReal) {n n' h h' : (⟨2, ![R, 128]⟩ : Shape).Idx → EReal} {w w' b b' : (⟨2, ![128, 128]⟩ : Shape).Idx → EReal}
    (hn : n = n') (hh : h = h') (hw : w = w') (hb : b = b') : gcnF z n h w b = gcnF z n' h' w' b' := by
  subst hn hh hw hb; rfl

theorem clsF_congr {R : ℕ} (z lo : EReal) {n n' h h' : (⟨2, ![R, 128]⟩ : Shape).Idx → EReal} {gw gw' gb gb' w1 w1' : (⟨2, ![128, 128]⟩ : Shape).Idx → EReal}
    {b1 b1' : (⟨2, ![1, 128]⟩ : Shape).Idx → EReal} {w2 w2' : (⟨2, ![128, 40]⟩ : Shape).Idx → EReal} {b2 b2' : (⟨2, ![1, 40]⟩ : Shape).Idx → EReal}
    (hn : n = n') (hh : h = h') (hgw : gw = gw') (hgb : gb = gb') (hw1 : w1 = w1') (hb1 : b1 = b1') (hw2 : w2 = w2') (hb2 : b2 = b2') :
    clsF z lo n h gw gb w1 b1 w2 b2 = clsF z lo n' h' gw' gb' w1' b1' w2' b2' := by
  subst hn hh hgw hgb hw1 hb1 hw2 hb2; rfl

section
variable (m : (ℓ : Loc nD τ sig) → Buf (Elt Ideal) ℓ) (ρ : Dev nD → PrngReg)

/-! ## Before and after the first middle layer -/

theorem emb3 (c : Dev nD) :
    shapeCast S2x20000x128 (W2 m ρ c (Proc.devRef .tc main_v1)) shapeCasts_S40000x128_S2x20000x128 = kH0 (m ((c.tc : Thread nD τ).loc main_arg0)) (m ((c.tc : Thread nD τ).loc main_arg3)) := by
  rw [W2_v1 m ρ c]
  exact embed_unflatten _ _ _ _

theorem V5_v23 (c : Dev nD) : V5 m ρ c main_v23
    = shapeCast S40000x128 (kN (kH0 (m ((c.tc : Thread nD τ).loc main_arg0)) (m ((c.tc : Thread nD τ).loc main_arg3))) (m ((c.tc : Thread nD τ).loc main_arg1)) (m ((c.tc : Thread nD τ).loc main_arg2))) shapeCasts_S2x20000x128_S40000x128 := by
  refine (W5_v23_rel m ρ c).trans ?_
  rw [emb3 m ρ c, W2_arg1 m ρ c, W2_arg2 m ρ c]
  rfl

theorem V5_v22 (c : Dev nD) : V5 m ρ c main_v22 = shapeCast S40000x128 (kH0 (m ((c.tc : Thread nD τ).loc main_arg0)) (m ((c.tc : Thread nD τ).loc main_arg3))) shapeCasts_S2x20000x128_S40000x128 := by
  refine (W5_v22_rel m ρ c).trans ?_
  rw [emb3 m ρ c]

theorem V5_v25 (c : Dev nD) : V5 m ρ c main_v25 = wSlice0 (m ((c.tc : Thread nD τ).loc main_arg4)) := by
  refine (W5_v25_rel m ρ c).trans ?_
  rw [W2_arg4 m ρ c]

theorem V5_v27 (c : Dev nD) : V5 m ρ c main_v27 = wSlice0 (m ((c.tc : Thread nD τ).loc main_arg5)) := by
  refine (W5_v27_rel m ρ c).trans ?_
  rw [W2_arg5 m ρ c]

set_option maxHeartbeats 1000000 in
theorem W6_v28 (c : Dev nD) : W6 m ρ c (Proc.devRef .tc main_v28)
    = gcnF (R := 40000) zF (shapeCast S40000x128 (kN (kH0 (m ((c.tc : Thread nD τ).loc main_arg0)) (m ((c.tc : Thread nD τ).loc main_arg3))) (m ((c.tc : Thread nD τ).loc main_arg1)) (m ((c.tc : Thread nD τ).loc main_arg2))) shapeCasts_S2x20000x128_S40000x128)
        (shapeCast S40000x128 (kH0 (m ((c.tc : Thread nD τ).loc main_arg0)) (m ((c.tc : Thread nD τ).loc main_arg3))) shapeCasts_S2x20000x128_S40000x128) (wSlice0 (m ((c.tc : Thread nD τ).loc main_arg4))) (wSlice0 (m ((c.tc : Thread nD τ).loc main_arg5))) := by
  refine (W6_arr m ρ c 4).trans ((arr1 (V5 m ρ) c).trans ?_)
  exact gcnF_congr zF (V5_v23 m ρ c) (V5_v22 m ρ c) (V5_v25 m ρ c) (V5_v27 m ρ c)

theorem feat1 (c : Dev nD) :
    shapeCast S2x20000x128 (W6 m ρ c (Proc.devRef .tc main_v28)) shapeCasts_S40000x128_S2x20000x128
      = kH1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  rw [W6_v28 m ρ c]
  exact gcn_unflatten zF _ _ _ _ _ _ _

theorem W6_v9 (c : Dev nD) : W6 m ρ c (Proc.devRef .tc main_v9) = degInv (m ((c.tc : Thread nD τ).loc main_arg2)) := by
  refine (W6_of_ne m ρ c main_v9 (by decide)).trans ((W5_v9_rel m ρ c).trans ?_)
  rw [W2_arg2 m ρ c]

theorem W6_arg1 (c : Dev nD) : W6 m ρ c (Proc.devRef .tc main_arg1) = m ((c.tc : Thread nD τ).loc main_arg1) :=
  (W6_of_ne m ρ c main_arg1 (by decide)).trans ((W5_keep_arg1 m ρ c).trans (W2_arg1 m ρ c))
theorem W6_arg4 (c : Dev nD) : W6 m ρ c (Proc.devRef .tc main_arg4) = m ((c.tc : Thread nD τ).loc main_arg4) :=
  (W6_of_ne m ρ c main_arg4 (by decide)).trans ((W5_keep_arg4 m ρ c).trans (W2_arg4 m ρ c))
theorem W6_arg5 (c : Dev nD) : W6 m ρ c (Proc.devRef .tc main_arg5) = m ((c.tc : Thread nD τ).loc main_arg5) :=
  (W6_of_ne m ρ c main_arg5 (by decide)).trans ((W5_keep_arg5 m ρ c).trans (W2_arg5 m ρ c))
theorem W6_arg6 (c : Dev nD) : W6 m ρ c (Proc.devRef .tc main_arg6) = m ((c.tc : Thread nD τ).loc main_arg6) :=
  (W6_of_ne m ρ c main_arg6 (by decide)).trans ((W5_keep_arg6 m ρ c).trans (W2_arg6 m ρ c))
theorem W6_arg7 (c : Dev nD) : W6 m ρ c (Proc.devRef .tc main_arg7) = m ((c.tc : Thread nD τ).loc main_arg7) :=
  (W6_of_ne m ρ c main_arg7 (by decide)).trans ((W5_keep_arg7 m ρ c).trans (W2_arg7 m ρ c))
theorem W6_arg8 (c : Dev nD) : W6 m ρ c (Proc.devRef .tc main_arg8) = m ((c.tc : Thread nD τ).loc main_arg8) :=
  (W6_of_ne m ρ c main_arg8 (by decide)).trans ((W5_keep_arg8 m ρ c).trans (W2_arg8 m ρ c))
theorem W6_arg9 (c : Dev nD) : W6 m ρ c (Proc.devRef .tc main_arg9) = m ((c.tc : Thread nD τ).loc main_arg9) :=
  (W6_of_ne m ρ c main_arg9 (by decide)).trans ((W5_keep_arg9 m ρ c).trans (W2_arg9 m ρ c))

/-! ## Before and after the second middle layer -/

theorem V7_v43 (c : Dev nD) : V7 m ρ c main_v43
    = shapeCast S40000x128 (kN (kH1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))) (m ((c.tc : Thread nD τ).loc main_arg1)) (m ((c.tc : Thread nD τ).loc main_arg2))) shapeCasts_S2x20000x128_S40000x128 := by
  refine (W7_v43_rel m ρ c).trans ?_
  rw [feat1 m ρ c, W6_arg1 m ρ c, W6_v9 m ρ c]
  rfl

theorem V7_v42 (c : Dev nD) : V7 m ρ c main_v42
    = shapeCast S40000x128 (kH1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))) shapeCasts_S2x20000x128_S40000x128 := by
  refine (W7_v42_rel m ρ c).trans ?_
  rw [feat1 m ρ c]

theorem V7_v45 (c : Dev nD) : V7 m ρ c main_v45 = wSlice1 (m ((c.tc : Thread nD τ).loc main_arg4)) := by
  refine (W7_v45_rel m ρ c).trans ?_
  rw [W6_arg4 m ρ c]

theorem V7_v47 (c : Dev nD) : V7 m ρ c main_v47 = wSlice1 (m ((c.tc : Thread nD τ).loc main_arg5)) := by
  refine (W7_v47_rel m ρ c).trans ?_
  rw [W6_arg5 m ρ c]

set_option maxHeartbeats 1000000 in
theorem W8_v48 (c : Dev nD) : W8 m ρ c (Proc.devRef .tc main_v48)
    = gcnF (R := 40000) zF
        (shapeCast S40000x128 (kN (kH1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))) (m ((c.tc : Thread nD τ).loc main_arg1)) (m ((c.tc : Thread nD τ).loc main_arg2))) shapeCasts_S2x20000x128_S40000x128)
        (shapeCast S40000x128 (kH1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))) shapeCasts_S2x20000x128_S40000x128)
        (wSlice1 (m ((c.tc : Thread nD τ).loc main_arg4))) (wSlice1 (m ((c.tc : Thread nD τ).loc main_arg5))) := by
  refine (W8_arr m ρ c 4).trans ((arr2 (V7 m ρ) c).trans ?_)
  exact gcnF_congr zF (V7_v43 m ρ c) (V7_v42 m ρ c) (V7_v45 m ρ c) (V7_v47 m ρ c)

theorem feat2 (c : Dev nD) :
    shapeCast S2x20000x128 (W8 m ρ c (Proc.devRef .tc main_v48)) shapeCasts_S40000x128_S2x20000x128
      = kH2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  rw [W8_v48 m ρ c]
  exact gcn_unflatten zF _ _ _ _ _ _ _

theorem W8_v9 (c : Dev nD) : W8 m ρ c (Proc.devRef .tc main_v9) = degInv (m ((c.tc : Thread nD τ).loc main_arg2)) :=
  (W8_of_ne m ρ c main_v9 (by decide)).trans ((W7_keep_v9 m ρ c).trans (W6_v9 m ρ c))
theorem W8_arg1 (c : Dev nD) : W8 m ρ c (Proc.devRef .tc main_arg1) = m ((c.tc : Thread nD τ).loc main_arg1) :=
  (W8_of_ne m ρ c main_arg1 (by decide)).trans ((W7_keep_arg1 m ρ c).trans (W6_arg1 m ρ c))
theorem W8_arg4 (c : Dev nD) : W8 m ρ c (Proc.devRef .tc main_arg4) = m ((c.tc : Thread nD τ).loc main_arg4) :=
  (W8_of_ne m ρ c main_arg4 (by decide)).trans ((W7_keep_arg4 m ρ c).trans (W6_arg4 m ρ c))
theorem W8_arg5 (c : Dev nD) : W8 m ρ c (Proc.devRef .tc main_arg5) = m ((c.tc : Thread nD τ).loc main_arg5) :=
  (W8_of_ne m ρ c main_arg5 (by decide)).trans ((W7_keep_arg5 m ρ c).trans (W6_arg5 m ρ c))
theorem W8_arg6 (c : Dev nD) : W8 m ρ c (Proc.devRef .tc main_arg6) = m ((c.tc : Thread nD τ).loc main_arg6) :=
  (W8_of_ne m ρ c main_arg6 (by decide)).trans ((W7_keep_arg6 m ρ c).trans (W6_arg6 m ρ c))
theorem W8_arg7 (c : Dev nD) : W8 m ρ c (Proc.devRef .tc main_arg7) = m ((c.tc : Thread nD τ).loc main_arg7) :=
  (W8_of_ne m ρ c main_arg7 (by decide)).trans ((W7_keep_arg7 m ρ c).trans (W6_arg7 m ρ c))
theorem W8_arg8 (c : Dev nD) : W8 m ρ c (Proc.devRef .tc main_arg8) = m ((c.tc : Thread nD τ).loc main_arg8) :=
  (W8_of_ne m ρ c main_arg8 (by decide)).trans ((W7_keep_arg8 m ρ c).trans (W6_arg8 m ρ c))
theorem W8_arg9 (c : Dev nD) : W8 m ρ c (Proc.devRef .tc main_arg9) = m ((c.tc : Thread nD τ).loc main_arg9) :=
  (W8_of_ne m ρ c main_arg9 (by decide)).trans ((W7_keep_arg9 m ρ c).trans (W6_arg9 m ρ c))

/-! ## Before and after the last region -/

theorem V9_v63 (c : Dev nD) : V9 m ρ c main_v63
    = shapeCast S40000x128 (kN (kH2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))) (m ((c.tc : Thread nD τ).loc main_arg1)) (m ((c.tc : Thread nD τ).loc main_arg2))) shapeCasts_S2x20000x128_S40000x128 := by
  refine (W9_v63_rel m ρ c).trans ?_
  rw [feat2 m ρ c, W8_arg1 m ρ c, W8_v9 m ρ c]
  rfl

theorem V9_v62 (c : Dev nD) : V9 m ρ c main_v62
    = shapeCast S40000x128 (kH2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))) shapeCasts_S2x20000x128_S40000x128 := by
  refine (W9_v62_rel m ρ c).trans ?_
  rw [feat2 m ρ c]

theorem V9_v67 (c : Dev nD) : V9 m ρ c main_v67 = wSlice2 (m ((c.tc : Thread nD τ).loc main_arg4)) := by
  refine (W9_v67_rel m ρ c).trans ?_
  rw [W8_arg4 m ρ c]

theorem V9_v69 (c : Dev nD) : V9 m ρ c main_v69 = wSlice2 (m ((c.tc : Thread nD τ).loc main_arg5)) := by
  refine (W9_v69_rel m ρ c).trans ?_
  rw [W8_arg5 m ρ c]

theorem V9_v64 (c : Dev nD) : V9 m ρ c main_v64 = shapeCast S1x128 (m ((c.tc : Thread nD τ).loc main_arg7)) shapeCasts_S128_S1x128 := by
  refine (W9_v64_rel m ρ c).trans ?_
  rw [W8_arg7 m ρ c]

theorem V9_v65 (c : Dev nD) : V9 m ρ c main_v65 = shapeCast S1x40 (m ((c.tc : Thread nD τ).loc main_arg9)) shapeCasts_S40_S1x40 := by
  refine (W9_v65_rel m ρ c).trans ?_
  rw [W8_arg9 m ρ c]

theorem V9_arg6 (c : Dev nD) : V9 m ρ c main_arg6 = m ((c.tc : Thread nD τ).loc main_arg6) := (W9_keep_arg6 m ρ c).trans (W8_arg6 m ρ c)

theorem V9_arg8 (c : Dev nD) : V9 m ρ c main_arg8 = m ((c.tc : Thread nD τ).loc main_arg8) := (W9_keep_arg8 m ρ c).trans (W8_arg8 m ρ c)

set_option maxHeartbeats 1000000 in
theorem W10_v70 (c : Dev nD) : W10 m ρ c (Proc.devRef .tc main_v70)
    = clsF (R := 40000) zF loF
        (shapeCast S40000x128 (kN (kH2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))) (m ((c.tc : Thread nD τ).loc main_arg1)) (m ((c.tc : Thread nD τ).loc main_arg2))) shapeCasts_S2x20000x128_S40000x128)
        (shapeCast S40000x128 (kH2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))) shapeCasts_S2x20000x128_S40000x128)
        (wSlice2 (m ((c.tc : Thread nD τ).loc main_arg4))) (wSlice2 (m ((c.tc : Thread nD τ).loc main_arg5))) (m ((c.tc : Thread nD τ).loc main_arg6)) (shapeCast S1x128 (m ((c.tc : Thread nD τ).loc main_arg7)) shapeCasts_S128_S1x128) (m ((c.tc : Thread nD τ).loc main_arg8))
        (shapeCast S1x40 (m ((c.tc : Thread nD τ).loc main_arg9)) shapeCasts_S40_S1x40) := by
  refine (W10_arr m ρ c 8).trans ((arr3 (V9 m ρ) c).trans ?_)
  exact clsF_congr zF loF (V9_v63 m ρ c) (V9_v62 m ρ c) (V9_v67 m ρ c) (V9_v69 m ρ c) (V9_arg6 m ρ c) (V9_v64 m ρ c) (V9_arg8 m ρ c) (V9_v65 m ρ c)

/-- The result buffer after the last stretch: the class probabilities of the arguments. -/
theorem W11_v71 (c : Dev nD) : W11 m ρ c (Proc.devRef .tc main_v71)
    = kOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  have h : W11 m ρ c (Proc.devRef .tc main_v71)
      = shapeCast S2x20000x40 (W10 m ρ c (Proc.devRef .tc main_v70)) shapeCasts_S40000x40_S2x20000x40 := by
    dsimp only [W11]
    after_results <;> try rfl
  rw [h, W10_v70 m ρ c]
  exact cls_unflatten zF loF _ _ _ _ _ _ _ _ _ _ _ _ _

end

end Cert.KernelIdeal.Hand

end
-- ==== Proof.RefSide.lean ====
/-
  The reference's result as stages over the row functions: the embedding, the two graph-convolution layers it
  keeps as arrays, and the third layer with the classifier and the softmax, each equal to the row function applied
  vertex by vertex to the rows of its operands.
-/
import proofs.«421253_j32993938767999_3_alg».proof.Proof.Gen.ReferenceIdeal.Run
import proofs.«421253_j32993938767999_3_alg».proof.Proof.Gen.ReferenceIdeal.Read
import proofs.«421253_j32993938767999_3_alg».proof.Proof.Stages
import proofs.«421253_j32993938767999_3_alg».proof.Proof.LibKeepdims
import Idealize.ShloMosaic.PureOps.Reduce
import Idealize.ShloMosaic.PureOps.Ideal.Laws
import Idealize.ShloMosaic.Lib.ValueIdx

noncomputable section

namespace Cert.ReferenceIdeal.Hand

open Cert.ReferenceIdeal Cert.ReferenceIdeal.Gen Cert.ReferenceIdeal.Read Cert.Stages Cert.Rows Idealize.ShloMosaic Idealize.ShloMosaic.ValueIdx

set_option quotPrecheck false in
local notation "T128" => (⟨S2x20000x128, .f32⟩ : BufTy).Contents (Elt Ideal)
set_option quotPrecheck false in
local notation "W128" => (⟨S128x128, .f32⟩ : BufTy).Contents (Elt Ideal)

/-! ## Single operations at a vertex's coordinates -/

/-- A product with a 128 x 128 matrix, at vertex (p, v) and column j: the vertex's row times column j. -/
theorem dot128_at (n : T128) (w : W128) (p : Fin 2) (v : Fin 20000) (j : Fin 128) :
    val_main_v2 (F := Ideal) n w (ix3 p v j) = ∑ k : Fin 128, n (ix3 p v k) * w (ix2 k j) := by
  refine (val_main_v2_apply n w (ix3 p v j)).trans (Finset.sum_congr rfl fun k _ => ?_)
  have el : lidx_main_v2 (ix3 p v j) k = ix3 p v k :=
    funext fun a => Fin.ext (by match a with | ⟨0, _⟩ => rfl | ⟨1, _⟩ => rfl | ⟨2, _⟩ => rfl)
  have er : ridx_main_v2 (ix3 p v j) k = ix2 k j :=
    funext fun a => Fin.ext (by match a with | ⟨0, _⟩ => rfl | ⟨1, _⟩ => rfl)
  rw [el, er]

/-- The zero pattern broadcast over the array is the clip level everywhere. -/
theorem zsplat_at (i : S2x20000x128.Idx) : val_main_call1_v0 (F := Ideal) i = zF :=
  (val_main_call1_v0_apply (F := Ideal) i).trans rfl

/-- The zero pattern denotes zero. -/
theorem zF_eq : zF = 0 := Ideal.ofBits_zero_f32

/-! ## The embedding -/

/-- The sum of vertex (p, v)'s row, broadcast along the row. -/
theorem rowsum_at (x : T128) (p : Fin 2) (v : Fin 20000) (j : Fin 128) :
    val_main_v3 (F := Ideal) x (ix3 p v j) = ∑ k : Fin 128, x (ix3 p v k) := by
  rw [val_main_v3_apply, val_main_v1_apply, val_main_v0_apply]
  refine (congrArg (· + _) (show val_main_cst (F := Ideal) _ = (0 : EReal) from zF_eq)).trans ((zero_add _).trans ?_)
  refine Finset.sum_congr rfl fun k _ => congrArg x ?_
  exact funext fun a => Fin.ext (by match a with | ⟨0, _⟩ => rfl | ⟨1, _⟩ => rfl | ⟨2, _⟩ => rfl)

theorem ref_embed (x0 : (⟨S2x20000x128, .f32⟩ : BufTy).Contents (Elt Ideal)) (x3 : (⟨S128x128, .f32⟩ : BufTy).Contents (Elt Ideal)) :
    val_main_v4 (F := Ideal) x0 x3 = embedA x0 x3 := by
  funext i
  obtain ⟨p, v, j, rfl⟩ : ∃ (p : Fin 2) (v : Fin 20000) (j : Fin 128), i = ix3 p v j := ⟨i 0, i 1, i 2, eq_ix3 i⟩
  rw [val_main_v4_apply, dot128_at, rowsum_at]
  rfl

/-! ## A graph-convolution layer -/

/-- Two products added and clipped at zero are the layer's row function at every vertex. -/
theorem gcn_stage (n h : T128) (w b : W128) :
    maximumf (F := Ideal) (s := S2x20000x128) (φ := .f32) (addf (F := Ideal) (s := S2x20000x128) (φ := .f32) (val_main_v2 (F := Ideal) n w) (val_main_v2 (F := Ideal) h b)) (val_main_call1_v0 (F := Ideal)) = gcnA zF n h w b := by
  funext i
  obtain ⟨p, v, j, rfl⟩ : ∃ (p : Fin 2) (v : Fin 20000) (j : Fin 128), i = ix3 p v j := ⟨i 0, i 1, i 2, eq_ix3 i⟩
  rw [maximumf_apply, addf_apply, dot128_at, dot128_at, zsplat_at]
  rfl

theorem ref_gcn1 (x0 : (⟨S2x20000x128, .f32⟩ : BufTy).Contents (Elt Ideal)) (x1 : (⟨S2x20000x32, .i32⟩ : BufTy).Contents (Elt Ideal)) (x2 : (⟨S2x20000, .i32⟩ : BufTy).Contents (Elt Ideal)) (x3 : (⟨S128x128, .f32⟩ : BufTy).Contents (Elt Ideal)) (x4 x5 : (⟨S3x128x128, .f32⟩ : BufTy).Contents (Elt Ideal)) :
    val_main_v27 (F := Ideal) x0 x1 x2 x3 x4 x5 = gcnA zF (val_main_v19 (F := Ideal) x0 x1 x2 x3) (val_main_v4 (F := Ideal) x0 x3) (val_main_v21 (F := Ideal) x4) (val_main_v24 (F := Ideal) x5) :=
  gcn_stage _ _ _ _

theorem ref_gcn2 (x0 : (⟨S2x20000x128, .f32⟩ : BufTy).Contents (Elt Ideal)) (x1 : (⟨S2x20000x32, .i32⟩ : BufTy).Contents (Elt Ideal)) (x2 : (⟨S2x20000, .i32⟩ : BufTy).Contents (Elt Ideal)) (x3 : (⟨S128x128, .f32⟩ : BufTy).Contents (Elt Ideal)) (x4 x5 : (⟨S3x128x128, .f32⟩ : BufTy).Contents (Elt Ideal)) :
    val_main_v45 (F := Ideal) x0 x1 x2 x3 x4 x5 = gcnA zF (val_main_v37 (F := Ideal) x0 x1 x2 x3 x4 x5) (val_main_v27 (F := Ideal) x0 x1 x2 x3 x4 x5) (val_main_v39 (F := Ideal) x4) (val_main_v42 (F := Ideal) x5) :=
  gcn_stage _ _ _ _

/-! ## The third layer, the classifier and the softmax -/

section Cls

variable (x0 : (⟨S2x20000x128, .f32⟩ : BufTy).Contents (Elt Ideal)) (x1 : (⟨S2x20000x32, .i32⟩ : BufTy).Contents (Elt Ideal)) (x2 : (⟨S2x20000, .i32⟩ : BufTy).Contents (Elt Ideal)) (x3 : (⟨S128x128, .f32⟩ : BufTy).Contents (Elt Ideal)) (x4 x5 : (⟨S3x128x128, .f32⟩ : BufTy).Contents (Elt Ideal)) (x6 : (⟨S128x128, .f32⟩ : BufTy).Contents (Elt Ideal)) (x7 : (⟨S128, .f32⟩ : BufTy).Contents (Elt Ideal)) (x8 : (⟨S128x40, .f32⟩ : BufTy).Contents (Elt Ideal)) (x9 : (⟨S40, .f32⟩ : BufTy).Contents (Elt Ideal))

/-- The third graph-convolution layer is the layer's row function at every vertex. -/
theorem ref_gcn3 :
    val_main_v63 (F := Ideal) x0 x1 x2 x3 x4 x5 = gcnA zF (val_main_v55 (F := Ideal) x0 x1 x2 x3 x4 x5) (val_main_v45 (F := Ideal) x0 x1 x2 x3 x4 x5) (val_main_v57 (F := Ideal) x4) (val_main_v60 (F := Ideal) x5) :=
  gcn_stage _ _ _ _

/-- The classifier's hidden layer at vertex (p, v) and unit d. -/
theorem hidden_at (p : Fin 2) (v : Fin 20000) (d : Fin 128) :
    val_main_v68 (F := Ideal) x0 x1 x2 x3 x4 x5 x6 x7 (ix3 p v d)
      = max ((∑ k : Fin 128, val_main_v63 (F := Ideal) x0 x1 x2 x3 x4 x5 (ix3 p v k) * x6 (ix2 k d)) + x7 (ix1 d)) zF := by
  have e1 : val_main_v64 (F := Ideal) x0 x1 x2 x3 x4 x5 x6 (ix3 p v d) = ∑ k : Fin 128, val_main_v63 (F := Ideal) x0 x1 x2 x3 x4 x5 (ix3 p v k) * x6 (ix2 k d) :=
    dot128_at (val_main_v63 (F := Ideal) x0 x1 x2 x3 x4 x5) x6 p v d
  have e2 : val_main_v66 (F := Ideal) x7 (ix3 p v d) = x7 (ix1 d) := by
    rw [val_main_v66_apply, val_main_v65_apply]
    exact congrArg x7 (funext fun a => Fin.ext (by match a with | ⟨0, _⟩ => rfl))
  have e3 : val_main_call4_v0 (F := Ideal) (ix3 p v d) = zF := zsplat_at _
  rw [val_main_v68_apply, val_main_v67_apply, e1, e2, e3]
  rfl

/-- The classifier's logit at vertex (p, v) and class c, over the hidden layer. -/
theorem logit_at (p : Fin 2) (v : Fin 20000) (c : Fin 40) :
    val_main_v72 (F := Ideal) x0 x1 x2 x3 x4 x5 x6 x7 x8 x9 (ix3 p v c)
      = (∑ d : Fin 128, val_main_v68 (F := Ideal) x0 x1 x2 x3 x4 x5 x6 x7 (ix3 p v d) * x8 (ix2 d c)) + x9 (ix1 c) := by
  rw [val_main_v72_apply, val_main_v69_apply, val_main_v71_apply, val_main_v70_apply]
  refine congrArg₂ (· + ·) (Finset.sum_congr rfl fun d _ => ?_) (congrArg x9 ?_)
  · have el : lidx_main_v69 (ix3 p v c) d = ix3 p v d :=
      funext fun a => Fin.ext (by match a with | ⟨0, _⟩ => rfl | ⟨1, _⟩ => rfl | ⟨2, _⟩ => rfl)
    have er : ridx_main_v69 (ix3 p v c) d = ix2 d c :=
      funext fun a => Fin.ext (by match a with | ⟨0, _⟩ => rfl | ⟨1, _⟩ => rfl)
    rw [el, er]
  · exact funext fun a => Fin.ext (by match a with | ⟨0, _⟩ => rfl)

/-- The logits of vertex (p, v) are the classifier's row function of the third layer's row. -/
theorem logit_row_at (p : Fin 2) (v : Fin 20000) (c : Fin 40) :
    val_main_v72 (F := Ideal) x0 x1 x2 x3 x4 x5 x6 x7 x8 x9 (ix3 p v c)
      = logitRow zF (gcnRow zF (brow (val_main_v55 (F := Ideal) x0 x1 x2 x3 x4 x5) p v) (brow (val_main_v45 (F := Ideal) x0 x1 x2 x3 x4 x5) p v)
          (mat (val_main_v57 (F := Ideal) x4)) (mat (val_main_v60 (F := Ideal) x5))) (mat x6) (vec x7) (mat x8) (vec x9) c := by
  refine (logit_at x0 x1 x2 x3 x4 x5 x6 x7 x8 x9 p v c).trans ?_
  refine congrArg (· + _) (Finset.sum_congr rfl fun d _ => congrArg (· * _) ?_)
  refine (hidden_at x0 x1 x2 x3 x4 x5 x6 x7 p v d).trans ?_
  rw [ref_gcn3]
  rfl

/-- Putting the reduced coordinate back in the last place. -/
theorem lift_last_eq {a b c : ℕ} (h : (⟨3, ![a, b, c]⟩ : Shape).Reduces [2] ⟨2, ![a, b]⟩) (p : Fin a) (v : Fin b) (k : Fin c) :
    h.lift (ix2 p v) k = ix3 p v k := by
  funext ax
  match ax with
  | ⟨0, _⟩ => exact Fin.ext rfl
  | ⟨1, _⟩ => exact Fin.ext rfl
  | ⟨2, _⟩ => exact Fin.ext rfl

/-- The row maximum of vertex (p, v): the fold of max from minus infinity over the forty logits. -/
theorem rowmax_at (p : Fin 2) (v : Fin 20000) :
    val_main_v75 (F := Ideal) x0 x1 x2 x3 x4 x5 x6 x7 x8 x9 (ix2 p v)
      = (Finset.univ : Finset (Fin 40)).fold max loF (fun c => val_main_v72 (F := Ideal) x0 x1 x2 x3 x4 x5 x6 x7 x8 x9 (ix3 p v c)) := by
  have h : S2x20000x40.Reduces [2] S2x20000 := by decide
  have e1 : val_main_v74 (F := Ideal) (ix2 p v) = ⊥ := (val_main_v74_apply (F := Ideal) _).trans ofBits_neg_inf_f32
  have e2 : val_main_v73 (F := Ideal) x0 x1 x2 x3 x4 x5 x6 x7 x8 x9 (ix2 p v)
      = (Finset.univ : Finset (Fin 40)).fold max loF (fun c => val_main_v72 (F := Ideal) x0 x1 x2 x3 x4 x5 x6 x7 x8 x9 (ix3 p v c)) := by
    refine (Host.reduce_eq_fold_single (α := Ideal .f32) (s := S2x20000x40) (t := S2x20000) (u := S_) (FloatOps.maximumf (F := Ideal) (φ := .f32))
      (val_main_v72 (F := Ideal) x0 x1 x2 x3 x4 x5 x6 x7 x8 x9) (val_main_cst_10 (F := Ideal)) reducesTo_S2x20000x40_S2x20000_d2 h h_S_ (ix2 p v)).trans ?_
    exact congrArg (fun f => Finset.fold max loF f (Finset.univ : Finset (Fin 40)))
      (funext fun c => congrArg (val_main_v72 (F := Ideal) x0 x1 x2 x3 x4 x5 x6 x7 x8 x9) (lift_last_eq h p v c))
  rw [val_main_v75_apply, e1, e2]
  exact max_bot_left _

/-- The exponential of a logit less the row maximum. -/
theorem exp_at (p : Fin 2) (v : Fin 20000) (c : Fin 40) :
    val_main_v79 (F := Ideal) x0 x1 x2 x3 x4 x5 x6 x7 x8 x9 (ix3 p v c)
      = Ideal.exp (val_main_v72 (F := Ideal) x0 x1 x2 x3 x4 x5 x6 x7 x8 x9 (ix3 p v c)
          - (Finset.univ : Finset (Fin 40)).fold max loF (fun c' => val_main_v72 (F := Ideal) x0 x1 x2 x3 x4 x5 x6 x7 x8 x9 (ix3 p v c'))) := by
  have ei : idx_main_v76 (idx_main_v77 (ix3 p v c)) = ix2 p v :=
    funext fun a => Fin.ext (by match a with | ⟨0, _⟩ => rfl | ⟨1, _⟩ => rfl)
  rw [val_main_v79_apply, val_main_v78_apply, val_main_v77_apply, val_main_v76_apply, ei, rowmax_at]
  rfl

theorem ref_cls :
    val_main_v83 (F := Ideal) x0 x1 x2 x3 x4 x5 x6 x7 x8 x9 = clsA zF loF (val_main_v55 (F := Ideal) x0 x1 x2 x3 x4 x5) (val_main_v45 (F := Ideal) x0 x1 x2 x3 x4 x5) (val_main_v57 (F := Ideal) x4) (val_main_v60 (F := Ideal) x5) x6 x7 x8 x9 := by
  funext i
  obtain ⟨p, v, c, rfl⟩ : ∃ (p : Fin 2) (v : Fin 20000) (c : Fin 40), i = ix3 p v c := ⟨i 0, i 1, i 2, eq_ix3 i⟩
  have es : ∀ k : Fin 40, idx_main_v80 (idx_main_v81 (idx_main_v82 (ix3 p v c))) k = ix3 p v k := fun k =>
    funext fun a => Fin.ext (by match a with | ⟨0, _⟩ => rfl | ⟨1, _⟩ => rfl | ⟨2, _⟩ => rfl)
  have e0 : val_main_cst_12 (F := Ideal) (Shape.Idx.first h_S_) = (0 : EReal) := zF_eq
  rw [val_main_v83_apply, val_main_v82_apply, val_main_v81_apply, val_main_v80_apply, e0, zero_add]
  simp only [es, exp_at, logit_row_at]
  rfl

end Cls

end Cert.ReferenceIdeal.Hand

end
-- ==== Proof.Recip.lean ====
/-
  The one algebraic law between the two programs: a product with the reciprocal of a nonzero whole number is the
  quotient by it, at every extended real, the infinities included; and a vertex's degree with zero replaced by one is
  never zero.
-/
import Idealize.ShloMosaic.PureOps.Ideal
import Idealize.ShloMosaic.Lib.IdealHost

noncomputable section

namespace Cert.Rows

open Idealize.ShloMosaic

/-- A word that is not zero denotes a nonzero real. -/
theorem toInt_cast_ne_zero {s : BitVec 32} (hs : s ≠ 0#32) : ((s.toInt : ℝ)) ≠ 0 := by
  intro h
  apply hs
  have h0 : s.toInt = 0 := by exact_mod_cast h
  exact BitVec.toInt_inj.mp (h0.trans BitVec.toInt_zero.symm)

/-- The product with one over a nonzero whole number is the quotient by it. -/
theorem mul_recip_eq_div (g : EReal) {s : BitVec 32} (hs : s ≠ 0#32) :
    g * Ideal.div (Ideal.ofBits .f32 0x3F800000#32) ((s.toInt : ℝ) : EReal) = Ideal.div g ((s.toInt : ℝ) : EReal) := by
  have hv := toInt_cast_ne_zero hs
  rw [Ideal.div_coe hv, Ideal.div_coe hv, Ideal.ofBits_one_f32, one_mul]

/-- A degree with zero replaced by one is not zero. -/
theorem deg_ne_zero (x : BitVec 32) : Scalar.select (IntOp.cmpi .eq x 0#32) (1#32 : BitVec 32) x ≠ 0#32 := by
  unfold Scalar.select IntOp.cmpi
  by_cases h : x = 0#32
  · subst h; decide
  · have hb : (x == 0#32) = false := by simpa using h
    simp only [hb]
    simpa using h

end Cert.Rows

end
-- ==== Proof.Agg.lean ====
/-
  The aggregation of neighbour rows in the two programs. The reference divides the sum of a vertex's gathered
  neighbour rows by the vertex's degree; the kernel program multiplies the same sum by one over the degree. The
  degree, zero replaced by one, is a nonzero whole number, so the two agree at every extended real. The three
  layers' weight matrices are cut out of the stacked arrays by the same slices in both programs.
-/
import proofs.«421253_j32993938767999_3_alg».proof.Proof.KChain
import proofs.«421253_j32993938767999_3_alg».proof.Proof.Recip
import proofs.«421253_j32993938767999_3_alg».proof.Proof.Gen.ReferenceIdeal.Read
import Idealize.ShloMosaic.Lib.Pipeline.Value
import Idealize.ShloMosaic.Lib.ValueIdx

noncomputable section

namespace Cert.Bridge

open Cert.ReferenceIdeal.Read Cert.KernelIdeal.Hand Idealize.ShloMosaic Idealize.ShloMosaic.ValueIdx Idealize.SL.Sem

set_option quotPrecheck false in
local notation "R128" => (⟨Cert.ReferenceIdeal.S2x20000x128, .f32⟩ : BufTy).Contents (Elt Ideal)
set_option quotPrecheck false in
local notation "RNbr" => (⟨Cert.ReferenceIdeal.S2x20000x32, .i32⟩ : BufTy).Contents (Elt Ideal)
set_option quotPrecheck false in
local notation "RDeg" => (⟨Cert.ReferenceIdeal.S2x20000, .i32⟩ : BufTy).Contents (Elt Ideal)

/-! ## A column broadcast along the rows -/

/-- A column over the vertices, made a one-column array and broadcast along the rows, reads at (p, v, j) the
    column's entry at vertex (p, v). -/
theorem bc_col_apply {α : Type} (f : (⟨2, ![2, 20000]⟩ : Shape).Idx → α)
    (h1 : (⟨2, ![2, 20000]⟩ : Shape).BroadcastsInDim ⟨3, ![2, 20000, 1]⟩ ![0, 1])
    (h2 : (⟨3, ![2, 20000, 1]⟩ : Shape).BroadcastsInDim ⟨3, ![2, 20000, 128]⟩ ![0, 1, 2])
    (p : Fin 2) (v : Fin 20000) (j : Fin 128) :
    broadcastInDim ⟨3, ![2, 20000, 128]⟩ ![0, 1, 2] h2 (broadcastInDim ⟨3, ![2, 20000, 1]⟩ ![0, 1] h1 f) (ix3 p v j) = f (ix2 p v) := by
  refine (broadcastInDim_apply _ h2 _ (ix3 p v j) (ix3 p v (0 : Fin 1)) (fun a => match a with
    | ⟨0, _⟩ => by show p.val = if (2 : Nat) = 1 then 0 else p.val; rw [if_neg (by decide)]
    | ⟨1, _⟩ => by show v.val = if (20000 : Nat) = 1 then 0 else v.val; rw [if_neg (by decide)]
    | ⟨2, _⟩ => by show 0 = if (1 : Nat) = 1 then 0 else j.val; rw [if_pos rfl])).trans ?_
  exact broadcastInDim_apply _ h1 f (ix3 p v (0 : Fin 1)) (ix2 p v) (fun a => match a with
    | ⟨0, _⟩ => by show p.val = if (2 : Nat) = 1 then 0 else p.val; rw [if_neg (by decide)]
    | ⟨1, _⟩ => by show v.val = if (20000 : Nat) = 1 then 0 else v.val; rw [if_neg (by decide)])

/-! ## The reference's aggregation as a function of the feature array -/

/-- The reference's sum over a vertex's neighbours of their feature rows. -/
def gsumR (h : R128) (x1 : RNbr) : R128 :=
  Host.reduceAdd (F := Ideal) (φ := .f32) (Host.gather Cert.ReferenceIdeal.gather_S2x20000x128_S2x20000x32x1_S2x20000x32x128_3_1_0_0_1_3_11128 h (val_main_v15 (F := Ideal) x1)) (val_main_cst_3 (F := Ideal))
    Cert.ReferenceIdeal.Gen.reducesTo_S2x20000x32x128_S2x20000x128_d2 Cert.ReferenceIdeal.Gen.h_S_

/-- The reference's aggregation: the neighbour sums divided by the degrees. -/
def aggR (h : R128) (x1 : RNbr) (x2 : RDeg) : R128 :=
  Host.divf (F := Ideal) (φ := .f32) (gsumR h x1) (val_main_v18 (F := Ideal) x2)

/-- The two programs sum the same gathered rows. -/
theorem gsum_eq (h : R128) (x1 : RNbr) : gsumR h x1 = nbrSum h x1 := rfl

/-- The reference's degree at a vertex: the vertex's count, one in place of zero. -/
theorem deg_at (x2 : RDeg) (j : Cert.ReferenceIdeal.S2x20000.Idx) :
    val_main_v7 (F := Ideal) x2 j = Scalar.select (IntOp.cmpi .eq (x2 j) 0#32) (1#32 : BitVec 32) (x2 j) := by
  rw [val_main_v7_apply, val_main_v6_apply, val_main_v5_apply, val_main_call0_v1_apply]
  rfl

/-- The two programs take the same degrees. -/
theorem deg_eq (x2 : RDeg) : val_main_v7 (F := Ideal) x2 = degree x2 := rfl

/-- Dividing the neighbour sums by the degrees is multiplying them by one over the degrees. -/
theorem agg_generic (h : R128) (x1 : RNbr) (x2 : RDeg) : aggR h x1 x2 = aggK h x1 (degInv x2) := by
  funext i
  obtain ⟨p, v, j, rfl⟩ : ∃ (p : Fin 2) (v : Fin 20000) (j : Fin 128), i = ix3 p v j := ⟨i 0, i 1, i 2, eq_ix3 i⟩
  have eL : aggR h x1 x2 (ix3 p v j)
      = Ideal.div (nbrSum h x1 (ix3 p v j)) (((val_main_v7 (F := Ideal) x2 (ix2 p v)).toInt : ℝ) : EReal) :=
    congrArg (Ideal.div (nbrSum h x1 (ix3 p v j))) (bc_col_apply (val_main_v8 (F := Ideal) x2) _ _ p v j)
  have eR : aggK h x1 (degInv x2) (ix3 p v j)
      = nbrSum h x1 (ix3 p v j) * Ideal.div (Ideal.ofBits .f32 0x3F800000#32) (((val_main_v7 (F := Ideal) x2 (ix2 p v)).toInt : ℝ) : EReal) :=
    congrArg (nbrSum h x1 (ix3 p v j) * ·)
      (bc_col_apply (fun q => Ideal.div (Ideal.ofBits .f32 0x3F800000#32) (((val_main_v7 (F := Ideal) x2 q).toInt : ℝ) : EReal)) _ _ p v j)
  rw [eL, eR, deg_at]
  exact (Cert.Rows.mul_recip_eq_div _ (Cert.Rows.deg_ne_zero _)).symm

/-! ## The three aggregations -/

theorem ref_agg1 (x0 : (⟨Cert.ReferenceIdeal.S2x20000x128, .f32⟩ : BufTy).Contents (Elt Ideal)) (x1 : (⟨Cert.ReferenceIdeal.S2x20000x32, .i32⟩ : BufTy).Contents (Elt Ideal)) (x2 : (⟨Cert.ReferenceIdeal.S2x20000, .i32⟩ : BufTy).Contents (Elt Ideal)) (x3 : (⟨Cert.ReferenceIdeal.S128x128, .f32⟩ : BufTy).Contents (Elt Ideal)) :
    val_main_v19 (F := Ideal) x0 x1 x2 x3 = aggK (val_main_v4 (F := Ideal) x0 x3) x1 (degInv x2) :=
  agg_generic (val_main_v4 (F := Ideal) x0 x3) x1 x2

theorem ref_agg2 (x0 : (⟨Cert.ReferenceIdeal.S2x20000x128, .f32⟩ : BufTy).Contents (Elt Ideal)) (x1 : (⟨Cert.ReferenceIdeal.S2x20000x32, .i32⟩ : BufTy).Contents (Elt Ideal)) (x2 : (⟨Cert.ReferenceIdeal.S2x20000, .i32⟩ : BufTy).Contents (Elt Ideal)) (x3 : (⟨Cert.ReferenceIdeal.S128x128, .f32⟩ : BufTy).Contents (Elt Ideal)) (x4 x5 : (⟨Cert.ReferenceIdeal.S3x128x128, .f32⟩ : BufTy).Contents (Elt Ideal)) :
    val_main_v37 (F := Ideal) x0 x1 x2 x3 x4 x5 = aggK (val_main_v27 (F := Ideal) x0 x1 x2 x3 x4 x5) x1 (degInv x2) :=
  agg_generic (val_main_v27 (F := Ideal) x0 x1 x2 x3 x4 x5) x1 x2

theorem ref_agg3 (x0 : (⟨Cert.ReferenceIdeal.S2x20000x128, .f32⟩ : BufTy).Contents (Elt Ideal)) (x1 : (⟨Cert.ReferenceIdeal.S2x20000x32, .i32⟩ : BufTy).Contents (Elt Ideal)) (x2 : (⟨Cert.ReferenceIdeal.S2x20000, .i32⟩ : BufTy).Contents (Elt Ideal)) (x3 : (⟨Cert.ReferenceIdeal.S128x128, .f32⟩ : BufTy).Contents (Elt Ideal)) (x4 x5 : (⟨Cert.ReferenceIdeal.S3x128x128, .f32⟩ : BufTy).Contents (Elt Ideal)) :
    val_main_v55 (F := Ideal) x0 x1 x2 x3 x4 x5 = aggK (val_main_v45 (F := Ideal) x0 x1 x2 x3 x4 x5) x1 (degInv x2) :=
  agg_generic (val_main_v45 (F := Ideal) x0 x1 x2 x3 x4 x5) x1 x2

/-! ## The weight matrices -/

theorem ref_w0 (x4 : (⟨Cert.ReferenceIdeal.S3x128x128, .f32⟩ : BufTy).Contents (Elt Ideal)) : val_main_v21 (F := Ideal) x4 = wSlice0 x4 := rfl
theorem ref_b0 (x5 : (⟨Cert.ReferenceIdeal.S3x128x128, .f32⟩ : BufTy).Contents (Elt Ideal)) : val_main_v24 (F := Ideal) x5 = wSlice0 x5 := rfl
theorem ref_w1 (x4 : (⟨Cert.ReferenceIdeal.S3x128x128, .f32⟩ : BufTy).Contents (Elt Ideal)) : val_main_v39 (F := Ideal) x4 = wSlice1 x4 := rfl
theorem ref_b1 (x5 : (⟨Cert.ReferenceIdeal.S3x128x128, .f32⟩ : BufTy).Contents (Elt Ideal)) : val_main_v42 (F := Ideal) x5 = wSlice1 x5 := rfl
theorem ref_w2 (x4 : (⟨Cert.ReferenceIdeal.S3x128x128, .f32⟩ : BufTy).Contents (Elt Ideal)) : val_main_v57 (F := Ideal) x4 = wSlice2 x4 := rfl
theorem ref_b2 (x5 : (⟨Cert.ReferenceIdeal.S3x128x128, .f32⟩ : BufTy).Contents (Elt Ideal)) : val_main_v60 (F := Ideal) x5 = wSlice2 x5 := rfl

end Cert.Bridge

end
-- ==== Proof.lean ====
/-
  A three-layer graph convolution network with a classifier head, against its reference, over the extended reals.

  Both programs compute, for each of 2 × 20000 vertices: the embedding of the vertex's feature row (the row times a weight
  matrix, divided by the row's sum); three times, the sum of the current feature rows of the vertex's 32 neighbours,
  scaled by the vertex's degree, fed with the vertex's own row through a layer (two matrix products added and clipped
  at zero); then two affine maps with a clip between them and a softmax over 40 classes.

  The kernel program runs the four dense stages as four regions over a flat layout of 40000 rows, in blocks of 4000
  rows, and gathers, sums and scales on the host between them; the reference does everything on the host on the batched
  layout. Every dense stage acts on each vertex's row by itself, so a region's output array is its row function applied
  row by row, whatever the blocking, and un-flattened it is the reference's stage. The two programs differ in one
  algebraic step: the kernel program multiplies the neighbour sums by one over the degree where the reference divides
  by the degree. The degree has its zeros replaced by one, so it is a nonzero whole number, and the product with its
  reciprocal is the quotient at every extended real. The reference also takes each row's maximum once more against
  minus infinity, which changes nothing.
-/
import proofs.«421253_j32993938767999_3_alg».proof.Defs
import proofs.«421253_j32993938767999_3_alg».proof.Proof.Gen.Kernel
import proofs.«421253_j32993938767999_3_alg».proof.Proof.Gen.Kernel.Frame
import proofs.«421253_j32993938767999_3_alg».proof.Proof.Gen.KernelIdeal
import proofs.«421253_j32993938767999_3_alg».proof.Proof.Gen.KernelIdeal.Frame
import proofs.«421253_j32993938767999_3_alg».proof.Proof.Gen.ReferenceIdeal
import proofs.«421253_j32993938767999_3_alg».proof.Proof.Gen.ReferenceIdeal.Run
import proofs.«421253_j32993938767999_3_alg».proof.Proof.Gen.ReferenceIdeal.Read
import proofs.«421253_j32993938767999_3_alg».proof.Proof.Gen.Pre_finite_inputs
import proofs.«421253_j32993938767999_3_alg».proof.Proof.KRun
import proofs.«421253_j32993938767999_3_alg».proof.Proof.KHost
import proofs.«421253_j32993938767999_3_alg».proof.Proof.RefSide
import proofs.«421253_j32993938767999_3_alg».proof.Proof.Agg
import Idealize.ShloMosaic.Adequacy
import Idealize.ShloMosaic.Init

noncomputable section

namespace Cert.Proof

open Idealize.ShloMosaic Idealize.SL.Sem

/-- The kernel program's chain of stages is the reference's last stage: stage by stage the reference's buffers are the
    same row functions of the same operands, its scaled neighbour sums the kernel program's, its weight slices the same. -/
theorem result_eq (x0 : (⟨Cert.ReferenceIdeal.S2x20000x128, .f32⟩ : BufTy).Contents (Elt Ideal))
    (x1 : (⟨Cert.ReferenceIdeal.S2x20000x32, .i32⟩ : BufTy).Contents (Elt Ideal))
    (x2 : (⟨Cert.ReferenceIdeal.S2x20000, .i32⟩ : BufTy).Contents (Elt Ideal))
    (x3 : (⟨Cert.ReferenceIdeal.S128x128, .f32⟩ : BufTy).Contents (Elt Ideal))
    (x4 x5 : (⟨Cert.ReferenceIdeal.S3x128x128, .f32⟩ : BufTy).Contents (Elt Ideal))
    (x6 : (⟨Cert.ReferenceIdeal.S128x128, .f32⟩ : BufTy).Contents (Elt Ideal))
    (x7 : (⟨Cert.ReferenceIdeal.S128, .f32⟩ : BufTy).Contents (Elt Ideal))
    (x8 : (⟨Cert.ReferenceIdeal.S128x40, .f32⟩ : BufTy).Contents (Elt Ideal))
    (x9 : (⟨Cert.ReferenceIdeal.S40, .f32⟩ : BufTy).Contents (Elt Ideal)) :
    Cert.ReferenceIdeal.Read.val_main_v83 (F := Ideal) x0 x1 x2 x3 x4 x5 x6 x7 x8 x9
      = Cert.KernelIdeal.Hand.kOut x0 x1 x2 x3 x4 x5 x6 x7 x8 x9 := by
  rw [Cert.ReferenceIdeal.Hand.ref_cls, Cert.Bridge.ref_agg3, Cert.ReferenceIdeal.Hand.ref_gcn2, Cert.Bridge.ref_agg2,
    Cert.ReferenceIdeal.Hand.ref_gcn1, Cert.Bridge.ref_agg1, Cert.ReferenceIdeal.Hand.ref_embed,
    Cert.Bridge.ref_w0, Cert.Bridge.ref_b0, Cert.Bridge.ref_w1, Cert.Bridge.ref_b1, Cert.Bridge.ref_w2, Cert.Bridge.ref_b2]
  rfl

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The two idealized programs, from memories agreeing on the arguments, both end, with the same class probabilities. -/
theorem algebraic : Cert.algebraic_KernelIdeal_ReferenceIdeal := by
  intro m ρ m' ρ' _ hagree
  refine ⟨fun c => Cert.KernelIdeal.Hand.kOut
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9)), ?_, ?_⟩
  · exact (θ_run Cert.KernelIdeal.defs _ _).mono
      (fun r h c => ⟨(h c).1.trans (Cert.KernelIdeal.Hand.W11_v71 m ρ c), (h c).2⟩)
      (Cert.KernelIdeal.Hand.run_result (F := Ideal) m ρ)
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6, e7, e8, e9⟩ := hagree c
    rw [Cert.ReferenceIdeal.Read.val_main_v83_eq, e0, e1, e2, e3, e4, e5, e6, e7, e8, e9]
    exact result_eq _ _ _ _ _ _ _ _ _ _

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
